-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  IdealRules.truncf_extf.Statement Cert.KernelIdeal.S5000x128 .f32 .bf16
  ∧ IdealRules.truncf_extf.Statement Cert.KernelIdeal.S5000x128 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v65)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v65) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S1600000 : Shape := ⟨1, ![1600000]⟩
abbrev S100000 : Shape := ⟨1, ![100000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S100000 : S_.BroadcastsInDim S100000 (![] : Fin 0 → Fin S100000.rank)
  reducesTo_S100000_S_d0 : S100000.ReducesTo [0] S_

variable [Facts]

def fn_part2 {F : FTy → Type} [FloatOps F] (main_arg3 : IVec S100000 32) (main_v33 : IVec S_ 1) : IVec S_ 1 :=
  let main_c_12 : IVec S_ 32 := constantI S_ 32 0#32
  let main_v34 : IVec S100000 32 := broadcastInDim S100000 ![] bcast_S_S100000 main_c_12
  let main_v35 : IVec S100000 1 := cmpi .sge main_arg3 main_v34
  let main_c_13 : IVec S_ 32 := constantI S_ 32 64#32
  let main_v36 : IVec S100000 32 := broadcastInDim S100000 ![] bcast_S_S100000 main_c_13
  let main_v37 : IVec S100000 1 := cmpi .slt main_arg3 main_v36
  let main_v38 : IVec S100000 1 := andi main_v35 main_v37
  let main_c_14 : IVec S_ 1 := constantI S_ 1 1#1
  let main_v39 : IVec S_ 1 := (fun x v => Host.reduce IntOp.andi x v reducesTo_S100000_S_d0 h_S_) main_v38 main_c_14
  let main_v40 : IVec S_ 1 := andi main_v33 main_v39
  main_v40

def fn_part1 {F : FTy → Type} [FloatOps F] (main_arg3 : IVec S100000 32) (main_arg6 : FVec F S128 .f32) (main_arg7 : FVec F S128 .f32) (main_arg8 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg3 main_v33

def fn {F : FTy → Type} [FloatOps F] (main_arg0 : FVec F S100000x128 .f32) (main_arg1 : IVec S2x1600000 32) (main_arg2 : FVec F S1600000 .f32) (main_arg3 : IVec S100000 32) (main_arg4 : FVec F S128x128 .f32) (main_arg5 : FVec F S128 .f32) (main_arg6 : FVec F S128 .f32) (main_arg7 : FVec F S128 .f32) (main_arg8 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000 .f32 := Host.absf main_arg2
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg3 main_arg6 main_arg7 main_arg8 main_v13 main_v16
-- ==== Kernel.lean ====
abbrev S100000x128 : Shape := ⟨2, ![100000, 128]⟩
abbrev S2x1600000 : Shape := ⟨2, ![2, 1600000]⟩
abbrev S1600000 : Shape := ⟨1, ![1600000]⟩
abbrev S100000 : Shape := ⟨1, ![100000]⟩
abbrev S128x128 : Shape := ⟨2, ![128, 128]⟩
abbrev S128 : Shape := ⟨1, ![128]⟩
abbrev S5000x128 : Shape := ⟨2, ![5000, 128]⟩
abbrev S1x1600000 : Shape := ⟨2, ![1, 1600000]⟩
abbrev S_ : Shape := ⟨0, ![]⟩
abbrev S1600000x1 : Shape := ⟨2, ![1600000, 1]⟩
abbrev S1600000x128 : Shape := ⟨2, ![1600000, 128]⟩
abbrev S1x128 : Shape := ⟨2, ![1, 128]⟩
abbrev S100000x1 : Shape := ⟨2, ![100000, 1]⟩
abbrev S2x64x128 : Shape := ⟨3, ![2, 64, 128]⟩
abbrev S5000x1 : Shape := ⟨2, ![5000, 1]⟩
abbrev S1x64x128 : Shape := ⟨3, ![1, 64, 128]⟩
abbrev S64x128 : Shape := ⟨2, ![64, 128]⟩
abbrev S1x64 : Shape := ⟨2, ![1, 64]⟩
abbrev S5000x64 : Shape := ⟨2, ![5000, 64]⟩
abbrev S64x1 : Shape := ⟨2, ![64, 1]⟩

abbrev nBuf : Space → Nat
  | .hbm => 86
  | .vmem => 29
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S1600000, .f32⟩
  | .hbm, ⟨3, _⟩ => ⟨S100000, .i32⟩
  | .hbm, ⟨4, _⟩ => ⟨S128x128, .f32⟩
  | .hbm, ⟨5, _⟩ => ⟨S128, .f32⟩
  | .hbm, ⟨6, _⟩ => ⟨S128, .f32⟩
  | .hbm, ⟨7, _⟩ => ⟨S128, .f32⟩
  | .hbm, ⟨8, _⟩ => ⟨S128, .f32⟩
  | .hbm, ⟨9, _⟩ => ⟨S100000x128, .f32⟩
  | .hbm, ⟨10, _⟩ => ⟨S1x1600000, .i32⟩
  | .hbm, ⟨11, _⟩ => ⟨S1600000, .i32⟩
  | .hbm, ⟨12, _⟩ => ⟨S1x1600000, .i32⟩
  | .hbm, ⟨13, _⟩ => ⟨S1600000, .i32⟩
  | .hbm, ⟨14, _⟩ => ⟨S_, .i32⟩
  | .hbm, ⟨15, _⟩ => ⟨S1600000, .i32⟩
  | .hbm, ⟨16, _⟩ => ⟨S1600000, .i1⟩
  | .hbm, ⟨17, _⟩ => ⟨S_, .i32⟩
  | .hbm, ⟨18, _⟩ => ⟨S1600000, .i32⟩
  | .hbm, ⟨19, _⟩ => ⟨S1600000, .i32⟩
  | .hbm, ⟨20, _⟩ => ⟨S1600000, .i32⟩
  | .hbm, ⟨21, _⟩ => ⟨S1600000x1, .i32⟩
  | .hbm, ⟨22, _⟩ => ⟨S1600000x128, .f32⟩
  | .hbm, ⟨23, _⟩ => ⟨S1600000x1, .f32⟩
  | .hbm, ⟨24, _⟩ => ⟨S1600000x128, .f32⟩
  | .hbm, ⟨25, _⟩ => ⟨S1600000x128, .f32⟩
  | .hbm, ⟨26, _⟩ => ⟨S_, .f32⟩
  | .hbm, ⟨27, _⟩ => ⟨S100000x128, .f32⟩
  | .hbm, ⟨28, _⟩ => ⟨S1600000x1, .i32⟩
  | .hbm, ⟨29, _⟩ => ⟨S100000x128, .f32⟩
  | .hbm, ⟨30, _⟩ => ⟨S1x128, .f32⟩
  | .hbm, ⟨31, _⟩ => ⟨S100000x1, .i32⟩
  | .hbm, ⟨32, _⟩ => ⟨S100000x128, .f32⟩
  | .hbm, ⟨33, _⟩ => ⟨S2x64x128, .f32⟩
  | .hbm, ⟨34, _⟩ => ⟨S2x64x128, .f32⟩
  | .hbm, ⟨35, _⟩ => ⟨S1x64x128, .f32⟩
  | .hbm, ⟨36, _⟩ => ⟨S64x128, .f32⟩
  | .hbm, ⟨37, _⟩ => ⟨S1x64x128, .f32⟩
  | .hbm, ⟨38, _⟩ => ⟨S64x128, .f32⟩
  | .hbm, ⟨39, _⟩ => ⟨S64x128, .f32⟩
  | .hbm, ⟨40, _⟩ => ⟨S1x64x128, .f32⟩
  | .hbm, ⟨41, _⟩ => ⟨S64x128, .f32⟩
  | .hbm, ⟨42, _⟩ => ⟨S1x64x128, .f32⟩
  | .hbm, ⟨43, _⟩ => ⟨S64x128, .f32⟩
  | .hbm, ⟨44, _⟩ => ⟨S64x128, .f32⟩
  | .hbm, ⟨45, _⟩ => ⟨S_, .f32⟩
  | .hbm, ⟨46, _⟩ => ⟨S100000x1, .f32⟩
  | .hbm, ⟨47, _⟩ => ⟨S_, .f32⟩
  | .hbm, ⟨48, _⟩ => ⟨S64x1, .f32⟩
  | .hbm, ⟨49, _⟩ => ⟨S100000x1, .i32⟩
  | .hbm, ⟨50, _⟩ => ⟨S64x1, .f32⟩
  | .hbm, ⟨51, _⟩ => ⟨S_, .f32⟩
  | .hbm, ⟨52, _⟩ => ⟨S64x1, .f32⟩
  | .hbm, ⟨53, _⟩ => ⟨S64x1, .f32⟩
  | .hbm, ⟨54, _⟩ => ⟨S64x128, .f32⟩
  | .hbm, ⟨55, _⟩ => ⟨S64x128, .f32⟩
  | .hbm, ⟨56, _⟩ => ⟨S1x128, .f32⟩
  | .hbm, ⟨57, _⟩ => ⟨S64x128, .f32⟩
  | .hbm, ⟨58, _⟩ => ⟨S64x128, .f32⟩
  | .hbm, ⟨59, _⟩ => ⟨S64x128, .f32⟩
  | .hbm, ⟨60, _⟩ => ⟨S_, .f32⟩
  | .hbm, ⟨61, _⟩ => ⟨S1x128, .f32⟩
  | .hbm, ⟨62, _⟩ => ⟨S1x128, .f32⟩
  | .hbm, ⟨63, _⟩ => ⟨S1x128, .f32⟩
  | .hbm, ⟨64, _⟩ => ⟨S1x128, .f32⟩
  | .hbm, ⟨65, _⟩ => ⟨S64x128, .f32⟩
  | .hbm, ⟨66, _⟩ => ⟨S64x128, .f32⟩
  | .hbm, ⟨67, _⟩ => ⟨S64x128, .f32⟩
  | .hbm, ⟨68, _⟩ => ⟨S_, .f32⟩
  | .hbm, ⟨69, _⟩ => ⟨S64x128, .f32⟩
  | .hbm, ⟨70, _⟩ => ⟨S64x128, .f32⟩
  | .hbm, ⟨71, _⟩ => ⟨S_, .f32⟩
  | .hbm, ⟨72, _⟩ => ⟨S64x128, .f32⟩
  | .hbm, ⟨73, _⟩ => ⟨S64x128, .f32⟩
  | .hbm, ⟨74, _⟩ => ⟨S64x128, .f32⟩
  | .hbm, ⟨75, _⟩ => ⟨S64x128, .bf16⟩
  | .hbm, ⟨76, _⟩ => ⟨S64x128, .f32⟩
  | .hbm, ⟨77, _⟩ => ⟨S64x128, .f32⟩
  | .hbm, ⟨78, _⟩ => ⟨S64x128, .bf16⟩
  | .hbm, ⟨79, _⟩ => ⟨S64x128, .bf16⟩
  | .hbm, ⟨80, _⟩ => ⟨S64x128, .f32⟩
  | .hbm, ⟨81, _⟩ => ⟨S64x128, .f32⟩
  | .hbm, ⟨82, _⟩ => ⟨S64x128, .bf16⟩
  | .hbm, ⟨83, _⟩ => ⟨S1x128, .f32⟩
  | .hbm, ⟨84, _⟩ => ⟨S1x128, .f32⟩
  | .hbm, ⟨85, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S5000x1, .i32⟩
  | .local _ .vmem, ⟨9, _⟩ => ⟨S5000x1, .i32⟩
  | .local _ .vmem, ⟨10, _⟩ => ⟨S5000x128, .f32⟩
  | .local _ .vmem, ⟨11, _⟩ => ⟨S5000x128, .f32⟩
  | .local _ .vmem, ⟨12, _⟩ => ⟨S1x64x128, .f32⟩
  | .local _ .vmem, ⟨13, _⟩ => ⟨S1x64x128, .f32⟩
  | .local _ .vmem, ⟨14, _⟩ => ⟨S1x64x128, .f32⟩
  | .local _ .vmem, ⟨15, _⟩ => ⟨S1x64x128, .f32⟩
  | .local _ .vmem, ⟨16, _⟩ => ⟨S5000x128, .f32⟩
  | .local _ .vmem, ⟨17, _⟩ => ⟨S5000x128, .f32⟩
  | .local _ .vmem, ⟨18, _⟩ => ⟨S5000x1, .i32⟩
  | .local _ .vmem, ⟨19, _⟩ => ⟨S5000x1, .i32⟩
  | .local _ .vmem, ⟨20, _⟩ => ⟨S64x128, .bf16⟩
  | .local _ .vmem, ⟨21, _⟩ => ⟨S64x128, .bf16⟩
  | .local _ .vmem, ⟨22, _⟩ => ⟨S64x128, .bf16⟩
  | .local _ .vmem, ⟨23, _⟩ => ⟨S64x128, .bf16⟩
  | .local _ .vmem, ⟨24, _⟩ => ⟨S1x128, .f32⟩
  | .local _ .vmem, ⟨25, _⟩ => ⟨S1x128, .f32⟩
  | .local _ .vmem, ⟨26, _⟩ => ⟨S1x128, .f32⟩
  | .local _ .vmem, ⟨27, _⟩ => ⟨S5000x128, .f32⟩
  | .local _ .vmem, ⟨28, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_c : Ref sig .tc := ⟨.hbm, 14, rfl⟩
abbrev main_v5 : Ref sig .tc := ⟨.hbm, 15, rfl⟩
abbrev main_v6 : Ref sig .tc := ⟨.hbm, 16, rfl⟩
abbrev main_c_0 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20_0 : Ref sig .tc := ⟨.hbm, 32, rfl⟩
abbrev main_v20_1 : Ref sig .tc := ⟨.hbm, 33, rfl⟩
abbrev main_v20_2 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_1 : Ref sig .tc := ⟨.hbm, 45, rfl⟩
abbrev main_v31 : Ref sig .tc := ⟨.hbm, 46, rfl⟩
abbrev main_cst_2 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_3 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_4 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_cst_5 : Ref sig .tc := ⟨.hbm, 68, rfl⟩
abbrev main_v50 : Ref sig .tc := ⟨.hbm, 69, rfl⟩
abbrev main_v51 : Ref sig .tc := ⟨.hbm, 70, rfl⟩
abbrev main_cst_6 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc1_stg4_0 : Ref sig .tc := ⟨.vmem, 12, rfl⟩
abbrev cc1_stg4_1 : Ref sig .tc := ⟨.vmem, 13, rfl⟩
abbrev cc1_stg5_0 : Ref sig .tc := ⟨.vmem, 14, rfl⟩
abbrev cc1_stg5_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg5_0 : Ref sig .tc := ⟨.vmem, 23, rfl⟩
abbrev cc2_stg6_0 : Ref sig .tc := ⟨.vmem, 24, rfl⟩
abbrev cc2_stg7_0 : Ref sig .tc := ⟨.vmem, 25, rfl⟩
abbrev cc2_stg8_0 : Ref sig .tc := ⟨.vmem, 26, rfl⟩
abbrev cc2_stg9_0 : Ref sig .tc := ⟨.vmem, 27, rfl⟩
abbrev cc2_stg9_1 : Ref sig .tc := ⟨.vmem, 28, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc1_sem3_0 : DmaSem sig := 10
abbrev cc1_sem3_1 : DmaSem sig := 11
abbrev cc1_sem4_0 : DmaSem sig := 12
abbrev cc1_sem4_1 : DmaSem sig := 13
abbrev cc1_sem5_0 : DmaSem sig := 14
abbrev cc1_sem5_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem3_0 : DmaSem sig := 21
abbrev cc2_sem4_0 : DmaSem sig := 22
abbrev cc2_sem5_0 : DmaSem sig := 23
abbrev cc2_sem6_0 : DmaSem sig := 24
abbrev cc2_sem7_0 : DmaSem sig := 25
abbrev cc2_sem8_0 : DmaSem sig := 26
abbrev cc2_sem9_0 : DmaSem sig := 27
abbrev cc2_sem9_1 : DmaSem sig := 28

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![2, 10], ![false, false]⟩

def cc1_transform_0 (i : grid1.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.muli arg0 c10_i32
  let v1 : BitVec 32 := Scalar.addi v0 arg1
  let c0_i32 : BitVec 32 := 0#32
  let c0_i32_0 : BitVec 32 := 0#32
  ![v1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.muli arg0 c10_i32
  let v1 : BitVec 32 := Scalar.addi v0 arg1
  let c0_i32 : BitVec 32 := 0#32
  let c0_i32_0 : BitVec 32 := 0#32
  ![v1.toNat, c0_i32.toNat]

def cc1_transform_3 (i : grid1.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.muli arg0 c10_i32
  let v1 : BitVec 32 := Scalar.addi v0 arg1
  let c0_i32 : BitVec 32 := 0#32
  let c0_i32_0 : BitVec 32 := 0#32
  ![v1.toNat, c0_i32.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 2 → Memref sig .tc .vmem S5000x1 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1x64x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S1x64x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .i32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x128 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S64x128 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64x128 .bf16 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S64x128 .bf16 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x128 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 2 → Memref sig .tc .vmem S5000x128 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]

class Facts₀ : Prop where
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  shapeCasts_S128_S1x128 : S128.ShapeCasts S1x128
  shapeCasts_S100000_S100000x1 : S100000.ShapeCasts S100000x1
  inb_S1x64x128_S1x64x128_0_0_0 : ∀ a, (![0, 0, 0] : Fin 3 → Nat) a + S1x64x128.size a ≤ S1x64x128.size a
  h_S1x64x128 : 0 < S1x64x128.numel
  shapeCasts_S1x64x128_S64x128 : S1x64x128.ShapeCasts S64x128
  shapeCasts_S64x128_S1x64x128 : S64x128.ShapeCasts S1x64x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  iota_S1x64_d1_w32 : S1x64.Iotas .tc 32 [1]
  broadcasts_S5000x1_S5000x64 : S5000x1.Broadcasts S5000x64
  broadcasts_S1x64_S5000x64 : S1x64.Broadcasts S5000x64
  natLt_1_32 : 1 < 32
  slices_S2x64x128_S1x64x128_0_0_0 : S2x64x128.Slices ![0, 0, 0] S1x64x128
  slices_S2x64x128_S1x64x128_1_0_0 : S2x64x128.Slices ![1, 0, 0] S1x64x128
  bcast_S_S100000x1 : S_.BroadcastsInDim S100000x1 (![] : Fin 0 → Fin S100000x1.rank)
  bcast_S_S64x1 : S_.BroadcastsInDim S64x1 (![] : Fin 0 → Fin S64x1.rank)
  bcast_S100000_S100000x1_0 : S100000.BroadcastsInDim S100000x1 (![0] : Fin 1 → Fin S100000x1.rank)
  bcast_S64x1_S64x128_0_1 : S64x1.BroadcastsInDim S64x128 (![0, 1] : Fin 2 → Fin S64x128.rank)
  bcast_S_S1x128 : S_.BroadcastsInDim S1x128 (![] : Fin 0 → Fin S1x128.rank)
  bcast_S1x128_S64x128_0_1 : S1x128.BroadcastsInDim S64x128 (![0, 1] : Fin 2 → Fin S64x128.rank)
  bcast_S_S64x128 : S_.BroadcastsInDim S64x128 (![] : Fin 0 → Fin S64x128.rank)
  inb_S64x128_S64x128_0_0 : ∀ a, (![0, 0] : Fin 2 → Nat) a + S64x128.size a ≤ S64x128.size a
  h_S64x128 : 0 < S64x128.numel
  shapeCasts_S64x128_S64x128 : S64x128.ShapeCasts S64x128
  dot_S5000x128_S128x128_S5000x128_1_0_0_1_n_n_wf : DotDims.WF S5000x128 S128x128 S5000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x64_S5000x128_S64x128_0_0_1_1_n_n_wf : DotDims.WF S5000x64 S5000x128 S64x128 [0] [0] [1] [1] [] []
  scatter_S64x1_S100000x1_S100000x1_1_0_0_1_wf : ScatterDims.WF S64x1 S100000x1 S100000x1 [1] [0] [0] 1
  dot_S5000x64_S64x128_S5000x128_1_0_0_1_n_n_wf : DotDims.WF S5000x64 S64x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .i32 = 32 ∨ (Rect.block (s := S100000x1) S5000x1.size (cc1_transform_2 i) (hinb1_2 i)).WholeWords (EltTy.packing .i32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S100000x128.size a
  hwx1_3 : ∀ i : grid1.Coords, EltTy.bits .f32 = 32 ∨ (Rect.block (s := S100000x128) S5000x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x64x128.size a ≤ S2x64x128.size a
  hwx1_4 : ∀ i : grid1.Coords, EltTy.bits .f32 = 32 ∨ (Rect.block (s := S2x64x128) S1x64x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x64x128.size a ≤ S2x64x128.size a
  hwx1_5 : ∀ i : grid1.Coords, EltTy.bits .f32 = 32 ∨ (Rect.block (s := S2x64x128) S1x64x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S100000x1.size a
  hwx2_1 : ∀ i : grid2.Coords, EltTy.bits .i32 = 32 ∨ (Rect.block (s := S100000x1) S5000x1.size (cc2_transform_1 i) (hinb2_1 i)).WholeWords (EltTy.packing .i32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x128.size a ≤ S64x128.size a
  hwx2_2 : ∀ i : grid2.Coords, EltTy.bits .bf16 = 32 ∨ (Rect.block (s := S64x128) S64x128.size (cc2_transform_2 i) (hinb2_2 i)).WholeWords (EltTy.packing .bf16)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x128.size a ≤ S64x128.size a
  hwx2_3 : ∀ i : grid2.Coords, EltTy.bits .bf16 = 32 ∨ (Rect.block (s := S64x128) S64x128.size (cc2_transform_3 i) (hinb2_3 i)).WholeWords (EltTy.packing .bf16)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64x128.size a ≤ S64x128.size a
  hwx2_4 : ∀ i : grid2.Coords, EltTy.bits .bf16 = 32 ∨ (Rect.block (s := S64x128) S64x128.size (cc2_transform_4 i) (hinb2_4 i)).WholeWords (EltTy.packing .bf16)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S64x128.size a ≤ S64x128.size a
  hwx2_5 : ∀ i : grid2.Coords, EltTy.bits .bf16 = 32 ∨ (Rect.block (s := S64x128) S64x128.size (cc2_transform_5 i) (hinb2_5 i)).WholeWords (EltTy.packing .bf16)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x128.size a ≤ S1x128.size a
  hwx2_6 : ∀ i : grid2.Coords, EltTy.bits .f32 = 32 ∨ (Rect.block (s := S1x128) S1x128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x128.size a ≤ S1x128.size a
  hwx2_7 : ∀ i : grid2.Coords, EltTy.bits .f32 = 32 ∨ (Rect.block (s := S1x128) S1x128.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x128.size a ≤ S1x128.size a
  hwx2_8 : ∀ i : grid2.Coords, EltTy.bits .f32 = 32 ∨ (Rect.block (s := S1x128) S1x128.size (cc2_transform_8 i) (hinb2_8 i)).WholeWords (EltTy.packing .f32)
  hstage2_9 : ∀ j, (stage2_9 j).IsWhole
  nbuf2_9 : grid2.bufCount reads2_9 false = 2
  hreads2_9 : ∀ i i' : grid2.Coords, (∀ a, reads2_9 a = true → i a = i' a) → cc2_transform_9 i = cc2_transform_9 i'
  hinb2_9 : ∀ (i : grid2.Coords) a, (cc2_transform_9 i a + 1) * S5000x128.size a ≤ S100000x128.size a
  hwx2_9 : ∀ i : grid2.Coords, EltTy.bits .f32 = 32 ∨ (Rect.block (s := S100000x128) S5000x128.size (cc2_transform_9 i) (hinb2_9 i)).WholeWords (EltTy.packing .f32)

variable [Facts₀]

def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x64_S5000x128_S64x128_0_0_1_1_n_n : DotDims S5000x64 S5000x128 S64x128 where
  lhsContracting := [0]
  rhsContracting := [0]
  lhsNonContracting := [1]
  rhsNonContracting := [1]
  lhsBatch := []
  rhsBatch := []
  wf := dot_S5000x64_S5000x128_S64x128_0_0_1_1_n_n_wf
def scatter_S64x1_S100000x1_S100000x1_1_0_0_1 : ScatterDims S64x1 S100000x1 S100000x1 where
  updateWindowDims := [1]
  insertedWindowDims := [0]
  scatterDimsToOperandDims := [0]
  indexVectorDim := 1
  wf := scatter_S64x1_S100000x1_S100000x1_1_0_0_1_wf
def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v17) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v18) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v19) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v20_0) S5000x128.size cc1_transform_3 reads1_3 true false 2 stage1_3 sem1_3
    hrank1 hreads1_3 hinb1_3 nbuf1_3 (Memref.isWhole_whole _) hwx1_3 hstage1_3

abbrev win1_4 : Pipeline.Window sig grid1 :=
  Pipeline.Window.ofSpec (Memref.whole main_v20_1) S1x64x128.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v20_2) S1x64x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v20_0) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v19) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v55) S64x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v58) S64x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v59) S64x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v62) S64x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v39) S1x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v63) S1x128.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v64) S1x128.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v65) S5000x128.size cc2_transform_9 reads2_9 true false 2 stage2_9 sem2_9
    hrank2 hreads2_9 hinb2_9 nbuf2_9 (Memref.isWhole_whole _) hwx2_9 hstage2_9

abbrev win2 : Fin 10 → Pipeline.Window sig grid2 := fun | 0 => win2_0 | 1 => win2_1 | 2 => win2_2 | 3 => win2_3 | 4 => win2_4 | 5 => win2_5 | 6 => win2_6 | 7 => win2_7 | 8 => win2_8 | 9 => win2_9 | ⟨_ + 10, h⟩ => absurd h (Nat.not_lt.2 (Nat.le_add_left _ _))
abbrev spec2 : Fin 10 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S1600000 : Shape := ⟨1, ![1600000]⟩
abbrev S100000 : Shape := ⟨1, ![100000]⟩
abbrev S128x128 : Shape := ⟨2, ![128, 128]⟩
abbrev S128 : Shape := ⟨1, ![128]⟩
abbrev S1x1600000 : Shape := ⟨2, ![1, 1600000]⟩
abbrev S_ : Shape := ⟨0, ![]⟩
abbrev S1600000x1 : Shape := ⟨2, ![1600000, 1]⟩
abbrev S1600000x128 : Shape := ⟨2, ![1600000, 128]⟩
abbrev S1x128 : Shape := ⟨2, ![1, 128]⟩
abbrev S100000x1 : Shape := ⟨2, ![100000, 1]⟩
abbrev S64x1 : Shape := ⟨2, ![64, 1]⟩
abbrev S64x128 : Shape := ⟨2, ![64, 128]⟩

abbrev nBuf : Space → Nat
  | .hbm => 91
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S1600000, .f32⟩
  | .hbm, ⟨3, _⟩ => ⟨S100000, .i32⟩
  | .hbm, ⟨4, _⟩ => ⟨S128x128, .f32⟩
  | .hbm, ⟨5, _⟩ => ⟨S128, .f32⟩
  | .hbm, ⟨6, _⟩ => ⟨S128, .f32⟩
  | .hbm, ⟨7, _⟩ => ⟨S128, .f32⟩
  | .hbm, ⟨8, _⟩ => ⟨S128, .f32⟩
  | .hbm, ⟨9, _⟩ => ⟨S100000x128, .f32⟩
  | .hbm, ⟨10, _⟩ => ⟨S1x1600000, .i32⟩
  | .hbm, ⟨11, _⟩ => ⟨S1600000, .i32⟩
  | .hbm, ⟨12, _⟩ => ⟨S1x1600000, .i32⟩
  | .hbm, ⟨13, _⟩ => ⟨S1600000, .i32⟩
  | .hbm, ⟨14, _⟩ => ⟨S_, .i32⟩
  | .hbm, ⟨15, _⟩ => ⟨S1600000, .i32⟩
  | .hbm, ⟨16, _⟩ => ⟨S1600000, .i1⟩
  | .hbm, ⟨17, _⟩ => ⟨S_, .i32⟩
  | .hbm, ⟨18, _⟩ => ⟨S1600000, .i32⟩
  | .hbm, ⟨19, _⟩ => ⟨S1600000, .i32⟩
  | .hbm, ⟨20, _⟩ => ⟨S1600000, .i32⟩
  | .hbm, ⟨21, _⟩ => ⟨S1600000x1, .i32⟩
  | .hbm, ⟨22, _⟩ => ⟨S1600000x128, .f32⟩
  | .hbm, ⟨23, _⟩ => ⟨S1600000x1, .f32⟩
  | .hbm, ⟨24, _⟩ => ⟨S1600000x128, .f32⟩
  | .hbm, ⟨25, _⟩ => ⟨S1600000x128, .f32⟩
  | .hbm, ⟨26, _⟩ => ⟨S_, .f32⟩
  | .hbm, ⟨27, _⟩ => ⟨S100000x128, .f32⟩
  | .hbm, ⟨28, _⟩ => ⟨S1600000x1, .i32⟩
  | .hbm, ⟨29, _⟩ => ⟨S100000x128, .f32⟩
  | .hbm, ⟨30, _⟩ => ⟨S1x128, .f32⟩
  | .hbm, ⟨31, _⟩ => ⟨S100000x128, .f32⟩
  | .hbm, ⟨32, _⟩ => ⟨S100000x128, .f32⟩
  | .hbm, ⟨33, _⟩ => ⟨S_, .f32⟩
  | .hbm, ⟨34, _⟩ => ⟨S100000x128, .f32⟩
  | .hbm, ⟨35, _⟩ => ⟨S100000x128, .f32⟩
  | .hbm, ⟨36, _⟩ => ⟨S_, .f32⟩
  | .hbm, ⟨37, _⟩ => ⟨S100000x1, .f32⟩
  | .hbm, ⟨38, _⟩ => ⟨S_, .f32⟩
  | .hbm, ⟨39, _⟩ => ⟨S64x1, .f32⟩
  | .hbm, ⟨40, _⟩ => ⟨S100000x1, .i32⟩
  | .hbm, ⟨41, _⟩ => ⟨S64x1, .f32⟩
  | .hbm, ⟨42, _⟩ => ⟨S_, .f32⟩
  | .hbm, ⟨43, _⟩ => ⟨S64x1, .f32⟩
  | .hbm, ⟨44, _⟩ => ⟨S64x1, .f32⟩
  | .hbm, ⟨45, _⟩ => ⟨S_, .f32⟩
  | .hbm, ⟨46, _⟩ => ⟨S64x128, .f32⟩
  | .hbm, ⟨47, _⟩ => ⟨S100000x1, .i32⟩
  | .hbm, ⟨48, _⟩ => ⟨S64x128, .f32⟩
  | .hbm, ⟨49, _⟩ => ⟨S64x128, .f32⟩
  | .hbm, ⟨50, _⟩ => ⟨S64x128, .f32⟩
  | .hbm, ⟨51, _⟩ => ⟨S_, .i32⟩
  | .hbm, ⟨52, _⟩ => ⟨S100000, .i32⟩
  | .hbm, ⟨53, _⟩ => ⟨S100000, .i1⟩
  | .hbm, ⟨54, _⟩ => ⟨S_, .i32⟩
  | .hbm, ⟨55, _⟩ => ⟨S100000, .i32⟩
  | .hbm, ⟨56, _⟩ => ⟨S100000, .i32⟩
  | .hbm, ⟨57, _⟩ => ⟨S100000, .i32⟩
  | .hbm, ⟨58, _⟩ => ⟨S100000x1, .i32⟩
  | .hbm, ⟨59, _⟩ => ⟨S100000x128, .f32⟩
  | .hbm, ⟨60, _⟩ => ⟨S1x128, .f32⟩
  | .hbm, ⟨61, _⟩ => ⟨S100000x128, .f32⟩
  | .hbm, ⟨62, _⟩ => ⟨S100000x128, .f32⟩
  | .hbm, ⟨63, _⟩ => ⟨S100000x128, .f32⟩
  | .hbm, ⟨64, _⟩ => ⟨S100000x128, .f32⟩
  | .hbm, ⟨65, _⟩ => ⟨S_, .f32⟩
  | .hbm, ⟨66, _⟩ => ⟨S64x128, .f32⟩
  | .hbm, ⟨67, _⟩ => ⟨S100000x1, .i32⟩
  | .hbm, ⟨68, _⟩ => ⟨S64x128, .f32⟩
  | .hbm, ⟨69, _⟩ => ⟨S64x128, .f32⟩
  | .hbm, ⟨70, _⟩ => ⟨S64x128, .f32⟩
  | .hbm, ⟨71, _⟩ => ⟨S_, .f32⟩
  | .hbm, ⟨72, _⟩ => ⟨S64x128, .f32⟩
  | .hbm, ⟨73, _⟩ => ⟨S64x128, .f32⟩
  | .hbm, ⟨74, _⟩ => ⟨S64x128, .f32⟩
  | .hbm, ⟨75, _⟩ => ⟨S1x128, .f32⟩
  | .hbm, ⟨76, _⟩ => ⟨S100000x128, .f32⟩
  | .hbm, ⟨77, _⟩ => ⟨S100000x128, .f32⟩
  | .hbm, ⟨78, _⟩ => ⟨S_, .i32⟩
  | .hbm, ⟨79, _⟩ => ⟨S100000, .i32⟩
  | .hbm, ⟨80, _⟩ => ⟨S100000, .i1⟩
  | .hbm, ⟨81, _⟩ => ⟨S_, .i32⟩
  | .hbm, ⟨82, _⟩ => ⟨S100000, .i32⟩
  | .hbm, ⟨83, _⟩ => ⟨S100000, .i32⟩
  | .hbm, ⟨84, _⟩ => ⟨S100000, .i32⟩
  | .hbm, ⟨85, _⟩ => ⟨S100000x1, .i32⟩
  | .hbm, ⟨86, _⟩ => ⟨S100000x128, .f32⟩
  | .hbm, ⟨87, _⟩ => ⟨S100000x128, .f32⟩
  | .hbm, ⟨88, _⟩ => ⟨S1x128, .f32⟩
  | .hbm, ⟨89, _⟩ => ⟨S100000x128, .f32⟩
  | .hbm, ⟨90, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_c : Ref sig .tc := ⟨.hbm, 14, rfl⟩
abbrev main_v5 : Ref sig .tc := ⟨.hbm, 15, rfl⟩
abbrev main_v6 : Ref sig .tc := ⟨.hbm, 16, rfl⟩
abbrev main_c_0 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_call0_cst : Ref sig .tc := ⟨.hbm, 33, rfl⟩
abbrev main_call0_v0 : Ref sig .tc := ⟨.hbm, 34, rfl⟩
abbrev main_v21 : Ref sig .tc := ⟨.hbm, 35, rfl⟩
abbrev main_cst_1 : Ref sig .tc := ⟨.hbm, 36, rfl⟩
abbrev main_v22 : Ref sig .tc := ⟨.hbm, 37, rfl⟩
abbrev main_cst_2 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_3 : Ref sig .tc := ⟨.hbm, 42, rfl⟩
abbrev main_v26 : Ref sig .tc := ⟨.hbm, 43, rfl⟩
abbrev main_v27 : Ref sig .tc := ⟨.hbm, 44, rfl⟩
abbrev main_cst_4 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_c_5 : Ref sig .tc := ⟨.hbm, 51, rfl⟩
abbrev main_v33 : Ref sig .tc := ⟨.hbm, 52, rfl⟩
abbrev main_v34 : Ref sig .tc := ⟨.hbm, 53, rfl⟩
abbrev main_c_6 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_7 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_cst_8 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_c_9 : Ref sig .tc := ⟨.hbm, 78, rfl⟩
abbrev main_v56 : Ref sig .tc := ⟨.hbm, 79, rfl⟩
abbrev main_v57 : Ref sig .tc := ⟨.hbm, 80, rfl⟩
abbrev main_c_10 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x1 : S_.BroadcastsInDim S100000x1 (![] : Fin 0 → Fin S100000x1.rank)
  bcast_S_S64x1 : S_.BroadcastsInDim S64x1 (![] : Fin 0 → Fin S64x1.rank)
  bcast_S100000_S100000x1_0 : S100000.BroadcastsInDim S100000x1 (![0] : Fin 1 → Fin S100000x1.rank)
  bcast_S_S64x128 : S_.BroadcastsInDim S64x128 (![] : Fin 0 → Fin S64x128.rank)
  bcast_S64x1_S64x128_0_1 : S64x1.BroadcastsInDim S64x128 (![0, 1] : Fin 2 → Fin S64x128.rank)
  bcast_S_S100000 : S_.BroadcastsInDim S100000 (![] : Fin 0 → Fin S100000.rank)
  dot_S100000x128_S128x128_S100000x128_1_0_0_1_n_n_wf : DotDims.WF S100000x128 S128x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S64x1_S100000x1_S100000x1_1_0_0_1_wf : ScatterDims.WF S64x1 S100000x1 S100000x1 [1] [0] [0] 1
  scatter_S64x128_S100000x1_S100000x128_1_0_0_1_wf : ScatterDims.WF S64x128 S100000x1 S100000x128 [1] [0] [0] 1
  gather_S64x128_S100000x1_S100000x128_1_0_n_n_0_1_1128_wf : GatherDims.WF S64x128 S100000x1 S100000x128 [1] [0] [] [0] [] 1 ![1, 128]

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S64x1_S100000x1_S100000x1_1_0_0_1 : ScatterDims S64x1 S100000x1 S100000x1 where
  updateWindowDims := [1]
  insertedWindowDims := [0]
  scatterDimsToOperandDims := [0]
  indexVectorDim := 1
  wf := scatter_S64x1_S100000x1_S100000x1_1_0_0_1_wf
def scatter_S64x128_S100000x1_S100000x128_1_0_0_1 : ScatterDims S64x128 S100000x1 S100000x128 where
  updateWindowDims := [1]
  insertedWindowDims := [0]
  scatterDimsToOperandDims := [0]
  indexVectorDim := 1
  wf := scatter_S64x128_S100000x1_S100000x128_1_0_0_1_wf
def gather_S64x128_S100000x1_S100000x128_1_0_n_n_0_1_1128 : GatherDims S64x128 S100000x1 S100000x128 where
  offsetDims := [1]
  collapsedSliceDims := [0]
  operandBatchingDims := []
  startIndicesBatchingDims := []
  startIndexMap := [0]
  indexVectorDim := 1
  sliceSizes := ![1, 128]
  wf := gather_S64x128_S100000x1_S100000x128_1_0_n_n_0_1_1128_wf

class Facts : Prop extends Facts₀ where

variable [Facts]
-- ==== Proof.SpecR.lean ====
/-
  The arithmetic of the graph-normalisation tail, over the real numbers.

  Given the rectified node features `h : n × D`, a graph id `gid i` in `0 … G − 1` for every node, a per-column
  scale `s`, weight `gw`, bias `gb` and a positive `ε`:

  * `cnt g` is the number of nodes of graph `g`, but at least one; `sum1`, `sum2` are the per-graph column sums of
    `h` and of `h²`; `mean = sum1 / cnt`;
  * the two-pass form centres first, `cen = h − mean[gid] · s`, takes `varR = (Σ cen²) / cnt` and returns
    `gw · cen / √(varR + ε) + gb`;
  * the one-pass (moment) form takes `varK = max (sum2 / cnt − mean² · (2 s − s²)) 0` and returns
    `gw · cen · (√(varK + ε))⁻¹ + gb`.

  The two agree (`outK_eq_outR`): for a graph with at least one node, `cnt` is its node count `N`, `Σ h = N · mean`, so
  `Σ (h − mean s)² = Σ h² − 2 s mean · N mean + N mean² s²` and dividing by `N` gives `sum2 / N − mean² (2 s − s²)`, which is
  a sum of squares over a positive number, hence nonnegative, so the clamp at `0` does nothing; a graph with no node has
  all sums `0` and `cnt = 1`, and both variances are `0`. Finally `x · (√v)⁻¹ = x / √v`.

  The per-graph sums are also split by halves of the node range (`part1`, `part2`: the nodes `i` with `i / half = c`), the
  form in which a two-slot accumulation delivers them: `sum1 = part1 0 + part1 1`.
-/
import Idealize.ShloMosaic.PureOps.Ideal

noncomputable section

namespace Cert.Spec

open Finset

variable {n G D : ℕ} (h : Fin n → Fin D → ℝ) (gid : Fin n → Fin G) (s gw gb : Fin D → ℝ) (ε : ℝ)

/-- The node count of graph `g`, but at least one. -/
def cnt (g : Fin G) : ℝ := max (∑ i : Fin n, if gid i = g then (1 : ℝ) else 0) 1

/-- The column sums of `h` over the nodes of graph `g`. -/
def sum1 (g : Fin G) (d : Fin D) : ℝ := ∑ i : Fin n, if gid i = g then h i d else 0

/-- The column sums of `h²` over the nodes of graph `g`. -/
def sum2 (g : Fin G) (d : Fin D) : ℝ := ∑ i : Fin n, if gid i = g then h i d * h i d else 0

/-- The part of `sum1` contributed by the nodes of the `c`-th stretch of `half` consecutive nodes. -/
def part1 (half : ℕ) (c : ℕ) (g : Fin G) (d : Fin D) : ℝ :=
  ∑ i : Fin n, if i.val / half = c ∧ gid i = g then h i d else 0

/-- The part of `sum2` contributed by the nodes of the `c`-th stretch of `half` consecutive nodes. -/
def part2 (half : ℕ) (c : ℕ) (g : Fin G) (d : Fin D) : ℝ :=
  ∑ i : Fin n, if i.val / half = c ∧ gid i = g then h i d * h i d else 0

def mean (g : Fin G) (d : Fin D) : ℝ := sum1 h gid g d / cnt gid g

/-- The centred features: `h − mean[gid] · s`. -/
def cen (i : Fin n) (d : Fin D) : ℝ := h i d - mean h gid (gid i) d * s d

/-- The variance by moments, clamped at zero. -/
def varK (g : Fin G) (d : Fin D) : ℝ :=
  max (sum2 h gid g d / cnt gid g - (mean h gid g d * mean h gid g d) * (2 * s d - s d * s d)) 0

def invstdK (g : Fin G) (d : Fin D) : ℝ := (Real.sqrt (varK h gid s g d + ε))⁻¹

/-- The one-pass result. -/
def outK (i : Fin n) (d : Fin D) : ℝ := gw d * cen h gid s i d * invstdK h gid s ε (gid i) d + gb d

/-- The variance of the centred features. -/
def varR (g : Fin G) (d : Fin D) : ℝ :=
  (∑ i : Fin n, if gid i = g then cen h gid s i d * cen h gid s i d else 0) / cnt gid g

def stdR (g : Fin G) (d : Fin D) : ℝ := Real.sqrt (varR h gid s g d + ε)

/-- The two-pass result. -/
def outR (i : Fin n) (d : Fin D) : ℝ := gw d * cen h gid s i d / stdR h gid s ε (gid i) d + gb d

theorem cnt_pos (g : Fin G) : 0 < cnt gid g := lt_of_lt_of_le one_pos (le_max_right _ _)

/-! ### The same tables from two-slot partial sums `P1 c`, `P2 c` (slots `c = 0, 1`) -/

def meanP (P1 : ℕ → Fin G → Fin D → ℝ) (g : Fin G) (d : Fin D) : ℝ := (P1 0 g d + P1 1 g d) / cnt gid g

def varP (P1 P2 : ℕ → Fin G → Fin D → ℝ) (g : Fin G) (d : Fin D) : ℝ :=
  max ((P2 0 g d + P2 1 g d) / cnt gid g - (meanP gid P1 g d * meanP gid P1 g d) * (2 * s d - s d * s d)) 0

def invP (P1 P2 : ℕ → Fin G → Fin D → ℝ) (g : Fin G) (d : Fin D) : ℝ := (Real.sqrt (varP gid s P1 P2 g d + ε))⁻¹

/-- With `n ≤ 2 · half` every node index lies in the stretch `0` or in the stretch `1`. -/
private theorem stretch_cases (half : ℕ) (hn : n ≤ 2 * half) (i : Fin n) :
    i.val / half = 0 ∨ i.val / half = 1 := by
  have hi : i.val < half * 2 := by have := i.isLt; omega
  have h2 : i.val / half < 2 := Nat.div_lt_of_lt_mul hi
  generalize i.val / half = q at h2 ⊢
  omega

/-- A two-slot accumulation adds up to the whole sum, when the two stretches cover the nodes. -/
theorem sum1_eq_parts (half : ℕ) (hn : n ≤ 2 * half) (hh : 0 < half) (g : Fin G) (d : Fin D) :
    sum1 h gid g d = part1 h gid half 0 g d + part1 h gid half 1 g d := by
  unfold sum1 part1
  rw [← Finset.sum_add_distrib]
  apply Finset.sum_congr rfl
  intro i _
  -- each node lies in exactly one of the two stretches, so one of the two summands is its term and the other is zero
  rcases stretch_cases half hn i with h0 | h1
  · by_cases hg : gid i = g <;> simp [h0, hg]
  · by_cases hg : gid i = g <;> simp [h1, hg]

theorem sum2_eq_parts (half : ℕ) (hn : n ≤ 2 * half) (hh : 0 < half) (g : Fin G) (d : Fin D) :
    sum2 h gid g d = part2 h gid half 0 g d + part2 h gid half 1 g d := by
  unfold sum2 part2
  rw [← Finset.sum_add_distrib]
  apply Finset.sum_congr rfl
  intro i _
  rcases stretch_cases half hn i with h0 | h1
  · by_cases hg : gid i = g <;> simp [h0, hg]
  · by_cases hg : gid i = g <;> simp [h1, hg]

/-- The tables computed from the two-slot partial sums are the tables of the whole sums. -/
theorem meanP_parts (half : ℕ) (hn : n ≤ 2 * half) (hh : 0 < half) (g : Fin G) (d : Fin D) :
    meanP gid (part1 h gid half) g d = mean h gid g d := by
  unfold meanP mean
  rw [sum1_eq_parts h gid half hn hh g d]

theorem invP_parts (half : ℕ) (hn : n ≤ 2 * half) (hh : 0 < half) (g : Fin G) (d : Fin D) :
    invP gid s ε (part1 h gid half) (part2 h gid half) g d = invstdK h gid s ε g d := by
  unfold invP invstdK varP varK
  rw [meanP_parts h gid half hn hh g d, sum2_eq_parts h gid half hn hh g d]

/-- Expanding the square: `Σ_g (h − t)² = Σ_g h² − 2 t Σ_g h + N t²`, with `N` the number of nodes of graph `g`. -/
private theorem sq_sum_expand (g : Fin G) (d : Fin D) (t : ℝ) :
    (∑ i : Fin n, if gid i = g then (h i d - t) * (h i d - t) else 0)
      = sum2 h gid g d - 2 * t * sum1 h gid g d
          + (∑ i : Fin n, if gid i = g then (1 : ℝ) else 0) * (t * t) := by
  unfold sum1 sum2
  rw [Finset.mul_sum, Finset.sum_mul, ← Finset.sum_sub_distrib, ← Finset.sum_add_distrib]
  apply Finset.sum_congr rfl
  intro i _
  split_ifs <;> ring

/-- On the nodes of graph `g` the centred feature is `h − mean g · s`: there `mean (gid i)` is `mean g`. -/
private theorem cen_sum_eq (g : Fin G) (d : Fin D) :
    (∑ i : Fin n, if gid i = g then cen h gid s i d * cen h gid s i d else 0)
      = ∑ i : Fin n, if gid i = g
          then (h i d - mean h gid g d * s d) * (h i d - mean h gid g d * s d) else 0 := by
  apply Finset.sum_congr rfl
  intro i _
  split_ifs with hg
  · unfold cen; rw [hg]
  · rfl

/-- `N · mean = cnt · mean`: a graph with a node has `N ≥ 1`, so `cnt = N`; a graph without one has `sum1 = 0`,
    so its mean is `0`. -/
private theorem count_mul_mean (g : Fin G) (d : Fin D) :
    (∑ i : Fin n, if gid i = g then (1 : ℝ) else 0) * mean h gid g d = cnt gid g * mean h gid g d := by
  by_cases hex : ∃ i : Fin n, gid i = g
  · obtain ⟨i0, hi0⟩ := hex
    have hN : (1 : ℝ) ≤ ∑ i : Fin n, if gid i = g then (1 : ℝ) else 0 := by
      have hle : (if gid i0 = g then (1 : ℝ) else 0) ≤ ∑ i : Fin n, if gid i = g then (1 : ℝ) else 0 :=
        Finset.single_le_sum (f := fun i : Fin n => if gid i = g then (1 : ℝ) else 0)
          (fun i _ => by split_ifs <;> norm_num) (Finset.mem_univ i0)
      rwa [if_pos hi0] at hle
    unfold cnt
    rw [max_eq_left hN]
  · have hne : ∀ i : Fin n, ¬ gid i = g := fun i hi => hex ⟨i, hi⟩
    have hs : sum1 h gid g d = 0 := by
      unfold sum1
      apply Finset.sum_eq_zero
      intro i _
      rw [if_neg (hne i)]
    have hm : mean h gid g d = 0 := by unfold mean; rw [hs, zero_div]
    rw [hm, mul_zero, mul_zero]

/-- The identity of moments over the reals: with `m = S1 / c` and `N m = c m`,
    `S2 / c − m² (2 t − t²) = (S2 − 2 m t S1 + N m² t²) / c`. -/
private theorem moment_identity (S1 S2 N c m t : ℝ) (hc : c ≠ 0) (hm : m = S1 / c) (hN : N * m = c * m) :
    S2 / c - (m * m) * (2 * t - t * t) = (S2 - 2 * (m * t) * S1 + N * ((m * t) * (m * t))) / c := by
  have hS1 : S1 = m * c := by rw [hm]; field_simp
  have h1 : S2 / c * c = S2 := by field_simp
  rw [eq_div_iff hc]
  linear_combination h1 + 2 * m * t * hS1 - m * t * t * hN

/-- A sum of squares over a positive number. -/
private theorem varR_nonneg_aux (g : Fin G) (d : Fin D) : 0 ≤ varR h gid s g d := by
  unfold varR
  apply div_nonneg
  · apply Finset.sum_nonneg
    intro i _
    split_ifs
    · exact mul_self_nonneg _
    · exact le_refl _
  · exact (cnt_pos gid g).le

/-- The moment form of the variance is the variance of the centred features, and is not negative. -/
theorem varK_eq_varR (g : Fin G) (d : Fin D) : varK h gid s g d = varR h gid s g d := by
  have hnn : 0 ≤ varR h gid s g d := varR_nonneg_aux h gid s g d
  have hc : cnt gid g ≠ 0 := (cnt_pos gid g).ne'
  -- before the clamp the moment form is already the centred variance
  have hid : sum2 h gid g d / cnt gid g - (mean h gid g d * mean h gid g d) * (2 * s d - s d * s d)
      = varR h gid s g d := by
    unfold varR
    rw [cen_sum_eq h gid s g d, sq_sum_expand h gid g d (mean h gid g d * s d)]
    exact moment_identity (sum1 h gid g d) (sum2 h gid g d) _ (cnt gid g) (mean h gid g d) (s d) hc rfl
      (count_mul_mean h gid g d)
  -- and it is not negative, so the clamp at zero does nothing
  unfold varK
  rw [hid, max_eq_left hnn]

theorem varR_nonneg (g : Fin G) (d : Fin D) : 0 ≤ varR h gid s g d :=
  varR_nonneg_aux h gid s g d

/-- The one-pass and the two-pass results agree. -/
theorem outK_eq_outR (hε : 0 < ε) (i : Fin n) (d : Fin D) : outK h gid s gw gb ε i d = outR h gid s gw gb ε i d := by
  unfold outK outR invstdK stdR
  rw [varK_eq_varR h gid s (gid i) d, div_eq_mul_inv]

end Cert.Spec

end
-- ==== Proof.Lift.lean ====
/-
  Extended reals that are real numbers: the facts that carry a computation on finite values over to ℝ.

  On real arguments the exact float operations are the real ones: a finite sum of reals, the quotient by a nonzero
  real, the square root of a nonnegative real, the reciprocal square root of a positive real, the maximum, and
  `x − x = 0` (which fails at an infinity). The four float constants the two programs spell are stated here too, once:
  `0`, `1`, `2` and the positive `ε = 10995116 / 2⁴⁰` (the single-precision number nearest `10⁻⁵`).
-/
import Idealize.ShloMosaic.PureOps.Ideal
import Idealize.ShloMosaic.PureOps.Ideal.Laws

noncomputable section

namespace Cert.Lift

open Idealize.ShloMosaic

/-- The coercion of a finite real sum is the sum of the coercions. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The exact quotient of two reals, the divisor not zero, is the real quotient. -/
theorem div_coe_coe (a b : ℝ) (hb : b ≠ 0) : Ideal.div (a : EReal) (b : EReal) = ((a / b : ℝ) : EReal) := by
  rw [Ideal.div_coe hb, ← EReal.coe_mul, mul_one_div]

theorem sqrt_coe_of_nonneg (a : ℝ) (ha : 0 ≤ a) : Ideal.sqrt (a : EReal) = ((Real.sqrt a : ℝ) : EReal) := by
  rw [Ideal.sqrt_coe, if_neg (not_lt.mpr ha)]

theorem rsqrt_coe_of_pos (a : ℝ) (ha : 0 < a) : Ideal.rsqrt (a : EReal) = (((Real.sqrt a)⁻¹ : ℝ) : EReal) := by
  rw [Ideal.rsqrt_coe, if_neg (not_lt.mpr ha.le), if_neg ha.ne']

theorem sub_self_coe (a : ℝ) : (a : EReal) - (a : EReal) = 0 := by
  rw [← EReal.coe_sub, sub_self, EReal.coe_zero]

theorem max_coe (a b : ℝ) : max (a : EReal) (b : EReal) = ((max a b : ℝ) : EReal) :=
  (EReal.coe_strictMono.monotone.map_max (a := a) (b := b)).symm

/-! ## The constants -/

/-- The value of the word `0x3727C5AC`: the single-precision number nearest `10⁻⁵`. -/
def epsR : ℝ := 10995116 / 1099511627776

theorem epsR_pos : 0 < epsR := by unfold epsR; norm_num

theorem ofBits_zero : Ideal.ofBits .f32 0x00000000#32 = ((0 : ℝ) : EReal) := by
  rw [Ideal.ofBits_zero_f32, EReal.coe_zero]

theorem ofBits_one : Ideal.ofBits .f32 0x3F800000#32 = ((1 : ℝ) : EReal) := by
  simp [Ideal.ofBits, Ideal.ieee, -EReal.coe_mul]; norm_num

theorem ofBits_two : Ideal.ofBits .f32 0x40000000#32 = ((2 : ℝ) : EReal) := by
  simp [Ideal.ofBits, Ideal.ieee, -EReal.coe_mul]; norm_num

theorem ofBits_eps : Ideal.ofBits .f32 0x3727C5AC#32 = ((epsR : ℝ) : EReal) := by
  unfold epsR
  simp [Ideal.ofBits, Ideal.ieee, -EReal.coe_mul]; norm_num

end Cert.Lift

end
-- ==== Proof.LibPlainMatmul.lean ====
/-
  A plain matrix product read at an index.

  For the dimension numbers `[1] x [0]` with no batch axes (`DotDims.plain M K N`: rows by contraction times contraction by
  columns), a `tpu.matmul` into the zero accumulator, read on the extended reals at the output index `(r, j)`, is
  `∑ k, x (r, k) * w (k, j)`, for any extents and any operand formats. A printed dot record with the same six axis lists is
  that record (its well-formedness field is a proof), so the lemma serves every such record through `rfl`.
-/
import Idealize.ShloMosaic.PureOps.Ideal.Laws
import Idealize.ShloMosaic.Lib.ValueIdx

noncomputable section

namespace Idealize.ShloMosaic.PlainMatmul

open Idealize.ShloMosaic Idealize.ShloMosaic.ValueIdx

variable (M K N : Nat)

/-- The left operand's row is the output's row. -/
theorem lhs_row (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from
      List.mem_singleton.mpr rfl)]
  rfl

/-- The left operand's column is the contraction coordinate. -/
theorem lhs_col (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

/-- The right operand's row is the contraction coordinate. -/
theorem rhs_row (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

/-- The right operand's column is the output's column. -/
theorem rhs_col (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from
      List.mem_singleton.mpr rfl)]
  rfl

/-- A plain product into the zero accumulator, at `(r, j)`: the sum over the contraction of the row of the left operand
    against the column of the right one. -/
theorem matmul_zero_apply {φ₁ φ₂ : FTy} (x : FVec Ideal ⟨2, ![M, K]⟩ φ₁) (w : FVec Ideal ⟨2, ![K, N]⟩ φ₂)
    (r : Fin M) (j : Fin N) :
    FloatOps.matmul (DotDims.plain M K N) none x w (constant ⟨2, ![M, N]⟩ .f32 0x00000000#32) (ix2 r j)
      = ∑ k : Fin K, x (ix2 r k) * w (ix2 k j) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r j) ((contrEquiv1 (DotDims.plain M K N) K rfl rfl).symm k) = ix2 r k :=
    funext fun a => Fin.ext (by
      match a with
      | ⟨0, _⟩ => exact lhs_row M K N _ _
      | ⟨1, _⟩ => exact (lhs_col M K N _ _).trans hk)
  have er : (DotDims.plain M K N).rhsIdx (ix2 r j) ((contrEquiv1 (DotDims.plain M K N) K rfl rfl).symm k) = ix2 k j :=
    funext fun a => Fin.ext (by
      match a with
      | ⟨0, _⟩ => exact (rhs_row M K N _ _).trans hk
      | ⟨1, _⟩ => exact rhs_col M K N _ _)
  rw [el, er]

end Idealize.ShloMosaic.PlainMatmul

end
-- ==== Proof.KRegion0.lean ====
/-
  Region 0 (the dense transform): what its result array holds after the grid has run.
-/
import proofs.«402418_j35416300323759_3_alg».proof.Proof.Gen.KernelIdeal.Frame
import proofs.«402418_j35416300323759_3_alg».proof.Proof.SpecR
import proofs.«402418_j35416300323759_3_alg».proof.Proof.Lift
import proofs.«402418_j35416300323759_3_alg».proof.Proof.LibPlainMatmul
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)
open Cert.KernelIdeal Cert.KernelIdeal.Gen

namespace Cert.KernelIdeal.Val0

variable (V : (c : Dev nD) → (b : Ref sig .tc) → Buf (Elt Ideal) ((c : Thread nD τ).loc b))

/-- The dot product of row i of x with column j of w. -/
def mm (x : FVec Ideal S100000x128 .f32) (w : FVec Ideal S128x128 .f32) (i : Fin 100000) (j : Fin 128) : EReal :=
  ∑ k : Fin 128, x (ix2 i k) * w (ix2 k j)

/-- A whole-block access starts at offset zero on both axes. -/
theorem zero_offsets : (![0, 0] : Fin 2 → Nat) = fun _ => 0 := funext fun a => by fin_cases a <;> rfl

/-- One block's product at (r, j): row r of the row block against column j of the weight block; narrowing the operands
    changes nothing on the extended reals, and the accumulator starts at zero. -/
theorem payload_apply (x0 : Vec Ideal S5000x128 .f32) (x1 : Vec Ideal S128x128 .f32) (r : Fin 5000) (j : Fin 128) :
    k0_pay1 (F := Ideal) x0 x1 (ix2 r j) = ∑ k : Fin 128, x0 (ix2 r k) * x1 (ix2 k j) := by
  unfold k0_pay1
  refine (Idealize.ShloMosaic.PlainMatmul.matmul_zero_apply 5000 128 128
    (truncf .bf16 x0 bitsLt_bf16_f32) (truncf .bf16 x1 bitsLt_bf16_f32) r j).trans ?_
  simp only [truncf_apply]

/-- The block indices over the grid: point t reads row block t of the first operand and the one block of the second, and
    writes row block t of the result. -/
theorem block_indices : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The product array: entry i is the dot product of row (i 0) of x with column (i 1) of w. -/
def prodArr (x : FVec Ideal S100000x128 .f32) (w : FVec Ideal S128x128 .f32) : FVec Ideal S100000x128 .f32 :=
  fun i => mm x w (i 0) (i 1)

/-- Entry (r, j) of a row block's product is entry (R, j) of the whole product, whenever row r of the block is row R of
    the first operand and the weight block is the whole second operand. -/
theorem block_entry (x0 : Vec Ideal S5000x128 .f32) (x1 : Vec Ideal S128x128 .f32)
    (X : FVec Ideal S100000x128 .f32) (W : FVec Ideal S128x128 .f32)
    (y : S5000x128.Idx) (i : S100000x128.Idx) (r : Fin 5000) (j : Fin 128) (R : Fin 100000)
    (hy : y = ix2 r j) (hi : i = ix2 R j)
    (hx : ∀ k : Fin 128, x0 (ix2 r k) = X (ix2 R k)) (hw : x1 = W) :
    k0_pay1 (F := Ideal) x0 x1 y = prodArr X W i := by
  subst hy hi hw
  rw [payload_apply]
  show _ = mm X x1 R j
  unfold mm
  exact Finset.sum_congr rfl fun k _ => by rw [hx k]

/-- What grid point t writes back is row block t of the product array: rows 5000 t … 5000 t + 4999. -/
theorem flushed_eq (c : Dev nD) (t : Fin cfg0.N) :
    (dat0 (F := Ideal) V c).flushed 2 t
      = ((cfg0.win 2).blk t).view.read (Elt Ideal) (prodArr (V c main_arg0) (V c main_arg4)) := by
  show (cfg0.win 2).cut (grid0.coords t) ((dat0 V c).after 2 t) = _
  rw [after0_2]
  unfold out0_2
  rw [View.canon_unit_zero zero_offsets]
  simp only [View.ld_unit_zero (S := S5000x128) zero_offsets, View.ld_unit_zero (S := S128x128) zero_offsets]
  obtain ⟨e00, e01, e10, e11, e20, e21⟩ := block_indices t
  have hN : cfg0.N = 20 := N_0
  have ht : t.val < 20 := hN ▸ t.isLt
  funext y
  have hy0 : (y 0).val < 5000 := (y 0).isLt
  have hy1 : (y 1).val < 128 := (y 1).isLt
  have hR : t.val * 5000 + (y 0).val < 100000 := by omega
  refine block_entry (iblk0 V c 0 t) (iblk0 V c 1 t) (V c main_arg0) (V c main_arg4)
    (win0_2.xinj (grid0.coords t) y) (((cfg0.win 2).blk t).view.emb y)
    ⟨(y 0).val, hy0⟩ ⟨(y 1).val, hy1⟩ ⟨t.val * 5000 + (y 0).val, hR⟩ ?_ ?_ ?_ ?_
  · -- the block's own index, by coordinates
    funext a
    match a with
    | ⟨0, _⟩ => rfl
    | ⟨1, _⟩ => rfl
  · -- where the output block's entry sits in the array: block index × block size + the inner coordinate
    funext a; apply Fin.ext
    match a with
    | ⟨0, _⟩ => show win0_2.index t (0 : Fin 2) * 5000 + 1 * (y 0).val = t.val * 5000 + (y 0).val; rw [e20]; omega
    | ⟨1, _⟩ => show win0_2.index t (1 : Fin 2) * 128 + 1 * (y 1).val = (y 1).val; rw [e21]; omega
  · -- row r of the first operand's block is row 5000 t + r of the array
    intro k
    show V c main_arg0 (((cfg0.win 0).blk t).view.emb (ix2 ⟨(y 0).val, hy0⟩ k)) = V c main_arg0 (ix2 ⟨t.val * 5000 + (y 0).val, hR⟩ k)
    refine congrArg (V c main_arg0) ?_
    funext a; apply Fin.ext
    match a with
    | ⟨0, _⟩ => show win0_0.index t (0 : Fin 2) * 5000 + 1 * (y 0).val = t.val * 5000 + (y 0).val; rw [e00]; omega
    | ⟨1, _⟩ => show win0_0.index t (1 : Fin 2) * 128 + 1 * k.val = k.val; rw [e01]; omega
  · -- the second operand's one block is the whole array
    funext z
    show V c main_arg4 (((cfg0.win 1).blk t).view.emb z) = V c main_arg4 z
    refine congrArg (V c main_arg4) ?_
    funext a; apply Fin.ext
    match a with
    | ⟨0, _⟩ => show win0_1.index t (0 : Fin 2) * 128 + 1 * (z 0).val = (z 0).val; rw [e10]; omega
    | ⟨1, _⟩ => show win0_1.index t (1 : Fin 2) * 128 + 1 * (z 1).val = (z 1).val; rw [e11]; omega

/-- An index of the result array is in point t's block iff each coordinate is in the block's range on its axis. -/
theorem mem_block (t : Fin cfg0.N) (i : S100000x128.Idx) :
    i ∈ ((cfg0.win 2).blk t).view.set ↔ ∀ a : Fin 2, win0_2.index t a * S5000x128.size a ≤ (i a).val
      ∧ (i a).val < win0_2.index t a * S5000x128.size a + S5000x128.size a := by
  show i ∈ ((View.whole main_v0).slice (win0_2.rect t)).set ↔ _
  rw [View.set_slice_whole, Rect.mem_set_unit]
  exact Iff.rfl

/-- Every row is written: row r lies in the block of point r / 5000, since 100000 = 20 × 5000. -/
theorem covered (i : S100000x128.Idx) :
    ∃ t : Fin cfg0.N, (cfg0.win 2).flush t = true ∧ i ∈ ((cfg0.win 2).blk t).view.set := by
  have h0 : (i 0).val < 100000 := (i 0).isLt
  have h1 : (i 1).val < 128 := (i 1).isLt
  have hN : cfg0.N = 20 := N_0
  have hq : (i 0).val / 5000 < cfg0.N := by rw [hN]; omega
  obtain ⟨-, -, -, -, e20, e21⟩ := block_indices ⟨(i 0).val / 5000, hq⟩
  refine ⟨⟨(i 0).val / 5000, hq⟩, flush0_2 _, ?_⟩
  rw [mem_block]
  intro a
  match a with
  | ⟨0, _⟩ =>
    show win0_2.index ⟨(i 0).val / 5000, hq⟩ (0 : Fin 2) * 5000 ≤ (i 0).val
      ∧ (i 0).val < win0_2.index ⟨(i 0).val / 5000, hq⟩ (0 : Fin 2) * 5000 + 5000
    rw [e20]
    show (i 0).val / 5000 * 5000 ≤ (i 0).val ∧ (i 0).val < (i 0).val / 5000 * 5000 + 5000
    omega
  | ⟨1, _⟩ =>
    show win0_2.index ⟨(i 0).val / 5000, hq⟩ (1 : Fin 2) * 128 ≤ (i 1).val
      ∧ (i 1).val < win0_2.index ⟨(i 0).val / 5000, hq⟩ (1 : Fin 2) * 128 + 128
    rw [e21]
    omega

/-- So after the 20 write-backs the result array is the product array. -/
theorem final (c : Dev nD) :
    (dat0 (F := Ideal) V c).arrAt 2 cfg0.N = prodArr (V c main_arg0) (V c main_arg4) :=
  (dat0 V c).arrAt_eq_of_cover 2 (prodArr (V c main_arg0) (V c main_arg4)) (fun t _ => flushed_eq V c t) covered

/-- After the 20 row blocks have been written back, entry (i, j) of the result array is the dot product of row i of the
    first operand array with column j of the second. -/
theorem result (c : Dev nD) (i : Fin 100000) (j : Fin 128) :
    ((dat0 (F := Ideal) V c).arrAt 2 cfg0.N : FVec Ideal S100000x128 .f32) (ix2 i j)
      = mm (V c main_arg0) (V c main_arg4) i j := by
  exact (congrFun (final V c) (ix2 i j)).trans rfl

end Cert.KernelIdeal.Val0

end
-- ==== Proof.KRegion1H.lean ====
/-
  Region 1 (bias, rectification and the per-graph moments): the rectified features, its first result array, after the
  grid has run.
-/
import proofs.«402418_j35416300323759_3_alg».proof.Proof.Gen.KernelIdeal.Frame
import proofs.«402418_j35416300323759_3_alg».proof.Proof.SpecR
import proofs.«402418_j35416300323759_3_alg».proof.Proof.Lift
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)
open Cert.KernelIdeal Cert.KernelIdeal.Gen

namespace Cert.KernelIdeal.Val1H

variable (V : (c : Dev nD) → (b : Ref sig .tc) → Buf (Elt Ideal) ((c : Thread nD τ).loc b))

/-- Bias then rectification at an entry: max (agg(i, d) + b(0, d)) 0. -/
def relu (agg : FVec Ideal S100000x128 .f32) (b : FVec Ideal S1x128 .f32) (i : Fin 100000) (d : Fin 128) : EReal :=
  max (agg (ix2 i d) + b (ix2 0 d)) 0

/-! ## What one grid point stores

At every grid point the body stores, into the whole block of the first result, the rectified sum of the block of
`agg` it was given and the bias row, whichever branch the accumulators take. -/

private theorem hz : (![0, 0] : Fin 2 → Nat) = fun _ => 0 := funext fun a => by fin_cases a <;> rfl

/-- At a point that resets the accumulators the first result's block is the rectified biased block of `agg`. -/
private theorem stored_reset {F : FTy → Type} [FloatOps F] (c : Dev nD) (i : grid1.Coords) (arg2 : Memref sig .tc .vmem S5000x128 .f32) (harg2 : arg2.IsWhole) (arg3 : Memref sig .tc .vmem S1x128 .f32) (harg3 : arg3.IsWhole) (arg4 : Memref sig .tc .vmem S5000x1 .i32) (harg4 : arg4.IsWhole) (arg5 : Memref sig .tc .vmem S5000x128 .f32) (harg5 : arg5.IsWhole) (arg6 : Memref sig .tc .vmem S1x64x128 .f32) (harg6 : arg6.IsWhole) (arg7 : Memref sig .tc .vmem S1x64x128 .f32) (harg7 : arg7.IsWhole) (hc0 : cond1_0 i)
    (x0 : Vec F S5000x128 .f32) (x1 : Vec F S1x128 .f32) (x2 : Vec F S5000x1 .i32) :
    out1_A_3 c i arg2 harg2 arg3 harg3 arg4 harg4 arg5 harg5 arg6 harg6 arg7 harg7 hc0 x0 x1 x2 = k1_pay4 x0 x1 := by
  unfold out1_A_3
  rw [View.read_writes_eq_canon _ _ _ (cover1_A_3 c i arg2 harg2 arg3 harg3 arg4 harg4 arg5 harg5 arg6 harg6 arg7 harg7 hc0 x0 x1 x2)]
  unfold kernelRun1_A
  dsimp only
  try sl_unfold_words
  rw [View.canon_unit_zero hz]
  simp only [View.readAt_eq_ld, harg2.read_unread, harg3.read_unread, View.ld_unit_zero (S := S5000x128) hz,
    View.ld_unit_zero (S := S1x128) hz]

/-- At a point that goes on accumulating it is the same block: the store does not read the accumulators. -/
private theorem stored_carry {F : FTy → Type} [FloatOps F] (c : Dev nD) (i : grid1.Coords) (arg2 : Memref sig .tc .vmem S5000x128 .f32) (harg2 : arg2.IsWhole) (arg3 : Memref sig .tc .vmem S1x128 .f32) (harg3 : arg3.IsWhole) (arg4 : Memref sig .tc .vmem S5000x1 .i32) (harg4 : arg4.IsWhole) (arg5 : Memref sig .tc .vmem S5000x128 .f32) (harg5 : arg5.IsWhole) (arg6 : Memref sig .tc .vmem S1x64x128 .f32) (harg6 : arg6.IsWhole) (arg7 : Memref sig .tc .vmem S1x64x128 .f32) (harg7 : arg7.IsWhole) (hc0 : ¬cond1_0 i)
    (x0 : Vec F S5000x128 .f32) (x1 : Vec F S1x128 .f32) (x2 : Vec F S5000x1 .i32)
    (xo4 : Vec F S1x64x128 .f32) (xo5 : Vec F S1x64x128 .f32) :
    out1_B_3 c i arg2 harg2 arg3 harg3 arg4 harg4 arg5 harg5 arg6 harg6 arg7 harg7 hc0 x0 x1 x2 xo4 xo5 = k1_pay4 x0 x1 := by
  unfold out1_B_3
  rw [View.read_writes_eq_canon _ _ _ (cover1_B_3 c i arg2 harg2 arg3 harg3 arg4 harg4 arg5 harg5 arg6 harg6 arg7 harg7 hc0 x0 x1 x2 xo4 xo5)]
  unfold kernelRun1_B
  dsimp only
  try sl_unfold_words
  rw [View.canon_unit_zero hz]
  simp only [View.readAt_eq_ld, harg2.read_unread, harg3.read_unread, View.ld_unit_zero (S := S5000x128) hz,
    View.ld_unit_zero (S := S1x128) hz]

/-- The stored block at row `r`, lane `d`: the block's entry plus the bias row's lane `d`, rectified at zero. -/
private theorem stored_apply (x0 : Vec Ideal S5000x128 .f32) (x1 : Vec Ideal S1x128 .f32) (r : Fin 5000) (d : Fin 128) :
    k1_pay4 (F := Ideal) x0 x1 (ix2 r d) = max (x0 (ix2 r d) + x1 (ix2 0 d)) 0 := by
  unfold k1_pay4
  have ha : ∀ h, shapeCast S5000x128 x0 h (ix2 r d) = x0 (ix2 r d) := fun h => congrFun (shapeCast_self x0 h) _
  have hb : ∀ h h', broadcastTo S5000x128 (shapeCast S1x128 x1 h) h' (ix2 r d) = x1 (ix2 0 d) := fun h h' => by
    rw [shapeCast_self]
    exact broadcastTo_apply x1 h' (ix2 r d) (ix2 0 d) (fun a => by match a with | ⟨0, _⟩ => rfl | ⟨1, _⟩ => rfl)
  have h0 : (Ideal.ofBits .f32 0x00000000#32 : EReal) = 0 := Ideal.ofBits_zero_f32
  exact congrArg₂ max (congrArg₂ (· + ·) (ha _) (hb _ _)) h0

/-- So after every grid point the first result's staging block holds the rectified biased block of that point. -/
private theorem after_eq (c : Dev nD) (t : Fin cfg1.N) :
    (dat1 (F := Ideal) V c).after 3 t = k1_pay4 (iblk1 V c 0 t) (iblk1 V c 1 t) := by
  rw [after1_3]
  by_cases h0 : t.val % 10 = 0
  · rw [outsAt1_A V c t h0]
    dsimp only
    exact stored_reset (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) ((hcond1_0 t).mpr h0) (iblk1 V c 0 t) (iblk1 V c 1 t) (iblk1 V c 2 t)
  · rw [outsAt1_B V c t h0]
    dsimp only
    exact stored_carry (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (fun h => h0 ((hcond1_0 t).mp h)) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2

/-! ## From the blocks to the array

Point `t` of the 20 is given rows `5000 t … 5000 t + 4999` of `agg` and the whole bias row, and writes rows
`5000 t … 5000 t + 4999` of the result: row `r` of the result is written by point `r / 5000`. -/

/-- The result array as one function of `agg` and the bias row. -/
private def rectified (agg : FVec Ideal S100000x128 .f32) (b : FVec Ideal S1x128 .f32) : FVec Ideal S100000x128 .f32 :=
  fun i => relu agg b (i 0) (i 1)

/-- The block indices, decided over the 20 points: `agg`'s and the result's block is number `t` along the rows, the
    bias row's block is the row itself. -/
private theorem block_index : ∀ t : Fin cfg1.N, win1_0.index t (0 : Fin 2) = t.val ∧ win1_0.index t (1 : Fin 2) = 0
    ∧ win1_1.index t (0 : Fin 2) = 0 ∧ win1_1.index t (1 : Fin 2) = 0
    ∧ win1_3.index t (0 : Fin 2) = t.val ∧ win1_3.index t (1 : Fin 2) = 0 :=
  (by decide +kernel : ∀ t : Fin grid1.N, _)

/-- Entry (r, d) of `agg`'s block at point `t` is entry (5000 t + r, d) of `agg`. -/
private theorem agg_block_apply (c : Dev nD) (t : Fin cfg1.N) (r : Fin 5000) (d : Fin 128) (k : Fin 100000)
    (hk : k.val = 5000 * t.val + r.val) :
    (iblk1 V c 0 t : Vec Ideal S5000x128 .f32) (ix2 r d) = (V c main_v17 : FVec Ideal S100000x128 .f32) (ix2 k d) := by
  obtain ⟨e0, e1, -, -, -, -⟩ := block_index t
  unfold iblk1
  rw [View.read_apply]
  show V c main_v17 _ = V c main_v17 _
  congr 1
  funext a
  apply Fin.ext
  match a with
  | ⟨0, _⟩ => show win1_0.index t (0 : Fin 2) * 5000 + 1 * r.val = k.val; rw [e0, hk]; omega
  | ⟨1, _⟩ => show win1_0.index t (1 : Fin 2) * 128 + 1 * d.val = d.val; rw [e1]; omega

/-- Lane `d` of the bias row's block at any point is lane `d` of the bias row. -/
private theorem bias_block_apply (c : Dev nD) (t : Fin cfg1.N) (d : Fin 128) :
    (iblk1 V c 1 t : Vec Ideal S1x128 .f32) (ix2 0 d) = (V c main_v18 : FVec Ideal S1x128 .f32) (ix2 0 d) := by
  obtain ⟨-, -, e0, e1, -, -⟩ := block_index t
  unfold iblk1
  rw [View.read_apply]
  show V c main_v18 _ = V c main_v18 _
  congr 1
  funext a
  apply Fin.ext
  match a with
  | ⟨0, _⟩ => show win1_1.index t (0 : Fin 2) * 1 + 1 * 0 = 0; rw [e0]
  | ⟨1, _⟩ => show win1_1.index t (1 : Fin 2) * 128 + 1 * d.val = d.val; rw [e1]; omega

/-- What point `t` writes back is block `t` of the rectified array. -/
private theorem flushed_eq (c : Dev nD) (t : Fin cfg1.N) :
    (dat1 (F := Ideal) V c).flushed 3 t
      = ((cfg1.win 3).blk t).view.read (Elt Ideal) (rectified (V c main_v17) (V c main_v18)) := by
  have hN : cfg1.N = 20 := N_1
  have ht : t.val < 20 := hN ▸ t.isLt
  obtain ⟨-, -, -, -, e0, e1⟩ := block_index t
  show (cfg1.win 3).cut (grid1.coords t) ((dat1 V c).after 3 t) = _
  rw [after_eq]
  funext j
  obtain ⟨r, d, rfl⟩ : ∃ (r : Fin 5000) (d : Fin 128), j = ix2 r d := ⟨j 0, j 1, eq_ix2 j⟩
  show k1_pay4 (F := Ideal) (iblk1 V c 0 t) (iblk1 V c 1 t) (ix2 r d)
    = rectified (V c main_v17) (V c main_v18) (((cfg1.win 3).blk t).view.emb (ix2 r d))
  refine (stored_apply (iblk1 V c 0 t) (iblk1 V c 1 t) r d).trans ?_
  have hk : 5000 * t.val + r.val < 100000 := by have := r.isLt; omega
  have e3 : ((cfg1.win 3).blk t).view.emb (ix2 r d) = ix2 (⟨5000 * t.val + r.val, hk⟩ : Fin 100000) d := by
    funext a
    apply Fin.ext
    match a with
    | ⟨0, _⟩ => show win1_3.index t (0 : Fin 2) * 5000 + 1 * r.val = 5000 * t.val + r.val; rw [e0]; omega
    | ⟨1, _⟩ => show win1_3.index t (1 : Fin 2) * 128 + 1 * d.val = d.val; rw [e1]; omega
  rw [e3, agg_block_apply V c t r d ⟨5000 * t.val + r.val, hk⟩ rfl, bias_block_apply V c t d]
  rfl

/-- An index of the result is in point `t`'s block iff each coordinate is in the block's range on its axis. -/
private theorem mem_blk (t : Fin cfg1.N) (i : S100000x128.Idx) :
    i ∈ ((cfg1.win 3).blk t).view.set ↔ ∀ a : Fin 2, win1_3.index t a * S5000x128.size a ≤ (i a).val
      ∧ (i a).val < win1_3.index t a * S5000x128.size a + S5000x128.size a := by
  show i ∈ ((View.whole main_v20_0).slice (win1_3.rect t)).set ↔ _
  rw [View.set_slice_whole, Rect.mem_set_unit]
  exact Iff.rfl

/-- Every entry of the result is written back: row `r` by point `r / 5000`. -/
private theorem covered (i : S100000x128.Idx) :
    ∃ t : Fin cfg1.N, (cfg1.win 3).flush t = true ∧ i ∈ ((cfg1.win 3).blk t).view.set := by
  have hN : cfg1.N = 20 := N_1
  have hi0 : (i 0).val < 100000 := (i 0).isLt
  have hi1 : (i 1).val < 128 := (i 1).isLt
  have hq : (i 0).val / 5000 < cfg1.N := by rw [hN]; omega
  obtain ⟨-, -, -, -, e0, e1⟩ := block_index ⟨(i 0).val / 5000, hq⟩
  refine ⟨⟨(i 0).val / 5000, hq⟩, flush1_3 _, ?_⟩
  rw [mem_blk]
  intro a
  match a with
  | ⟨0, _⟩ =>
    show win1_3.index ⟨(i 0).val / 5000, hq⟩ (0 : Fin 2) * 5000 ≤ (i 0).val
      ∧ (i 0).val < win1_3.index ⟨(i 0).val / 5000, hq⟩ (0 : Fin 2) * 5000 + 5000
    rw [e0]; dsimp only; omega
  | ⟨1, _⟩ =>
    show win1_3.index ⟨(i 0).val / 5000, hq⟩ (1 : Fin 2) * 128 ≤ (i 1).val
      ∧ (i 1).val < win1_3.index ⟨(i 0).val / 5000, hq⟩ (1 : Fin 2) * 128 + 128
    rw [e1]; omega

/-- So the first result array ends holding the rectified array. -/
private theorem final_h (c : Dev nD) :
    (dat1 (F := Ideal) V c).arrAt 3 cfg1.N = rectified (V c main_v17) (V c main_v18) :=
  (dat1 V c).arrAt_eq_of_cover 3 (rectified (V c main_v17) (V c main_v18)) (fun t _ => flushed_eq V c t) covered

/-- The rectified features: entry (i, d) of the first result array is max (agg(i, d) + b(0, d)) 0. -/
theorem result_h (c : Dev nD) (i : Fin 100000) (d : Fin 128) :
    ((dat1 (F := Ideal) V c).arrAt 3 cfg1.N : FVec Ideal S100000x128 .f32) (ix2 i d)
      = relu (V c main_v17) (V c main_v18) i d := by
  exact congrFun (final_h V c) (ix2 i d)

end Cert.KernelIdeal.Val1H

end
-- ==== Proof.KRegion1S.lean ====
/-
  Region 1 (bias, rectification and the per-graph moments): the two accumulator arrays after the grid has run.
-/
import proofs.«402418_j35416300323759_3_alg».proof.Proof.Gen.KernelIdeal.Frame
import proofs.«402418_j35416300323759_3_alg».proof.Proof.SpecR
import proofs.«402418_j35416300323759_3_alg».proof.Proof.Lift
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)
open Cert.KernelIdeal Cert.KernelIdeal.Gen

namespace Cert.KernelIdeal.Val1S

variable (V : (c : Dev nD) → (b : Ref sig .tc) → Buf (Elt Ideal) ((c : Thread nD τ).loc b))

/-! ## What each case of the body leaves in the two accumulator blocks

Both accumulator blocks are loaded and stored whole. At a point that continues a run the body leaves the carried block plus
the point's contribution; at a point that starts a run it first stores the zero block, and the carried block it then
adds onto is that zero block read back. -/

section Pieces
variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- A continuing point leaves, in the block of the first moment, the carried block plus the contribution of the point's rows. -/
theorem out1_B_4_eq (c : Dev nD) (i : grid1.Coords) (arg2 : Memref sig .tc .vmem S5000x128 .f32) (harg2 : arg2.IsWhole) (arg3 : Memref sig .tc .vmem S1x128 .f32) (harg3 : arg3.IsWhole) (arg4 : Memref sig .tc .vmem S5000x1 .i32) (harg4 : arg4.IsWhole) (arg5 : Memref sig .tc .vmem S5000x128 .f32) (harg5 : arg5.IsWhole) (arg6 : Memref sig .tc .vmem S1x64x128 .f32) (harg6 : arg6.IsWhole) (arg7 : Memref sig .tc .vmem S1x64x128 .f32) (harg7 : arg7.IsWhole) (hc0 : ¬cond1_0 i)
    (x0 : Vec F S5000x128 .f32) (x1 : Vec F S1x128 .f32) (x2 : Vec F S5000x1 .i32) (xo4 : Vec F S1x64x128 .f32) (xo5 : Vec F S1x64x128 .f32) :
    out1_B_4 c i arg2 harg2 arg3 harg3 arg4 harg4 arg5 harg5 arg6 harg6 arg7 harg7 hc0 x0 x1 x2 xo4 xo5 = k1_pay6 x0 x1 x2 xo4 := by
  unfold out1_B_4
  rw [View.read_writes_eq_canon _ _ _ (cover1_B_4 c i arg2 harg2 arg3 harg3 arg4 harg4 arg5 harg5 arg6 harg6 arg7 harg7 hc0 x0 x1 x2 xo4 xo5)]
  unfold kernelRun1_B
  dsimp only
  sl_unfold_words
  rw [View.canon_unit_zero (S := S1x64x128) hz3]
  simp only [View.readAt_eq_ld, harg2.read_unread, harg3.read_unread, harg4.read_unread, harg6.read_unread,
    View.ld_unit_zero (S := S5000x128) hz2, View.ld_unit_zero (S := S1x128) hz2, View.ld_unit_zero (S := S5000x1) hz2,
    View.ld_unit_zero (S := S1x64x128) hz3]

/-- A starting point leaves, in the block of the first moment, the zero block plus the contribution of the point's rows. -/
theorem out1_A_4_eq (c : Dev nD) (i : grid1.Coords) (arg2 : Memref sig .tc .vmem S5000x128 .f32) (harg2 : arg2.IsWhole) (arg3 : Memref sig .tc .vmem S1x128 .f32) (harg3 : arg3.IsWhole) (arg4 : Memref sig .tc .vmem S5000x1 .i32) (harg4 : arg4.IsWhole) (arg5 : Memref sig .tc .vmem S5000x128 .f32) (harg5 : arg5.IsWhole) (arg6 : Memref sig .tc .vmem S1x64x128 .f32) (harg6 : arg6.IsWhole) (arg7 : Memref sig .tc .vmem S1x64x128 .f32) (harg7 : arg7.IsWhole) (hc0 : cond1_0 i)
    (x0 : Vec F S5000x128 .f32) (x1 : Vec F S1x128 .f32) (x2 : Vec F S5000x1 .i32) :
    out1_A_4 c i arg2 harg2 arg3 harg3 arg4 harg4 arg5 harg5 arg6 harg6 arg7 harg7 hc0 x0 x1 x2 = k1_pay6 x0 x1 x2 (k1_pay2 (F := F)) := by
  unfold out1_A_4
  rw [View.read_writes_eq_canon _ _ _ (cover1_A_4 c i arg2 harg2 arg3 harg3 arg4 harg4 arg5 harg5 arg6 harg6 arg7 harg7 hc0 x0 x1 x2)]
  unfold kernelRun1_A
  dsimp only
  sl_unfold_words
  rw [View.canon_cons_unit_zero (S := S1x64x128) hz3, View.readCov_unit_zero (S := S1x64x128) _ hz3]
  simp only [View.readAt_eq_ld, harg2.read_unread, harg3.read_unread, harg4.read_unread,
    View.ld_unit_zero (S := S5000x128) hz2, View.ld_unit_zero (S := S1x128) hz2, View.ld_unit_zero (S := S5000x1) hz2]

/-- A continuing point leaves, in the block of the second moment, the carried block plus the contribution of the point's rows. -/
theorem out1_B_5_eq (c : Dev nD) (i : grid1.Coords) (arg2 : Memref sig .tc .vmem S5000x128 .f32) (harg2 : arg2.IsWhole) (arg3 : Memref sig .tc .vmem S1x128 .f32) (harg3 : arg3.IsWhole) (arg4 : Memref sig .tc .vmem S5000x1 .i32) (harg4 : arg4.IsWhole) (arg5 : Memref sig .tc .vmem S5000x128 .f32) (harg5 : arg5.IsWhole) (arg6 : Memref sig .tc .vmem S1x64x128 .f32) (harg6 : arg6.IsWhole) (arg7 : Memref sig .tc .vmem S1x64x128 .f32) (harg7 : arg7.IsWhole) (hc0 : ¬cond1_0 i)
    (x0 : Vec F S5000x128 .f32) (x1 : Vec F S1x128 .f32) (x2 : Vec F S5000x1 .i32) (xo4 : Vec F S1x64x128 .f32) (xo5 : Vec F S1x64x128 .f32) :
    out1_B_5 c i arg2 harg2 arg3 harg3 arg4 harg4 arg5 harg5 arg6 harg6 arg7 harg7 hc0 x0 x1 x2 xo4 xo5 = k1_pay1 (k1_pay5 x2) (k1_pay7 x0 x1) (k1_pay8 x0 x1) xo5 := by
  unfold out1_B_5
  rw [View.read_writes_eq_canon _ _ _ (cover1_B_5 c i arg2 harg2 arg3 harg3 arg4 harg4 arg5 harg5 arg6 harg6 arg7 harg7 hc0 x0 x1 x2 xo4 xo5)]
  unfold kernelRun1_B
  dsimp only
  sl_unfold_words
  rw [View.canon_unit_zero (S := S1x64x128) hz3]
  simp only [View.readAt_eq_ld, harg2.read_unread, harg3.read_unread, harg4.read_unread, harg7.read_unread,
    View.ld_unit_zero (S := S5000x128) hz2, View.ld_unit_zero (S := S1x128) hz2, View.ld_unit_zero (S := S5000x1) hz2,
    View.ld_unit_zero (S := S1x64x128) hz3]

/-- A starting point leaves, in the block of the second moment, the zero block plus the contribution of the point's rows. -/
theorem out1_A_5_eq (c : Dev nD) (i : grid1.Coords) (arg2 : Memref sig .tc .vmem S5000x128 .f32) (harg2 : arg2.IsWhole) (arg3 : Memref sig .tc .vmem S1x128 .f32) (harg3 : arg3.IsWhole) (arg4 : Memref sig .tc .vmem S5000x1 .i32) (harg4 : arg4.IsWhole) (arg5 : Memref sig .tc .vmem S5000x128 .f32) (harg5 : arg5.IsWhole) (arg6 : Memref sig .tc .vmem S1x64x128 .f32) (harg6 : arg6.IsWhole) (arg7 : Memref sig .tc .vmem S1x64x128 .f32) (harg7 : arg7.IsWhole) (hc0 : cond1_0 i)
    (x0 : Vec F S5000x128 .f32) (x1 : Vec F S1x128 .f32) (x2 : Vec F S5000x1 .i32) :
    out1_A_5 c i arg2 harg2 arg3 harg3 arg4 harg4 arg5 harg5 arg6 harg6 arg7 harg7 hc0 x0 x1 x2 = k1_pay1 (k1_pay5 x2) (k1_pay7 x0 x1) (k1_pay8 x0 x1) (k1_pay3 (F := F)) := by
  unfold out1_A_5
  rw [View.read_writes_eq_canon _ _ _ (cover1_A_5 c i arg2 harg2 arg3 harg3 arg4 harg4 arg5 harg5 arg6 harg6 arg7 harg7 hc0 x0 x1 x2)]
  unfold kernelRun1_A
  dsimp only
  sl_unfold_words
  rw [View.canon_cons_unit_zero (S := S1x64x128) hz3, View.readCov_unit_zero (S := S1x64x128) _ hz3]
  simp only [View.readAt_eq_ld, harg2.read_unread, harg3.read_unread, harg4.read_unread,
    View.ld_unit_zero (S := S5000x128) hz2, View.ld_unit_zero (S := S1x128) hz2, View.ld_unit_zero (S := S5000x1) hz2]

end Pieces

/-! ## The body's arithmetic at an entry, on real inputs

With a real feature block `a`, a real bias row `b` and graph ids `gd r` below 64, the rectified feature is the real
`max (a r d + b d) 0`; the one-hot factor of row `r` and graph `g` is `1` when `gd r = g` and `0` otherwise; the residual
`x − x` of a real `x` is `0`, so the second product of each pair vanishes; and the contraction over the rows of the block
adds to the carried entry the real sum of the rectified features (of their squares) over the rows of graph `g`. -/

section Payload

/-- The rectified features of a real block and a real bias row. -/
theorem pay4_apply (x0 : Vec Ideal S5000x128 .f32) (x1 : Vec Ideal S1x128 .f32) (a : Fin 5000 → Fin 128 → ℝ) (b : Fin 128 → ℝ)
    (h0 : ∀ r d, x0 (ix2 r d) = ((a r d : ℝ) : EReal)) (h1 : ∀ d, x1 (ix2 0 d) = ((b d : ℝ) : EReal)) (r : Fin 5000) (d : Fin 128) :
    k1_pay4 (F := Ideal) x0 x1 (ix2 r d) = ((max (a r d + b d) 0 : ℝ) : EReal) := by
  unfold k1_pay4
  show max (shapeCast S5000x128 x0 shapeCasts_S5000x128_S5000x128 (ix2 r d)
      + broadcastTo S5000x128 (shapeCast S1x128 x1 shapeCasts_S1x128_S1x128) broadcasts_S1x128_S5000x128 (ix2 r d))
      (Ideal.ofBits .f32 0x00000000#32) = _
  rw [shapeCast_self, shapeCast_self, broadcastTo_1b_ab_apply, h0, h1, Cert.Lift.ofBits_zero, ← EReal.coe_add, Cert.Lift.max_coe]

theorem cmpi_eq_self (a : BitVec 32) : IntOp.cmpi .eq a a = 1#1 := by simp [IntOp.cmpi]
theorem cmpi_eq_of_ne {a b : BitVec 32} (h : a ≠ b) : IntOp.cmpi .eq a b = 0#1 := by
  show BitVec.ofBool (a == b) = 0#1
  rw [beq_eq_false_iff_ne.mpr h]; rfl

/-- The one-hot factor: row `r` against graph `g`. -/
theorem pay5_apply (x2 : Vec Ideal S5000x1 .i32) (gd : Fin 5000 → Fin 64)
    (h2 : ∀ r, x2 (ix2 r 0) = BitVec.ofNat 32 (gd r).val) (r : Fin 5000) (g : Fin 64) :
    k1_pay5 (F := Ideal) x2 (ix2 r g) = if gd r = g then (1 : EReal) else 0 := by
  unfold k1_pay5
  show ((((IntOp.cmpi .eq
        (broadcastTo S5000x64 (shapeCast S5000x1 x2 shapeCasts_S5000x1_S5000x1) broadcasts_S5000x1_S5000x64 (ix2 r g))
        (broadcastTo S5000x64 (iota .tc S1x64 32 [1] iota_S1x64_d1_w32) broadcasts_S1x64_S5000x64 (ix2 r g))).setWidth 32).toInt : ℝ) : EReal) = _
  have e1 : broadcastTo S5000x64 (shapeCast S5000x1 x2 shapeCasts_S5000x1_S5000x1) broadcasts_S5000x1_S5000x64 (ix2 r g)
      = x2 (ix2 r 0) := by
    rw [shapeCast_self]
    refine broadcastTo_apply x2 broadcasts_S5000x1_S5000x64 (ix2 r g) (ix2 r 0) fun ax => ?_
    match ax with
    | ⟨0, _⟩ => rfl
    | ⟨1, _⟩ => rfl
  have e2 : broadcastTo S5000x64 (iota .tc S1x64 32 [1] iota_S1x64_d1_w32) broadcasts_S1x64_S5000x64 (ix2 r g)
      = BitVec.ofNat 32 g.val := by
    rw [broadcastTo_1b_ab_apply, iota_single_apply]
  rw [e1, e2, h2]
  by_cases hg : gd r = g
  · rw [if_pos hg, hg, cmpi_eq_self]
    show ((((1#1 : BitVec 1).setWidth 32).toInt : ℝ) : EReal) = (1 : EReal)
    rw [show ((1#1 : BitVec 1).setWidth 32).toInt = 1 from by decide]
    norm_num
  · rw [if_neg hg]
    have hne : ¬ BitVec.ofNat 32 (gd r).val = BitVec.ofNat 32 g.val := fun h => hg (Fin.ext (by
      have := congrArg BitVec.toNat h
      simp only [BitVec.toNat_ofNat] at this
      have h1 := (gd r).isLt; have h2 := g.isLt
      omega))
    rw [cmpi_eq_of_ne hne]
    show ((((0#1 : BitVec 1).setWidth 32).toInt : ℝ) : EReal) = (0 : EReal)
    rw [show ((0#1 : BitVec 1).setWidth 32).toInt = 0 from by decide]
    norm_num

end Payload

/-! ### The contraction over the rows of a block

The product contracts axis 0 of both operands: entry `(g, d)` of the result is the sum over the rows `k` of the left
operand at `(k, g)` times the right operand at `(k, d)`. -/

section Contraction

theorem lhs_rows_0 (i : S64x128.Idx) (q : dot_S5000x64_S5000x128_S64x128_0_0_1_1_n_n.contr.Idx) :
    (dot_S5000x64_S5000x128_S64x128_0_0_1_1_n_n.lhsIdx i q 0).val = (q ⟨0, by decide⟩).val :=
  dot_S5000x64_S5000x128_S64x128_0_0_1_1_n_n.lhsIdx_val_of_single rfl i q
theorem lhs_rows_1 (i : S64x128.Idx) (q : dot_S5000x64_S5000x128_S64x128_0_0_1_1_n_n.contr.Idx) :
    (dot_S5000x64_S5000x128_S64x128_0_0_1_1_n_n.lhsIdx i q 1).val = (i 0).val := by
  unfold DotDims.lhsIdx
  rw [dif_neg (show ¬(1 : Fin S5000x64.rank) ∈ dot_S5000x64_S5000x128_S64x128_0_0_1_1_n_n.lhsBatch by decide), dif_pos (show (1 : Fin S5000x64.rank) ∈ dot_S5000x64_S5000x128_S64x128_0_0_1_1_n_n.lhsNonContracting by decide)]
  rfl
theorem rhs_rows_0 (i : S64x128.Idx) (q : dot_S5000x64_S5000x128_S64x128_0_0_1_1_n_n.contr.Idx) :
    (dot_S5000x64_S5000x128_S64x128_0_0_1_1_n_n.rhsIdx i q 0).val = (q ⟨0, by decide⟩).val :=
  dot_S5000x64_S5000x128_S64x128_0_0_1_1_n_n.rhsIdx_val_of_single rfl i q
theorem rhs_rows_1 (i : S64x128.Idx) (q : dot_S5000x64_S5000x128_S64x128_0_0_1_1_n_n.contr.Idx) :
    (dot_S5000x64_S5000x128_S64x128_0_0_1_1_n_n.rhsIdx i q 1).val = (i 1).val := by
  unfold DotDims.rhsIdx
  rw [dif_neg (show ¬(1 : Fin S5000x128.rank) ∈ dot_S5000x64_S5000x128_S64x128_0_0_1_1_n_n.rhsBatch by decide), dif_pos (show (1 : Fin S5000x128.rank) ∈ dot_S5000x64_S5000x128_S64x128_0_0_1_1_n_n.rhsNonContracting by decide)]
  rfl

/-- The product into the zero block, at an entry: the sum over the rows. -/
theorem rows_matmul_apply (l : FVec Ideal S5000x64 .bf16) (r : FVec Ideal S5000x128 .bf16) (g : Fin 64) (d : Fin 128) :
    matmul dot_S5000x64_S5000x128_S64x128_0_0_1_1_n_n none l r (constant (F := Ideal) S64x128 .f32 0x00000000#32) (ix2 g d)
      = ∑ k : Fin 5000, l (ix2 k g) * r (ix2 k d) := by
  simp only [matmul]
  rw [Ideal.matmul_constant_zero_apply, ← Equiv.sum_comp (ValueIdx.contrEquiv1 dot_S5000x64_S5000x128_S64x128_0_0_1_1_n_n 5000 rfl rfl).symm]
  refine Finset.sum_congr rfl fun k _ => ?_
  have hk := ValueIdx.contrEquiv1_symm_val dot_S5000x64_S5000x128_S64x128_0_0_1_1_n_n 5000 rfl rfl k
  have el : dot_S5000x64_S5000x128_S64x128_0_0_1_1_n_n.lhsIdx (ix2 g d) ((ValueIdx.contrEquiv1 dot_S5000x64_S5000x128_S64x128_0_0_1_1_n_n 5000 rfl rfl).symm k) = ix2 k g := funext fun a => Fin.ext (by
    match a with
    | ⟨0, _⟩ => exact (lhs_rows_0 _ _).trans hk
    | ⟨1, _⟩ => exact lhs_rows_1 _ _)
  have er : dot_S5000x64_S5000x128_S64x128_0_0_1_1_n_n.rhsIdx (ix2 g d) ((ValueIdx.contrEquiv1 dot_S5000x64_S5000x128_S64x128_0_0_1_1_n_n 5000 rfl rfl).symm k) = ix2 k d := funext fun a => Fin.ext (by
    match a with
    | ⟨0, _⟩ => exact (rhs_rows_0 _ _).trans hk
    | ⟨1, _⟩ => exact rhs_rows_1 _ _)
  rw [el, er]

end Contraction

section Contribution

/-- A pair of products of the one-hot factor, with a real block and with a vanishing residual block, at an entry: the real
    sum of the block's entries over the rows of the graph. -/
theorem contrib_apply (oh : FVec Ideal S5000x64 .bf16) (v w : FVec Ideal S5000x128 .bf16) (gd : Fin 5000 → Fin 64)
    (f : Fin 5000 → Fin 128 → ℝ) (hoh : ∀ r g, oh (ix2 r g) = if gd r = g then (1 : EReal) else 0)
    (hv : ∀ r d, v (ix2 r d) = ((f r d : ℝ) : EReal)) (hw : ∀ r d, w (ix2 r d) = 0) (g : Fin 64) (d : Fin 128) :
    matmul dot_S5000x64_S5000x128_S64x128_0_0_1_1_n_n none oh v (constant (F := Ideal) S64x128 .f32 0x00000000#32) (ix2 g d)
        + matmul dot_S5000x64_S5000x128_S64x128_0_0_1_1_n_n none oh w (constant (F := Ideal) S64x128 .f32 0x00000000#32) (ix2 g d)
      = ((∑ r : Fin 5000, if gd r = g then f r d else 0 : ℝ) : EReal) := by
  rw [rows_matmul_apply, rows_matmul_apply]
  have z : ∑ k : Fin 5000, oh (ix2 k g) * w (ix2 k d) = 0 := Finset.sum_eq_zero fun k _ => by rw [hw, mul_zero]
  rw [z, add_zero, Cert.Lift.coe_sum]
  refine Finset.sum_congr rfl fun k _ => ?_
  rw [hoh, hv]
  split_ifs
  · rw [one_mul]
  · rw [zero_mul, EReal.coe_zero]

variable (x0 : Vec Ideal S5000x128 .f32) (x1 : Vec Ideal S1x128 .f32) (x2 : Vec Ideal S5000x1 .i32)
  (a : Fin 5000 → Fin 128 → ℝ) (b : Fin 128 → ℝ) (gd : Fin 5000 → Fin 64)

/-- The squares of the rectified features. -/
theorem pay7_apply (h0 : ∀ r d, x0 (ix2 r d) = ((a r d : ℝ) : EReal)) (h1 : ∀ d, x1 (ix2 0 d) = ((b d : ℝ) : EReal))
    (r : Fin 5000) (d : Fin 128) :
    k1_pay7 (F := Ideal) x0 x1 (ix2 r d) = ((max (a r d + b d) 0 * max (a r d + b d) 0 : ℝ) : EReal) := by
  unfold k1_pay7
  show k1_pay4 (F := Ideal) x0 x1 (ix2 r d) * k1_pay4 (F := Ideal) x0 x1 (ix2 r d) = _
  rw [pay4_apply x0 x1 a b h0 h1, ← EReal.coe_mul]

/-- The first moment's block after a point: the carried entry plus the real sum of the rectified features over the
    block's rows of graph `g`. -/
theorem pay6_apply (h0 : ∀ r d, x0 (ix2 r d) = ((a r d : ℝ) : EReal)) (h1 : ∀ d, x1 (ix2 0 d) = ((b d : ℝ) : EReal))
    (h2 : ∀ r, x2 (ix2 r 0) = BitVec.ofNat 32 (gd r).val) (acc : Vec Ideal S1x64x128 .f32) (g : Fin 64) (d : Fin 128) :
    k1_pay6 (F := Ideal) x0 x1 x2 acc (ix3 0 g d)
      = acc (ix3 0 g d) + ((∑ r : Fin 5000, if gd r = g then max (a r d + b d) 0 else 0 : ℝ) : EReal) := by
  unfold k1_pay6
  refine (shapeCast_ab_1ab_apply _ shapeCasts_S64x128_S1x64x128 0 g d).trans ?_
  refine (addf_apply _ _ _).trans (congrArg₂ (· + ·) (shapeCast_1ab_ab_apply acc shapeCasts_S1x64x128_S64x128 g d) ?_)
  refine (addf_apply _ _ _).trans ?_
  exact contrib_apply _ _ _ gd (fun r d => max (a r d + b d) 0) (pay5_apply x2 gd h2)
    (fun r d => pay4_apply x0 x1 a b h0 h1 r d)
    (fun r d => by
      show k1_pay4 (F := Ideal) x0 x1 (ix2 r d) - k1_pay4 (F := Ideal) x0 x1 (ix2 r d) = 0
      rw [pay4_apply x0 x1 a b h0 h1]; exact Cert.Lift.sub_self_coe _) g d

/-- The second moment's block after a point: the carried entry plus the real sum of the squared rectified features over
    the block's rows of graph `g`. -/
theorem pay1_apply (h0 : ∀ r d, x0 (ix2 r d) = ((a r d : ℝ) : EReal)) (h1 : ∀ d, x1 (ix2 0 d) = ((b d : ℝ) : EReal))
    (h2 : ∀ r, x2 (ix2 r 0) = BitVec.ofNat 32 (gd r).val) (acc : Vec Ideal S1x64x128 .f32) (g : Fin 64) (d : Fin 128) :
    k1_pay1 (F := Ideal) (k1_pay5 x2) (k1_pay7 x0 x1) (k1_pay8 x0 x1) acc (ix3 0 g d)
      = acc (ix3 0 g d)
        + ((∑ r : Fin 5000, if gd r = g then max (a r d + b d) 0 * max (a r d + b d) 0 else 0 : ℝ) : EReal) := by
  unfold k1_pay1
  refine (shapeCast_ab_1ab_apply _ shapeCasts_S64x128_S1x64x128 0 g d).trans ?_
  refine (addf_apply _ _ _).trans (congrArg₂ (· + ·) (shapeCast_1ab_ab_apply acc shapeCasts_S1x64x128_S64x128 g d) ?_)
  refine (addf_apply _ _ _).trans ?_
  exact contrib_apply _ _ _ gd (fun r d => max (a r d + b d) 0 * max (a r d + b d) 0) (pay5_apply x2 gd h2)
    (fun r d => by
      unfold k1_pay8
      show k1_pay7 (F := Ideal) x0 x1 (ix2 r d) = _
      exact pay7_apply x0 x1 a b h0 h1 r d)
    (fun r d => by
      show k1_pay7 (F := Ideal) x0 x1 (ix2 r d) - k1_pay7 (F := Ideal) x0 x1 (ix2 r d) = 0
      rw [pay7_apply x0 x1 a b h0 h1]; exact Cert.Lift.sub_self_coe _) g d

end Contribution

/-! ## Sums over runs of row blocks

The 100000 rows are 20 blocks of 5000 rows; the grid's point `n` reads block `n`. A run is the ten blocks
`10 q … 10 q + 9`, that is the rows `50000 q … 50000 q + 49999`. -/

section Runs

variable (f : Fin 100000 → ℝ)

/-- The sum of `f` over the rows of block `n`. -/
def blockSum (n : ℕ) : ℝ := ∑ i : Fin 100000, if i.val / 5000 = n then f i else 0

/-- The sum of `f` over the rows of the blocks of point `n`'s run up to block `n`. -/
def runSum (n : ℕ) : ℝ := ∑ i : Fin 100000, if n / 10 * 10 ≤ i.val / 5000 ∧ i.val / 5000 ≤ n then f i else 0

/-- At the first point of a run the run's sum so far is that block's sum. -/
theorem runSum_start (n : ℕ) (h : n % 10 = 0) : runSum f n = blockSum f n := by
  unfold runSum blockSum
  refine Finset.sum_congr rfl fun i _ => ?_
  have e : (n / 10 * 10 ≤ i.val / 5000 ∧ i.val / 5000 ≤ n) ↔ i.val / 5000 = n := by omega
  rw [if_congr e rfl rfl]

/-- At a later point of a run the run's sum so far grows by that block's sum. -/
theorem runSum_step (n : ℕ) (h : ¬(n + 1) % 10 = 0) : runSum f (n + 1) = runSum f n + blockSum f (n + 1) := by
  unfold runSum blockSum
  rw [← Finset.sum_add_distrib]
  refine Finset.sum_congr rfl fun i _ => ?_
  by_cases h1 : i.val / 5000 = n + 1
  · rw [if_pos (by omega), if_neg (by omega), if_pos h1, zero_add]
  · by_cases h2 : n / 10 * 10 ≤ i.val / 5000 ∧ i.val / 5000 ≤ n
    · rw [if_pos (by omega), if_pos h2, if_neg h1, add_zero]
    · rw [if_neg (by omega), if_neg h2, if_neg h1, add_zero]

/-- At the last point of a run the run's sum is the sum over the run's 50000 rows. -/
theorem runSum_end (n : ℕ) (h : n % 10 = 9) :
    runSum f n = ∑ i : Fin 100000, if i.val / 50000 = n / 10 then f i else 0 := by
  unfold runSum
  refine Finset.sum_congr rfl fun i _ => ?_
  have e : (n / 10 * 10 ≤ i.val / 5000 ∧ i.val / 5000 ≤ n) ↔ i.val / 50000 = n / 10 := by omega
  rw [if_congr e rfl rfl]

/-- A block's sum, row by row of the block: row `r` of block `n` is row `5000 n + r`. -/
theorem blockSum_eq (n : ℕ) (hn : n < 20) :
    blockSum f n = ∑ r : Fin 5000, f ⟨5000 * n + r.val, by have := r.isLt; omega⟩ := by
  unfold blockSum
  rw [← Finset.sum_filter]
  symm
  refine Finset.sum_bij (fun r _ => (⟨5000 * n + r.val, by have := r.isLt; omega⟩ : Fin 100000)) ?_ ?_ ?_ ?_
  · intro r _
    have := r.isLt
    simp only [Finset.mem_filter, Finset.mem_univ, true_and]
    omega
  · intro r _ r' _ h
    have := congrArg Fin.val h
    simp only at this
    exact Fin.ext (by omega)
  · intro i hi
    simp only [Finset.mem_filter, Finset.mem_univ, true_and] at hi
    have := i.isLt
    exact ⟨⟨i.val - 5000 * n, by omega⟩, Finset.mem_univ _, Fin.ext (by simp only; omega)⟩
  · intro r _; rfl

end Runs

/-! ## The blocks a point reads, and what a point leaves

Point `t` reads rows `5000 t … 5000 t + 4999` of the features and of the graph ids, and the whole bias row; its two
accumulator blocks are slot `t / 10` of the two result arrays. -/

section Blocks

/-- The windows' block indices, decided over the grid's twenty points. -/
theorem idx_rows : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0
    ∧ win1_4.index t (0 : Fin 3) = t.val / 10 ∧ win1_4.index t (1 : Fin 3) = 0 ∧ win1_4.index t (2 : Fin 3) = 0
    ∧ win1_5.index t (0 : Fin 3) = t.val / 10 ∧ win1_5.index t (1 : Fin 3) = 0 ∧ win1_5.index t (2 : Fin 3) = 0 :=
  (by decide +kernel : ∀ t : Fin grid1.N, _)

theorem lt_twenty (t : Fin cfg1.N) : t.val < 20 := lt_of_lt_of_eq t.isLt (show cfg1.N = 20 from N_1)

/-- The feature block, the bias row and the graph-id block of point `t`, and the three arrays they are read from. -/
abbrev aggBlk (c : Dev nD) (t : Fin cfg1.N) : Vec Ideal S5000x128 .f32 := iblk1 V c 0 t
abbrev biasBlk (c : Dev nD) (t : Fin cfg1.N) : Vec Ideal S1x128 .f32 := iblk1 V c 1 t
abbrev idBlk (c : Dev nD) (t : Fin cfg1.N) : Vec Ideal S5000x1 .i32 := iblk1 V c 2 t
abbrev aggArr (c : Dev nD) : FVec Ideal S100000x128 .f32 := V c main_v17
abbrev biasArr (c : Dev nD) : FVec Ideal S1x128 .f32 := V c main_v18
abbrev idArr (c : Dev nD) : IVec S100000x1 32 := V c main_v19

/-- Row `r` of point `t`'s feature block is row `5000 t + r` of the features. -/
theorem aggBlk_apply (c : Dev nD) (t : Fin cfg1.N) (r : Fin 5000) (d : Fin 128) :
    aggBlk V c t (ix2 r d)
      = aggArr V c (ix2 ⟨5000 * t.val + r.val, by have := lt_twenty t; have := r.isLt; omega⟩ d) := by
  obtain ⟨e0, e1, -⟩ := idx_rows t
  unfold aggBlk aggArr iblk1
  rw [View.read_apply]
  show V c main_v17 _ = V c main_v17 _
  congr 1
  funext ax
  apply Fin.ext
  match ax with
  | ⟨0, _⟩ => show win1_0.index t (0 : Fin 2) * 5000 + 1 * r.val = 5000 * t.val + r.val; rw [e0]; omega
  | ⟨1, _⟩ => show win1_0.index t (1 : Fin 2) * 128 + 1 * d.val = d.val; rw [e1]; omega

/-- The bias block is the bias row. -/
theorem biasBlk_apply (c : Dev nD) (t : Fin cfg1.N) (d : Fin 128) :
    biasBlk V c t (ix2 0 d) = biasArr V c (ix2 0 d) := by
  obtain ⟨-, -, e0, e1, -⟩ := idx_rows t
  unfold biasBlk biasArr iblk1
  rw [View.read_apply]
  show V c main_v18 _ = V c main_v18 _
  congr 1
  funext ax
  apply Fin.ext
  match ax with
  | ⟨0, _⟩ => show win1_1.index t (0 : Fin 2) * 1 + 1 * 0 = 0; rw [e0]
  | ⟨1, _⟩ => show win1_1.index t (1 : Fin 2) * 128 + 1 * d.val = d.val; rw [e1]; omega

/-- Row `r` of point `t`'s graph-id block is row `5000 t + r` of the graph ids. -/
theorem idBlk_apply (c : Dev nD) (t : Fin cfg1.N) (r : Fin 5000) :
    idBlk V c t (ix2 r 0)
      = idArr V c (ix2 ⟨5000 * t.val + r.val, by have := lt_twenty t; have := r.isLt; omega⟩ 0) := by
  obtain ⟨-, -, -, -, e0, e1, -⟩ := idx_rows t
  unfold idBlk idArr iblk1
  rw [View.read_apply]
  show V c main_v19 _ = V c main_v19 _
  congr 1
  funext ax
  apply Fin.ext
  match ax with
  | ⟨0, _⟩ => show win1_2.index t (0 : Fin 2) * 5000 + 1 * r.val = 5000 * t.val + r.val; rw [e0]; omega
  | ⟨1, _⟩ => show win1_2.index t (1 : Fin 2) * 1 + 1 * 0 = 0; rw [e1]

/-- What a point that starts a run leaves in the two accumulator blocks. -/
theorem start_fst (c : Dev nD) (t : Fin cfg1.N) (h0 : t.val % 10 = 0) :
    (outsAt1 V c t.val t.isLt).2.1
      = k1_pay6 (aggBlk V c t) (biasBlk V c t) (idBlk V c t) (k1_pay2 (F := Ideal)) := by
  rw [outsAt1_A V c t h0]
  dsimp only
  exact out1_A_4_eq (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) ((hcond1_0 t).mpr h0) (aggBlk V c t) (biasBlk V c t) (idBlk V c t)
theorem start_snd (c : Dev nD) (t : Fin cfg1.N) (h0 : t.val % 10 = 0) :
    (outsAt1 V c t.val t.isLt).2.2
      = k1_pay1 (k1_pay5 (idBlk V c t)) (k1_pay7 (aggBlk V c t) (biasBlk V c t)) (k1_pay8 (aggBlk V c t) (biasBlk V c t))
          (k1_pay3 (F := Ideal)) := by
  rw [outsAt1_A V c t h0]
  dsimp only
  exact out1_A_5_eq (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) ((hcond1_0 t).mpr h0) (aggBlk V c t) (biasBlk V c t) (idBlk V c t)

/-- What a point that continues a run leaves in them, over what the point before left. -/
theorem step_fst (c : Dev nD) (n : ℕ) (hn : n + 1 < cfg1.N) (h0 : ¬(n + 1) % 10 = 0) :
    (outsAt1 V c (n + 1) hn).2.1
      = k1_pay6 (aggBlk V c ⟨n + 1, hn⟩) (biasBlk V c ⟨n + 1, hn⟩) (idBlk V c ⟨n + 1, hn⟩)
          (outsAt1 V c n (Nat.lt_of_succ_lt hn)).2.1 := by
  rw [outsAt1_B V c ⟨n + 1, hn⟩ h0]
  dsimp only
  exact out1_B_4_eq (F := Ideal) c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (fun h => h0 ((hcond1_0 ⟨n + 1, hn⟩).mp h))
    (aggBlk V c ⟨n + 1, hn⟩) (biasBlk V c ⟨n + 1, hn⟩) (idBlk V c ⟨n + 1, hn⟩)
    (outsAt1 V c n (Nat.lt_of_succ_lt hn)).2.1 (outsAt1 V c n (Nat.lt_of_succ_lt hn)).2.2
theorem step_snd (c : Dev nD) (n : ℕ) (hn : n + 1 < cfg1.N) (h0 : ¬(n + 1) % 10 = 0) :
    (outsAt1 V c (n + 1) hn).2.2
      = k1_pay1 (k1_pay5 (idBlk V c ⟨n + 1, hn⟩)) (k1_pay7 (aggBlk V c ⟨n + 1, hn⟩) (biasBlk V c ⟨n + 1, hn⟩))
          (k1_pay8 (aggBlk V c ⟨n + 1, hn⟩) (biasBlk V c ⟨n + 1, hn⟩)) (outsAt1 V c n (Nat.lt_of_succ_lt hn)).2.2 := by
  rw [outsAt1_B V c ⟨n + 1, hn⟩ h0]
  dsimp only
  exact out1_B_5_eq (F := Ideal) c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (fun h => h0 ((hcond1_0 ⟨n + 1, hn⟩).mp h))
    (aggBlk V c ⟨n + 1, hn⟩) (biasBlk V c ⟨n + 1, hn⟩) (idBlk V c ⟨n + 1, hn⟩)
    (outsAt1 V c n (Nat.lt_of_succ_lt hn)).2.1 (outsAt1 V c n (Nat.lt_of_succ_lt hn)).2.2

end Blocks

/-! ## The accumulators after each point

With real features and bias and graph ids in range, after point `n` entry `(0, g, d)` of the first accumulator block holds
the sum of column `d` of the rectified features over the rows of graph `g` in the blocks of `n`'s run up to block `n`; the
second holds that of the squares. By induction on the point: a point that starts a run adds its block's sum to the zero
block, a later point adds it to what the point before left. -/

section Invariant

variable (c : Dev nD) (aggR : Fin 100000 → Fin 128 → ℝ) (bR : Fin 128 → ℝ) (gid : Fin 100000 → Fin 64)

/-- Column `d` of the rectified features on the rows of graph `g`, zero on the other rows. -/
def col1 (g : Fin 64) (d : Fin 128) (i : Fin 100000) : ℝ := if gid i = g then max (aggR i d + bR d) 0 else 0
/-- Column `d` of their squares on the rows of graph `g`, zero on the other rows. -/
def col2 (g : Fin 64) (d : Fin 128) (i : Fin 100000) : ℝ :=
  if gid i = g then max (aggR i d + bR d) 0 * max (aggR i d + bR d) 0 else 0

/-- The zero blocks a starting point stores. -/
theorem zero_fst (g : Fin 64) (d : Fin 128) : k1_pay2 (F := Ideal) (ix3 0 g d) = 0 := by
  unfold k1_pay2
  refine (shapeCast_ab_1ab_apply _ shapeCasts_S64x128_S1x64x128 0 g d).trans ?_
  show Ideal.ofBits .f32 0x00000000#32 = 0
  rw [Cert.Lift.ofBits_zero, EReal.coe_zero]
theorem zero_snd (g : Fin 64) (d : Fin 128) : k1_pay3 (F := Ideal) (ix3 0 g d) = 0 := by
  unfold k1_pay3
  refine (shapeCast_ab_1ab_apply _ shapeCasts_S64x128_S1x64x128 0 g d).trans ?_
  show Ideal.ofBits .f32 0x00000000#32 = 0
  rw [Cert.Lift.ofBits_zero, EReal.coe_zero]

/-- A point adds, to the carried entry of the first moment, its block's sum of column `d` on graph `g`. -/
theorem point_fst (hagg : ∀ i d, aggArr V c (ix2 i d) = ((aggR i d : ℝ) : EReal))
    (hb : ∀ d, biasArr V c (ix2 0 d) = ((bR d : ℝ) : EReal))
    (hgid : ∀ i, idArr V c (ix2 i 0) = BitVec.ofNat 32 (gid i).val)
    (t : Fin cfg1.N) (acc : Vec Ideal S1x64x128 .f32) (g : Fin 64) (d : Fin 128) :
    k1_pay6 (F := Ideal) (aggBlk V c t) (biasBlk V c t) (idBlk V c t) acc (ix3 0 g d)
      = acc (ix3 0 g d) + ((blockSum (col1 aggR bR gid g d) t.val : ℝ) : EReal) := by
  have ht := lt_twenty t
  refine (pay6_apply (aggBlk V c t) (biasBlk V c t) (idBlk V c t)
    (fun r d => aggR ⟨5000 * t.val + r.val, by have := r.isLt; omega⟩ d) bR
    (fun r => gid ⟨5000 * t.val + r.val, by have := r.isLt; omega⟩)
    (fun r d => (aggBlk_apply V c t r d).trans (hagg _ d))
    (fun d => (biasBlk_apply V c t d).trans (hb d))
    (fun r => (idBlk_apply V c t r).trans (hgid _)) acc g d).trans ?_
  rw [blockSum_eq _ _ ht]
  rfl

/-- A point adds, to the carried entry of the second moment, its block's sum of the squares of column `d` on graph `g`. -/
theorem point_snd (hagg : ∀ i d, aggArr V c (ix2 i d) = ((aggR i d : ℝ) : EReal))
    (hb : ∀ d, biasArr V c (ix2 0 d) = ((bR d : ℝ) : EReal))
    (hgid : ∀ i, idArr V c (ix2 i 0) = BitVec.ofNat 32 (gid i).val)
    (t : Fin cfg1.N) (acc : Vec Ideal S1x64x128 .f32) (g : Fin 64) (d : Fin 128) :
    k1_pay1 (F := Ideal) (k1_pay5 (idBlk V c t)) (k1_pay7 (aggBlk V c t) (biasBlk V c t))
        (k1_pay8 (aggBlk V c t) (biasBlk V c t)) acc (ix3 0 g d)
      = acc (ix3 0 g d) + ((blockSum (col2 aggR bR gid g d) t.val : ℝ) : EReal) := by
  have ht := lt_twenty t
  refine (pay1_apply (aggBlk V c t) (biasBlk V c t) (idBlk V c t)
    (fun r d => aggR ⟨5000 * t.val + r.val, by have := r.isLt; omega⟩ d) bR
    (fun r => gid ⟨5000 * t.val + r.val, by have := r.isLt; omega⟩)
    (fun r d => (aggBlk_apply V c t r d).trans (hagg _ d))
    (fun d => (biasBlk_apply V c t d).trans (hb d))
    (fun r => (idBlk_apply V c t r).trans (hgid _)) acc g d).trans ?_
  rw [blockSum_eq _ _ ht]
  rfl

/-- At a point that starts a run. -/
theorem outsAt_start (hagg : ∀ i d, aggArr V c (ix2 i d) = ((aggR i d : ℝ) : EReal))
    (hb : ∀ d, biasArr V c (ix2 0 d) = ((bR d : ℝ) : EReal))
    (hgid : ∀ i, idArr V c (ix2 i 0) = BitVec.ofNat 32 (gid i).val)
    (t : Fin cfg1.N) (h0 : t.val % 10 = 0) (g : Fin 64) (d : Fin 128) :
    (outsAt1 V c t.val t.isLt).2.1 (ix3 0 g d) = ((runSum (col1 aggR bR gid g d) t.val : ℝ) : EReal)
      ∧ (outsAt1 V c t.val t.isLt).2.2 (ix3 0 g d) = ((runSum (col2 aggR bR gid g d) t.val : ℝ) : EReal) := by
  constructor
  · rw [start_fst V c t h0, point_fst V c aggR bR gid hagg hb hgid t _ g d, zero_fst, zero_add, runSum_start _ _ h0]
  · rw [start_snd V c t h0, point_snd V c aggR bR gid hagg hb hgid t _ g d, zero_snd, zero_add, runSum_start _ _ h0]

/-- At every point. -/
theorem outsAt_sums (hagg : ∀ i d, aggArr V c (ix2 i d) = ((aggR i d : ℝ) : EReal))
    (hb : ∀ d, biasArr V c (ix2 0 d) = ((bR d : ℝ) : EReal))
    (hgid : ∀ i, idArr V c (ix2 i 0) = BitVec.ofNat 32 (gid i).val) :
    ∀ (n : ℕ) (hn : n < cfg1.N) (g : Fin 64) (d : Fin 128),
      (outsAt1 V c n hn).2.1 (ix3 0 g d) = ((runSum (col1 aggR bR gid g d) n : ℝ) : EReal)
        ∧ (outsAt1 V c n hn).2.2 (ix3 0 g d) = ((runSum (col2 aggR bR gid g d) n : ℝ) : EReal) := by
  intro n
  induction n with
  | zero =>
    intro hn g d
    exact outsAt_start V c aggR bR gid hagg hb hgid ⟨0, hn⟩ (Nat.zero_mod 10) g d
  | succ n ih =>
    intro hn g d
    by_cases h0 : (n + 1) % 10 = 0
    · exact outsAt_start V c aggR bR gid hagg hb hgid ⟨n + 1, hn⟩ h0 g d
    · obtain ⟨i1, i2⟩ := ih (Nat.lt_of_succ_lt hn) g d
      constructor
      · rw [step_fst V c n hn h0, point_fst V c aggR bR gid hagg hb hgid ⟨n + 1, hn⟩ _ g d, i1, runSum_step _ n h0,
          EReal.coe_add]
      · rw [step_snd V c n hn h0, point_snd V c aggR bR gid hagg hb hgid ⟨n + 1, hn⟩ _ g d, i2, runSum_step _ n h0,
          EReal.coe_add]

end Invariant

/-! ## From the blocks to the two arrays

A block is written back at the last point of its run only, point `10 q + 9`, into slot `q` of its array; what it then
holds is the sum over the ten blocks of the run, the rows `50000 q … 50000 q + 49999`; the two slots cover each array. -/

section Flush

variable (c : Dev nD) (aggR : Fin 100000 → Fin 128 → ℝ) (bR : Fin 128 → ℝ) (gid : Fin 100000 → Fin 64)

/-- The second result array after the run: slot `q`, graph `g`, column `d` holds the sum of column `d` of the rectified
    features over the rows of graph `g` in the `q`-th half of the rows. -/
def G4 : FVec Ideal S2x64x128 .f32 := fun i =>
  ((Cert.Spec.part1 (fun i d => max (aggR i d + bR d) 0) gid 50000 (i 0).val ⟨(i 1).val, (i 1).isLt⟩ ⟨(i 2).val, (i 2).isLt⟩ : ℝ) : EReal)

theorem G4_apply (i : S2x64x128.Idx) (q : ℕ) (g : Fin 64) (d : Fin 128) (h0 : (i 0).val = q) (h1 : (i 1).val = g.val)
    (h2 : (i 2).val = d.val) :
    G4 aggR bR gid i = ((Cert.Spec.part1 (fun i d => max (aggR i d + bR d) 0) gid 50000 q g d : ℝ) : EReal) := by
  have e1 : (⟨(i 1).val, (i 1).isLt⟩ : Fin 64) = g := Fin.ext h1
  have e2 : (⟨(i 2).val, (i 2).isLt⟩ : Fin 128) = d := Fin.ext h2
  show ((Cert.Spec.part1 (fun i d => max (aggR i d + bR d) 0) gid 50000 (i 0).val ⟨(i 1).val, (i 1).isLt⟩ ⟨(i 2).val, (i 2).isLt⟩ : ℝ) : EReal) = _
  rw [e1, e2, h0]

/-- At the last point of a run the run's sum is the half's sum. -/
theorem runSum_col1_end (n : ℕ) (h : n % 10 = 9) (g : Fin 64) (d : Fin 128) :
    runSum (col1 aggR bR gid g d) n = Cert.Spec.part1 (fun i d => max (aggR i d + bR d) 0) gid 50000 (n / 10) g d := by
  rw [runSum_end _ n h]
  unfold Cert.Spec.part1 col1
  refine Finset.sum_congr rfl fun i _ => ?_
  rw [ite_and]

/-- What the last point of a run holds in the block, entry by entry. -/
theorem last_col1 (hagg : ∀ i d, aggArr V c (ix2 i d) = ((aggR i d : ℝ) : EReal))
    (hb : ∀ d, biasArr V c (ix2 0 d) = ((bR d : ℝ) : EReal))
    (hgid : ∀ i, idArr V c (ix2 i 0) = BitVec.ofNat 32 (gid i).val)
    (t : Fin cfg1.N) (h9 : t.val % 10 = 9) (y : S1x64x128.Idx) :
    (outsAt1 V c t.val t.isLt).2.1 y
      = ((Cert.Spec.part1 (fun i d => max (aggR i d + bR d) 0) gid 50000 (t.val / 10) ⟨(y 1).val, (y 1).isLt⟩ ⟨(y 2).val, (y 2).isLt⟩ : ℝ) : EReal) := by
  obtain ⟨u, g, d, rfl⟩ : ∃ (u : Fin 1) (g : Fin 64) (d : Fin 128), y = ix3 u g d := ⟨y 0, y 1, y 2, eq_ix3 y⟩
  obtain rfl : u = 0 := Subsingleton.elim _ _
  rw [(outsAt_sums V c aggR bR gid hagg hb hgid t.val t.isLt g d).1, runSum_col1_end aggR bR gid _ h9]

/-- What a point that writes the block back writes is its slot of the array. -/
theorem flushed_col1 (hagg : ∀ i d, aggArr V c (ix2 i d) = ((aggR i d : ℝ) : EReal))
    (hb : ∀ d, biasArr V c (ix2 0 d) = ((bR d : ℝ) : EReal))
    (hgid : ∀ i, idArr V c (ix2 i 0) = BitVec.ofNat 32 (gid i).val)
    (t : Fin cfg1.N) (hf : (cfg1.win 4).flush t = true) :
    (dat1 V c).flushed 4 t = ((cfg1.win 4).blk t).view.read (Elt Ideal) (G4 aggR bR gid) := by
  have h9 : t.val % 10 = 9 := (flush1_4 t).mp hf
  obtain ⟨-, -, -, -, -, -, e0, e1, e2, -⟩ := idx_rows t
  show (cfg1.win 4).cut (grid1.coords t) ((dat1 V c).after 4 t) = _
  rw [after1_4]
  funext y
  show (outsAt1 V c t.val t.isLt).2.1 y = G4 aggR bR gid (((cfg1.win 4).blk t).view.emb y)
  refine (last_col1 V c aggR bR gid hagg hb hgid t h9 y).trans ?_
  have b0 : (y 0).val < 1 := (y 0).isLt
  refine (G4_apply aggR bR gid _ (t.val / 10) ⟨(y 1).val, (y 1).isLt⟩ ⟨(y 2).val, (y 2).isLt⟩ ?_ ?_ ?_).symm
  · show win1_4.index t (0 : Fin 3) * 1 + 1 * (y 0).val = t.val / 10; rw [e0]; omega
  · show win1_4.index t (1 : Fin 3) * 64 + 1 * (y 1).val = (y 1).val; rw [e1]; omega
  · show win1_4.index t (2 : Fin 3) * 128 + 1 * (y 2).val = (y 2).val; rw [e2]; omega

/-- An entry of the array is in point `t`'s block iff each coordinate is in the block's range on its axis. -/
theorem mem_blk_col1 (t : Fin cfg1.N) (i : S2x64x128.Idx) :
    i ∈ ((cfg1.win 4).blk t).view.set ↔ ∀ a : Fin 3, win1_4.index t a * S1x64x128.size a ≤ (i a).val
      ∧ (i a).val < win1_4.index t a * S1x64x128.size a + S1x64x128.size a := by
  show i ∈ ((View.whole main_v20_1).slice (win1_4.rect t)).set ↔ _
  rw [View.set_slice_whole, Rect.mem_set_unit]
  exact Iff.rfl

/-- Slot `q` of the array is written back by the last point of run `q`, point `10 q + 9`. -/
theorem cover_col1 (i : S2x64x128.Idx) :
    ∃ t : Fin cfg1.N, (cfg1.win 4).flush t = true ∧ i ∈ ((cfg1.win 4).blk t).view.set := by
  have hi0 : (i 0).val < 2 := (i 0).isLt
  have hi1 : (i 1).val < 64 := (i 1).isLt
  have hi2 : (i 2).val < 128 := (i 2).isLt
  obtain ⟨t, ht⟩ : ∃ t : Fin cfg1.N, t.val = 10 * (i 0).val + 9 :=
    ⟨⟨10 * (i 0).val + 9, by rw [show cfg1.N = 20 from N_1]; omega⟩, rfl⟩
  obtain ⟨-, -, -, -, -, -, e0, e1, e2, -⟩ := idx_rows t
  refine ⟨t, (flush1_4 t).mpr (by omega), ?_⟩
  rw [mem_blk_col1]
  intro a
  match a with
  | ⟨0, _⟩ =>
    show win1_4.index t (0 : Fin 3) * 1 ≤ (i 0).val ∧ (i 0).val < win1_4.index t (0 : Fin 3) * 1 + 1
    rw [e0]; omega
  | ⟨1, _⟩ =>
    show win1_4.index t (1 : Fin 3) * 64 ≤ (i 1).val ∧ (i 1).val < win1_4.index t (1 : Fin 3) * 64 + 64
    rw [e1]; omega
  | ⟨2, _⟩ =>
    show win1_4.index t (2 : Fin 3) * 128 ≤ (i 2).val ∧ (i 2).val < win1_4.index t (2 : Fin 3) * 128 + 128
    rw [e2]; omega

/-- So the array ends holding the half sums. -/
theorem final_col1 (hagg : ∀ i d, aggArr V c (ix2 i d) = ((aggR i d : ℝ) : EReal))
    (hb : ∀ d, biasArr V c (ix2 0 d) = ((bR d : ℝ) : EReal))
    (hgid : ∀ i, idArr V c (ix2 i 0) = BitVec.ofNat 32 (gid i).val) :
    (dat1 (F := Ideal) V c).arrAt 4 cfg1.N = G4 aggR bR gid :=
  (dat1 (F := Ideal) V c).arrAt_eq_of_cover 4 (G4 aggR bR gid)
    (fun t hf => flushed_col1 V c aggR bR gid hagg hb hgid t hf) (cover_col1)

/-- The third result array after the run: slot `q`, graph `g`, column `d` holds the sum of the squares of column `d` of the rectified
    features over the rows of graph `g` in the `q`-th half of the rows. -/
def G5 : FVec Ideal S2x64x128 .f32 := fun i =>
  ((Cert.Spec.part2 (fun i d => max (aggR i d + bR d) 0) gid 50000 (i 0).val ⟨(i 1).val, (i 1).isLt⟩ ⟨(i 2).val, (i 2).isLt⟩ : ℝ) : EReal)

theorem G5_apply (i : S2x64x128.Idx) (q : ℕ) (g : Fin 64) (d : Fin 128) (h0 : (i 0).val = q) (h1 : (i 1).val = g.val)
    (h2 : (i 2).val = d.val) :
    G5 aggR bR gid i = ((Cert.Spec.part2 (fun i d => max (aggR i d + bR d) 0) gid 50000 q g d : ℝ) : EReal) := by
  have e1 : (⟨(i 1).val, (i 1).isLt⟩ : Fin 64) = g := Fin.ext h1
  have e2 : (⟨(i 2).val, (i 2).isLt⟩ : Fin 128) = d := Fin.ext h2
  show ((Cert.Spec.part2 (fun i d => max (aggR i d + bR d) 0) gid 50000 (i 0).val ⟨(i 1).val, (i 1).isLt⟩ ⟨(i 2).val, (i 2).isLt⟩ : ℝ) : EReal) = _
  rw [e1, e2, h0]

/-- At the last point of a run the run's sum is the half's sum. -/
theorem runSum_col2_end (n : ℕ) (h : n % 10 = 9) (g : Fin 64) (d : Fin 128) :
    runSum (col2 aggR bR gid g d) n = Cert.Spec.part2 (fun i d => max (aggR i d + bR d) 0) gid 50000 (n / 10) g d := by
  rw [runSum_end _ n h]
  unfold Cert.Spec.part2 col2
  refine Finset.sum_congr rfl fun i _ => ?_
  rw [ite_and]

/-- What the last point of a run holds in the block, entry by entry. -/
theorem last_col2 (hagg : ∀ i d, aggArr V c (ix2 i d) = ((aggR i d : ℝ) : EReal))
    (hb : ∀ d, biasArr V c (ix2 0 d) = ((bR d : ℝ) : EReal))
    (hgid : ∀ i, idArr V c (ix2 i 0) = BitVec.ofNat 32 (gid i).val)
    (t : Fin cfg1.N) (h9 : t.val % 10 = 9) (y : S1x64x128.Idx) :
    (outsAt1 V c t.val t.isLt).2.2 y
      = ((Cert.Spec.part2 (fun i d => max (aggR i d + bR d) 0) gid 50000 (t.val / 10) ⟨(y 1).val, (y 1).isLt⟩ ⟨(y 2).val, (y 2).isLt⟩ : ℝ) : EReal) := by
  obtain ⟨u, g, d, rfl⟩ : ∃ (u : Fin 1) (g : Fin 64) (d : Fin 128), y = ix3 u g d := ⟨y 0, y 1, y 2, eq_ix3 y⟩
  obtain rfl : u = 0 := Subsingleton.elim _ _
  rw [(outsAt_sums V c aggR bR gid hagg hb hgid t.val t.isLt g d).2, runSum_col2_end aggR bR gid _ h9]

/-- What a point that writes the block back writes is its slot of the array. -/
theorem flushed_col2 (hagg : ∀ i d, aggArr V c (ix2 i d) = ((aggR i d : ℝ) : EReal))
    (hb : ∀ d, biasArr V c (ix2 0 d) = ((bR d : ℝ) : EReal))
    (hgid : ∀ i, idArr V c (ix2 i 0) = BitVec.ofNat 32 (gid i).val)
    (t : Fin cfg1.N) (hf : (cfg1.win 5).flush t = true) :
    (dat1 V c).flushed 5 t = ((cfg1.win 5).blk t).view.read (Elt Ideal) (G5 aggR bR gid) := by
  have h9 : t.val % 10 = 9 := (flush1_5 t).mp hf
  obtain ⟨-, -, -, -, -, -, -, -, -, e0, e1, e2⟩ := idx_rows t
  show (cfg1.win 5).cut (grid1.coords t) ((dat1 V c).after 5 t) = _
  rw [after1_5]
  funext y
  show (outsAt1 V c t.val t.isLt).2.2 y = G5 aggR bR gid (((cfg1.win 5).blk t).view.emb y)
  refine (last_col2 V c aggR bR gid hagg hb hgid t h9 y).trans ?_
  have b0 : (y 0).val < 1 := (y 0).isLt
  refine (G5_apply aggR bR gid _ (t.val / 10) ⟨(y 1).val, (y 1).isLt⟩ ⟨(y 2).val, (y 2).isLt⟩ ?_ ?_ ?_).symm
  · show win1_5.index t (0 : Fin 3) * 1 + 1 * (y 0).val = t.val / 10; rw [e0]; omega
  · show win1_5.index t (1 : Fin 3) * 64 + 1 * (y 1).val = (y 1).val; rw [e1]; omega
  · show win1_5.index t (2 : Fin 3) * 128 + 1 * (y 2).val = (y 2).val; rw [e2]; omega

/-- An entry of the array is in point `t`'s block iff each coordinate is in the block's range on its axis. -/
theorem mem_blk_col2 (t : Fin cfg1.N) (i : S2x64x128.Idx) :
    i ∈ ((cfg1.win 5).blk t).view.set ↔ ∀ a : Fin 3, win1_5.index t a * S1x64x128.size a ≤ (i a).val
      ∧ (i a).val < win1_5.index t a * S1x64x128.size a + S1x64x128.size a := by
  show i ∈ ((View.whole main_v20_2).slice (win1_5.rect t)).set ↔ _
  rw [View.set_slice_whole, Rect.mem_set_unit]
  exact Iff.rfl

/-- Slot `q` of the array is written back by the last point of run `q`, point `10 q + 9`. -/
theorem cover_col2 (i : S2x64x128.Idx) :
    ∃ t : Fin cfg1.N, (cfg1.win 5).flush t = true ∧ i ∈ ((cfg1.win 5).blk t).view.set := by
  have hi0 : (i 0).val < 2 := (i 0).isLt
  have hi1 : (i 1).val < 64 := (i 1).isLt
  have hi2 : (i 2).val < 128 := (i 2).isLt
  obtain ⟨t, ht⟩ : ∃ t : Fin cfg1.N, t.val = 10 * (i 0).val + 9 :=
    ⟨⟨10 * (i 0).val + 9, by rw [show cfg1.N = 20 from N_1]; omega⟩, rfl⟩
  obtain ⟨-, -, -, -, -, -, -, -, -, e0, e1, e2⟩ := idx_rows t
  refine ⟨t, (flush1_5 t).mpr (by omega), ?_⟩
  rw [mem_blk_col2]
  intro a
  match a with
  | ⟨0, _⟩ =>
    show win1_5.index t (0 : Fin 3) * 1 ≤ (i 0).val ∧ (i 0).val < win1_5.index t (0 : Fin 3) * 1 + 1
    rw [e0]; omega
  | ⟨1, _⟩ =>
    show win1_5.index t (1 : Fin 3) * 64 ≤ (i 1).val ∧ (i 1).val < win1_5.index t (1 : Fin 3) * 64 + 64
    rw [e1]; omega
  | ⟨2, _⟩ =>
    show win1_5.index t (2 : Fin 3) * 128 ≤ (i 2).val ∧ (i 2).val < win1_5.index t (2 : Fin 3) * 128 + 128
    rw [e2]; omega

/-- So the array ends holding the half sums. -/
theorem final_col2 (hagg : ∀ i d, aggArr V c (ix2 i d) = ((aggR i d : ℝ) : EReal))
    (hb : ∀ d, biasArr V c (ix2 0 d) = ((bR d : ℝ) : EReal))
    (hgid : ∀ i, idArr V c (ix2 i 0) = BitVec.ofNat 32 (gid i).val) :
    (dat1 (F := Ideal) V c).arrAt 5 cfg1.N = G5 aggR bR gid :=
  (dat1 (F := Ideal) V c).arrAt_eq_of_cover 5 (G5 aggR bR gid)
    (fun t hf => flushed_col2 V c aggR bR gid hagg hb hgid t hf) (cover_col2)

end Flush

/-- The two accumulator arrays, when the inputs are real numbers and the graph ids are in range: slot cc of the second
    result array holds the column sums of h = max (agg + b) 0 over the nodes of the cc-th half of the node range, graph by
    graph, and the third result array those of h². -/
theorem result_sums (c : Dev nD) (aggR : Fin 100000 → Fin 128 → ℝ) (bR : Fin 128 → ℝ) (gid : Fin 100000 → Fin 64)
    (hagg : ∀ i d, (V c main_v17 : FVec Ideal S100000x128 .f32) (ix2 i d) = ((aggR i d : ℝ) : EReal))
    (hb : ∀ d, (V c main_v18 : FVec Ideal S1x128 .f32) (ix2 0 d) = ((bR d : ℝ) : EReal))
    (hgid : ∀ i, (V c main_v19 : IVec S100000x1 32) (ix2 i 0) = BitVec.ofNat 32 (gid i).val)
    (cc : Fin 2) (g : Fin 64) (d : Fin 128) :
    ((dat1 (F := Ideal) V c).arrAt 4 cfg1.N : FVec Ideal S2x64x128 .f32) (ix3 cc g d)
        = ((Cert.Spec.part1 (fun i d => max (aggR i d + bR d) 0) gid 50000 cc.val g d : ℝ) : EReal)
      ∧ ((dat1 (F := Ideal) V c).arrAt 5 cfg1.N : FVec Ideal S2x64x128 .f32) (ix3 cc g d)
        = ((Cert.Spec.part2 (fun i d => max (aggR i d + bR d) 0) gid 50000 cc.val g d : ℝ) : EReal) := by
  exact ⟨(congrFun (final_col1 V c aggR bR gid hagg hb hgid) (ix3 cc g d)).trans (G4_apply aggR bR gid _ cc.val g d rfl rfl rfl),
    (congrFun (final_col2 V c aggR bR gid hagg hb hgid) (ix3 cc g d)).trans (G5_apply aggR bR gid _ cc.val g d rfl rfl rfl)⟩

end Cert.KernelIdeal.Val1S

end
-- ==== Proof.KRegion2.lean ====
/-
  Region 2 (centring and normalisation): what its result array holds after the grid has run.
-/
import proofs.«402418_j35416300323759_3_alg».proof.Proof.Gen.KernelIdeal.Frame
import proofs.«402418_j35416300323759_3_alg».proof.Proof.SpecR
import proofs.«402418_j35416300323759_3_alg».proof.Proof.Lift
import proofs.«402418_j35416300323759_3_alg».proof.Proof.LibPlainMatmul
import Idealize.ShloMosaic.Lib.Pipeline.Value
import Idealize.ShloMosaic.Lib.ValueIdx
import Idealize.ShloMosaic.Lib.ValueLayout
import Idealize.ShloMosaic.Lib.StableHlo.Run
import Idealize.ShloMosaic.Lib.StableHlo.Predicate
import Idealize.ShloMosaic.PureOps.Ideal.Laws
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)
open Cert.KernelIdeal Cert.KernelIdeal.Gen

namespace Cert.KernelIdeal.Val2

/-! ## The body's arithmetic at one entry -/

/-- Two graph ids below 2 ^ 32 with the same 32-bit word are the same id. -/
private theorem ofNat_inj_of_lt {a b : Nat} (ha : a < 2 ^ 32) (hb : b < 2 ^ 32)
    (h : BitVec.ofNat 32 a = BitVec.ofNat 32 b) : a = b := by
  have e := congrArg BitVec.toNat h
  rwa [BitVec.toNat_ofNat, BitVec.toNat_ofNat, Nat.mod_eq_of_lt ha, Nat.mod_eq_of_lt hb] at e

/-- The one-hot row of row `r`: at column `k` it is 1 when the row's graph id is `k`, else 0. -/
private theorem onehot_apply (ids : IVec S5000x1 32) (r : Fin 5000) (g k : Fin 64)
    (hid : ids (ix2 r 0) = BitVec.ofNat 32 g.val) :
    (truncf .bf16 (sitofp .f32 (extui 32 (cmpi .eq
        (broadcastTo S5000x64 (shapeCast S5000x1 ids shapeCasts_S5000x1_S5000x1) broadcasts_S5000x1_S5000x64)
        (broadcastTo S5000x64 (iota .tc S1x64 32 [1] iota_S1x64_d1_w32) broadcasts_S1x64_S5000x64)) natLt_1_32)
        : FVec Ideal S5000x64 .f32) bitsLt_bf16_f32 : FVec Ideal S5000x64 .bf16) (ix2 r k)
      = if k = g then (1 : EReal) else 0 := by
  have e1 : broadcastTo S5000x64 (shapeCast S5000x1 ids shapeCasts_S5000x1_S5000x1) broadcasts_S5000x1_S5000x64 (ix2 r k)
      = BitVec.ofNat 32 g.val := by
    rw [shapeCast_self]
    refine (broadcastTo_apply ids broadcasts_S5000x1_S5000x64 (ix2 r k) (ix2 r 0) fun a => ?_).trans hid
    match a with
    | ⟨0, _⟩ => rfl
    | ⟨1, _⟩ => rfl
  have e2 : broadcastTo S5000x64 (iota .tc S1x64 32 [1] iota_S1x64_d1_w32) broadcasts_S1x64_S5000x64 (ix2 r k)
      = BitVec.ofNat 32 k.val := by
    rw [broadcastTo_1b_ab_apply, iota_single_apply]
  show ((((IntOp.cmpi .eq
      (broadcastTo S5000x64 (shapeCast S5000x1 ids shapeCasts_S5000x1_S5000x1) broadcasts_S5000x1_S5000x64 (ix2 r k))
      (broadcastTo S5000x64 (iota .tc S1x64 32 [1] iota_S1x64_d1_w32) broadcasts_S1x64_S5000x64 (ix2 r k))).setWidth 32).toInt : ℝ) : EReal) = _
  rw [e1, e2]
  by_cases hk : k = g
  · subst hk
    rw [if_pos rfl, StableHlo.Predicate.cmpi_eq_iff.mpr rfl]
    norm_num
  · rw [if_neg hk, eq_zero_of_ne_one (fun h => hk (Fin.ext (ofNat_inj_of_lt (by omega) (by omega)
      (StableHlo.Predicate.cmpi_eq_iff.mp h)).symm))]
    norm_num

/-- A one-hot row times a table picks the table's row: the sum over the 64 graphs keeps the one term at the row's graph. -/
private theorem pick_row (oh : FVec Ideal S5000x64 .bf16) (tbl : FVec Ideal S64x128 .bf16) (r : Fin 5000) (d : Fin 128)
    (g : Fin 64) (hoh : ∀ k : Fin 64, oh (ix2 r k) = if k = g then (1 : EReal) else 0) :
    (matmul dot_S5000x64_S64x128_S5000x128_1_0_0_1_n_n none oh tbl (constant S5000x128 .f32 0x00000000#32)
      : FVec Ideal S5000x128 .f32) (ix2 r d) = tbl (ix2 g d) := by
  refine (PlainMatmul.matmul_zero_apply 5000 64 128 oh tbl r d).trans ?_
  rw [Finset.sum_eq_single g (fun k _ hk => by rw [hoh k, if_neg hk, zero_mul])
    (fun h => absurd (Finset.mem_univ g) h), hoh g, if_pos rfl, one_mul]

/-- The stored entry at row `r`, column `d` of a block, for a row whose graph id is `g`: the weight times the centred
    value times the expanded reciprocal deviation, plus the bias; each expansion is the sum of a table's leading part and
    its residual at row `g`. -/
private theorem payload_apply (x0 : FVec Ideal S5000x128 .f32) (ids : IVec S5000x1 32)
    (mhi mlo ihi ilo : FVec Ideal S64x128 .bf16) (s gw gb : FVec Ideal S1x128 .f32)
    (r : Fin 5000) (d : Fin 128) (g : Fin 64) (hid : ids (ix2 r 0) = BitVec.ofNat 32 g.val) :
    (k2_pay1 (F := Ideal) (k2_pay2 ids mhi mlo ihi ilo x0 s gw) (k2_pay3 gb)) (ix2 r d)
      = gw (ix2 0 d) * (x0 (ix2 r d) - (mhi (ix2 g d) + mlo (ix2 g d)) * s (ix2 0 d))
          * (ihi (ix2 g d) + ilo (ix2 g d)) + gb (ix2 0 d) := by
  have hoh := fun k => onehot_apply ids r g k hid
  unfold k2_pay1 k2_pay2 k2_pay3
  simp only [addf_apply, mulf_apply, subf_apply, pick_row _ _ r d g hoh]
  simp only [broadcastTo_1b_ab_apply, shapeCast_self]

/-- The same entry when every operand it reads is a real number and the two residuals vanish: the coercion of the real
    expression (sums, differences and products of real numbers are computed in the reals). -/
private theorem payload_real (x0 : FVec Ideal S5000x128 .f32) (ids : IVec S5000x1 32)
    (mhi mlo ihi ilo : FVec Ideal S64x128 .bf16) (s gw gb : FVec Ideal S1x128 .f32)
    (r : Fin 5000) (d : Fin 128) (g : Fin 64) (hid : ids (ix2 r 0) = BitVec.ofNat 32 g.val)
    (a mu iv sc w b : ℝ)
    (hx : x0 (ix2 r d) = ((a : ℝ) : EReal)) (hm : mhi (ix2 g d) = ((mu : ℝ) : EReal))
    (hml : mlo (ix2 g d) = ((0 : ℝ) : EReal)) (hi : ihi (ix2 g d) = ((iv : ℝ) : EReal))
    (hil : ilo (ix2 g d) = ((0 : ℝ) : EReal)) (hsc : s (ix2 0 d) = ((sc : ℝ) : EReal))
    (hw : gw (ix2 0 d) = ((w : ℝ) : EReal)) (hb : gb (ix2 0 d) = ((b : ℝ) : EReal)) :
    (k2_pay1 (F := Ideal) (k2_pay2 ids mhi mlo ihi ilo x0 s gw) (k2_pay3 gb)) (ix2 r d)
      = ((w * (a - mu * sc) * iv + b : ℝ) : EReal) := by
  rw [payload_apply x0 ids mhi mlo ihi ilo s gw gb r d g hid, hx, hm, hml, hi, hil, hsc, hw, hb]
  simp only [← EReal.coe_add, ← EReal.coe_mul, ← EReal.coe_sub, add_zero]

variable (V : (c : Dev nD) → (b : Ref sig .tc) → Buf (Elt Ideal) ((c : Thread nD τ).loc b))

/-! ## The blocks a grid point reads -/

private theorem zero_offsets : (![0, 0] : Fin 2 → Nat) = fun _ => 0 := funext fun a => by fin_cases a <;> rfl

/-- The printed index maps over the 20 grid points: the rows of h, the graph ids and the result move with the point,
    the six tables and rows stay at block 0. -/
private theorem index_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = 0 ∧ win2_7.index t (1 : Fin 2) = 0
    ∧ win2_8.index t (0 : Fin 2) = 0 ∧ win2_8.index t (1 : Fin 2) = 0
    ∧ win2_9.index t (0 : Fin 2) = t.val ∧ win2_9.index t (1 : Fin 2) = 0 :=
  (by decide +kernel : ∀ t : Fin grid2.N, _)

/-- Block `t` of the rows of h: its entry (p, q) is the array's entry (5000 t + p, q). -/
private theorem h_block_apply (c : Dev nD) (t : Fin cfg2.N) (p : Fin 5000) (q : Fin 128) (i : Fin 100000)
    (hi : i.val = 5000 * t.val + p.val) :
    (iblk2 V c 0 t : FVec Ideal S5000x128 .f32) (ix2 p q) = (V c main_v20_0 : FVec Ideal S100000x128 .f32) (ix2 i q) := by
  obtain ⟨e0, e1, -⟩ := index_facts t
  show V c main_v20_0 (((cfg2.win 0).blk t).view.emb (ix2 p q)) = V c main_v20_0 (ix2 i q)
  refine congrArg _ (funext fun a => Fin.ext ?_)
  match a with
  | ⟨0, _⟩ => show win2_0.index t (0 : Fin 2) * 5000 + 1 * p.val = i.val; omega
  | ⟨1, _⟩ => show win2_0.index t (1 : Fin 2) * 128 + 1 * q.val = q.val; omega

/-- Block `t` of the graph ids: its entry (p, 0) is the id of row 5000 t + p. -/
private theorem ids_block_apply (c : Dev nD) (t : Fin cfg2.N) (p : Fin 5000) (i : Fin 100000)
    (hi : i.val = 5000 * t.val + p.val) :
    (iblk2 V c 1 t : IVec S5000x1 32) (ix2 p 0) = (V c main_v19 : IVec S100000x1 32) (ix2 i 0) := by
  obtain ⟨-, -, e0, e1, -⟩ := index_facts t
  show V c main_v19 (((cfg2.win 1).blk t).view.emb (ix2 p 0)) = V c main_v19 (ix2 i 0)
  refine congrArg _ (funext fun a => Fin.ext ?_)
  match a with
  | ⟨0, _⟩ => show win2_1.index t (0 : Fin 2) * 5000 + 1 * p.val = i.val; omega
  | ⟨1, _⟩ => show win2_1.index t (1 : Fin 2) * 1 + 1 * (0 : Fin 1).val = (0 : Fin 1).val; omega

/-- The four tables are read whole at every point. -/
private theorem table_block_apply (c : Dev nD) (t : Fin cfg2.N) (g : Fin 64) (q : Fin 128) :
    (iblk2 V c 2 t : FVec Ideal S64x128 .bf16) (ix2 g q) = (V c main_v55 : FVec Ideal S64x128 .bf16) (ix2 g q)
    ∧ (iblk2 V c 3 t : FVec Ideal S64x128 .bf16) (ix2 g q) = (V c main_v58 : FVec Ideal S64x128 .bf16) (ix2 g q)
    ∧ (iblk2 V c 4 t : FVec Ideal S64x128 .bf16) (ix2 g q) = (V c main_v59 : FVec Ideal S64x128 .bf16) (ix2 g q)
    ∧ (iblk2 V c 5 t : FVec Ideal S64x128 .bf16) (ix2 g q) = (V c main_v62 : FVec Ideal S64x128 .bf16) (ix2 g q) := by
  obtain ⟨-, -, -, -, e20, e21, e30, e31, e40, e41, e50, e51, -⟩ := index_facts t
  refine ⟨?_, ?_, ?_, ?_⟩
  · show V c main_v55 (((cfg2.win 2).blk t).view.emb (ix2 g q)) = V c main_v55 (ix2 g q)
    refine congrArg _ (funext fun a => Fin.ext ?_)
    match a with
    | ⟨0, _⟩ => show win2_2.index t (0 : Fin 2) * 64 + 1 * g.val = g.val; omega
    | ⟨1, _⟩ => show win2_2.index t (1 : Fin 2) * 128 + 1 * q.val = q.val; omega
  · show V c main_v58 (((cfg2.win 3).blk t).view.emb (ix2 g q)) = V c main_v58 (ix2 g q)
    refine congrArg _ (funext fun a => Fin.ext ?_)
    match a with
    | ⟨0, _⟩ => show win2_3.index t (0 : Fin 2) * 64 + 1 * g.val = g.val; omega
    | ⟨1, _⟩ => show win2_3.index t (1 : Fin 2) * 128 + 1 * q.val = q.val; omega
  · show V c main_v59 (((cfg2.win 4).blk t).view.emb (ix2 g q)) = V c main_v59 (ix2 g q)
    refine congrArg _ (funext fun a => Fin.ext ?_)
    match a with
    | ⟨0, _⟩ => show win2_4.index t (0 : Fin 2) * 64 + 1 * g.val = g.val; omega
    | ⟨1, _⟩ => show win2_4.index t (1 : Fin 2) * 128 + 1 * q.val = q.val; omega
  · show V c main_v62 (((cfg2.win 5).blk t).view.emb (ix2 g q)) = V c main_v62 (ix2 g q)
    refine congrArg _ (funext fun a => Fin.ext ?_)
    match a with
    | ⟨0, _⟩ => show win2_5.index t (0 : Fin 2) * 64 + 1 * g.val = g.val; omega
    | ⟨1, _⟩ => show win2_5.index t (1 : Fin 2) * 128 + 1 * q.val = q.val; omega

/-- The scale, weight and bias rows are read whole at every point. -/
private theorem row_block_apply (c : Dev nD) (t : Fin cfg2.N) (q : Fin 128) :
    (iblk2 V c 6 t : FVec Ideal S1x128 .f32) (ix2 0 q) = (V c main_v39 : FVec Ideal S1x128 .f32) (ix2 0 q)
    ∧ (iblk2 V c 7 t : FVec Ideal S1x128 .f32) (ix2 0 q) = (V c main_v63 : FVec Ideal S1x128 .f32) (ix2 0 q)
    ∧ (iblk2 V c 8 t : FVec Ideal S1x128 .f32) (ix2 0 q) = (V c main_v64 : FVec Ideal S1x128 .f32) (ix2 0 q) := by
  obtain ⟨-, -, -, -, -, -, -, -, -, -, -, -, e60, e61, e70, e71, e80, e81, -⟩ := index_facts t
  refine ⟨?_, ?_, ?_⟩
  · show V c main_v39 (((cfg2.win 6).blk t).view.emb (ix2 0 q)) = V c main_v39 (ix2 0 q)
    refine congrArg _ (funext fun a => Fin.ext ?_)
    match a with
    | ⟨0, _⟩ => show win2_6.index t (0 : Fin 2) * 1 + 1 * (0 : Fin 1).val = (0 : Fin 1).val; omega
    | ⟨1, _⟩ => show win2_6.index t (1 : Fin 2) * 128 + 1 * q.val = q.val; omega
  · show V c main_v63 (((cfg2.win 7).blk t).view.emb (ix2 0 q)) = V c main_v63 (ix2 0 q)
    refine congrArg _ (funext fun a => Fin.ext ?_)
    match a with
    | ⟨0, _⟩ => show win2_7.index t (0 : Fin 2) * 1 + 1 * (0 : Fin 1).val = (0 : Fin 1).val; omega
    | ⟨1, _⟩ => show win2_7.index t (1 : Fin 2) * 128 + 1 * q.val = q.val; omega
  · show V c main_v64 (((cfg2.win 8).blk t).view.emb (ix2 0 q)) = V c main_v64 (ix2 0 q)
    refine congrArg _ (funext fun a => Fin.ext ?_)
    match a with
    | ⟨0, _⟩ => show win2_8.index t (0 : Fin 2) * 1 + 1 * (0 : Fin 1).val = (0 : Fin 1).val; omega
    | ⟨1, _⟩ => show win2_8.index t (1 : Fin 2) * 128 + 1 * q.val = q.val; omega

/-! ## From blocks to the array -/

/-- The real value of entry (i, d) of the result: the weight times the centred value times the reciprocal deviation of
    the row's graph, plus the bias. -/
private def outR (hR : Fin 100000 → Fin 128 → ℝ) (gid : Fin 100000 → Fin 64) (meanR invR : Fin 64 → Fin 128 → ℝ)
    (sR gwR gbR : Fin 128 → ℝ) (i : Fin 100000) (d : Fin 128) : ℝ :=
  gwR d * (hR i d - meanR (gid i) d * sR d) * invR (gid i) d + gbR d

/-- The result array as one function of its index. -/
private def outArr (hR : Fin 100000 → Fin 128 → ℝ) (gid : Fin 100000 → Fin 64) (meanR invR : Fin 64 → Fin 128 → ℝ)
    (sR gwR gbR : Fin 128 → ℝ) : FVec Ideal S100000x128 .f32 :=
  fun j => ((outR hR gid meanR invR sR gwR gbR (j 0) (j 1) : ℝ) : EReal)

/-- What grid point `t` writes back is block `t` of the result function: row `p` of the block is row 5000 t + p of the
    arrays of h and of the graph ids, and the tables and rows are read whole. -/
private theorem flushed_eq (c : Dev nD) (hR : Fin 100000 → Fin 128 → ℝ) (gid : Fin 100000 → Fin 64)
    (meanR invR : Fin 64 → Fin 128 → ℝ) (sR gwR gbR : Fin 128 → ℝ)
    (hh : ∀ i d, (V c main_v20_0 : FVec Ideal S100000x128 .f32) (ix2 i d) = ((hR i d : ℝ) : EReal))
    (hgid : ∀ i, (V c main_v19 : IVec S100000x1 32) (ix2 i 0) = BitVec.ofNat 32 (gid i).val)
    (hmhi : ∀ g d, (V c main_v55 : FVec Ideal S64x128 .bf16) (ix2 g d) = ((meanR g d : ℝ) : EReal))
    (hmlo : ∀ g d, (V c main_v58 : FVec Ideal S64x128 .bf16) (ix2 g d) = ((0 : ℝ) : EReal))
    (hihi : ∀ g d, (V c main_v59 : FVec Ideal S64x128 .bf16) (ix2 g d) = ((invR g d : ℝ) : EReal))
    (hilo : ∀ g d, (V c main_v62 : FVec Ideal S64x128 .bf16) (ix2 g d) = ((0 : ℝ) : EReal))
    (hs : ∀ d, (V c main_v39 : FVec Ideal S1x128 .f32) (ix2 0 d) = ((sR d : ℝ) : EReal))
    (hgw : ∀ d, (V c main_v63 : FVec Ideal S1x128 .f32) (ix2 0 d) = ((gwR d : ℝ) : EReal))
    (hgb : ∀ d, (V c main_v64 : FVec Ideal S1x128 .f32) (ix2 0 d) = ((gbR d : ℝ) : EReal))
    (t : Fin cfg2.N) :
    (dat2 (F := Ideal) V c).flushed 9 t
      = ((cfg2.win 9).blk t).view.read (Elt Ideal) (outArr hR gid meanR invR sR gwR gbR) := by
  show (cfg2.win 9).cut (grid2.coords t) ((dat2 (F := Ideal) V c).after 9 t) = _
  rw [after2_9]
  unfold out2_9
  rw [View.canon_unit_zero zero_offsets]
  simp only [View.ld_unit_zero (S := S5000x128) zero_offsets, View.ld_unit_zero (S := S5000x1) zero_offsets,
    View.ld_unit_zero (S := S64x128) zero_offsets, View.ld_unit_zero (S := S1x128) zero_offsets]
  funext y
  obtain ⟨p, q, rfl⟩ : ∃ (p : Fin 5000) (q : Fin 128), y = ix2 p q := ⟨y 0, y 1, eq_ix2 y⟩
  have hN : cfg2.N = 20 := N_2
  have ht : t.val < 20 := hN ▸ t.isLt
  obtain ⟨i, hi⟩ : ∃ i : Fin 100000, i.val = 5000 * t.val + p.val := ⟨⟨5000 * t.val + p.val, by omega⟩, rfl⟩
  obtain ⟨-, -, -, -, -, -, -, -, -, -, -, -, -, -, -, -, -, -, e90, e91⟩ := index_facts t
  have hemb : ((cfg2.win 9).blk t).view.emb (ix2 p q) = ix2 i q := by
    refine funext fun a => Fin.ext ?_
    match a with
    | ⟨0, _⟩ => show win2_9.index t (0 : Fin 2) * 5000 + 1 * p.val = i.val; omega
    | ⟨1, _⟩ => show win2_9.index t (1 : Fin 2) * 128 + 1 * q.val = q.val; omega
  obtain ⟨b2, b3, b4, b5⟩ := table_block_apply V c t (gid i) q
  obtain ⟨b6, b7, b8⟩ := row_block_apply V c t q
  show (k2_pay1 (F := Ideal) (k2_pay2 (iblk2 V c 1 t) (iblk2 V c 2 t) (iblk2 V c 3 t) (iblk2 V c 4 t) (iblk2 V c 5 t)
      (iblk2 V c 0 t) (iblk2 V c 6 t) (iblk2 V c 7 t)) (k2_pay3 (iblk2 V c 8 t))) (ix2 p q)
    = outArr hR gid meanR invR sR gwR gbR (((cfg2.win 9).blk t).view.emb (ix2 p q))
  rw [hemb]
  exact payload_real (iblk2 V c 0 t) (iblk2 V c 1 t) (iblk2 V c 2 t) (iblk2 V c 3 t) (iblk2 V c 4 t) (iblk2 V c 5 t)
    (iblk2 V c 6 t) (iblk2 V c 7 t) (iblk2 V c 8 t) p q (gid i)
    ((ids_block_apply V c t p i hi).trans (hgid i))
    (hR i q) (meanR (gid i) q) (invR (gid i) q) (sR q) (gwR q) (gbR q)
    ((h_block_apply V c t p q i hi).trans (hh i q))
    (b2.trans (hmhi (gid i) q)) (b3.trans (hmlo (gid i) q)) (b4.trans (hihi (gid i) q)) (b5.trans (hilo (gid i) q))
    (b6.trans (hs q)) (b7.trans (hgw q)) (b8.trans (hgb q))

/-- An index of the result array is in point `t`'s block iff each coordinate is in the block's range on its axis. -/
private theorem mem_blk (t : Fin cfg2.N) (j : S100000x128.Idx) :
    j ∈ ((cfg2.win 9).blk t).view.set ↔ ∀ a : Fin 2, win2_9.index t a * S5000x128.size a ≤ (j a).val
      ∧ (j a).val < win2_9.index t a * S5000x128.size a + S5000x128.size a := by
  show j ∈ ((View.whole main_v65).slice (win2_9.rect t)).set ↔ _
  rw [View.set_slice_whole, Rect.mem_set_unit]
  exact Iff.rfl

/-- The 20 row blocks cover the array: row `r` lies in the block of point `r / 5000`. -/
private theorem cover (j : S100000x128.Idx) :
    ∃ t : Fin cfg2.N, (cfg2.win 9).flush t = true ∧ j ∈ ((cfg2.win 9).blk t).view.set := by
  have hN : cfg2.N = 20 := N_2
  have hj0 : (j 0).val < 100000 := (j 0).isLt
  have hj1 : (j 1).val < 128 := (j 1).isLt
  obtain ⟨t, ht⟩ : ∃ t : Fin cfg2.N, t.val = (j 0).val / 5000 := ⟨⟨(j 0).val / 5000, by rw [hN]; omega⟩, rfl⟩
  obtain ⟨-, -, -, -, -, -, -, -, -, -, -, -, -, -, -, -, -, -, e90, e91⟩ := index_facts t
  refine ⟨t, flush2_9 t, ?_⟩
  rw [mem_blk]
  intro a
  match a with
  | ⟨0, _⟩ =>
    show win2_9.index t (0 : Fin 2) * 5000 ≤ (j 0).val ∧ (j 0).val < win2_9.index t (0 : Fin 2) * 5000 + 5000
    omega
  | ⟨1, _⟩ =>
    show win2_9.index t (1 : Fin 2) * 128 ≤ (j 1).val ∧ (j 1).val < win2_9.index t (1 : Fin 2) * 128 + 128
    omega

/-- When the nine operand arrays hold real numbers, the graph ids are in range and the two residual tables are zero,
    entry (i, d) of the result array is gw(d) · (h(i, d) − mean(gid i, d) · s(d)) · inv(gid i, d) + gb(d). -/
theorem result (c : Dev nD) (hR : Fin 100000 → Fin 128 → ℝ) (gid : Fin 100000 → Fin 64)
    (meanR invR : Fin 64 → Fin 128 → ℝ) (sR gwR gbR : Fin 128 → ℝ)
    (hh : ∀ i d, (V c main_v20_0 : FVec Ideal S100000x128 .f32) (ix2 i d) = ((hR i d : ℝ) : EReal))
    (hgid : ∀ i, (V c main_v19 : IVec S100000x1 32) (ix2 i 0) = BitVec.ofNat 32 (gid i).val)
    (hmhi : ∀ g d, (V c main_v55 : FVec Ideal S64x128 .bf16) (ix2 g d) = ((meanR g d : ℝ) : EReal))
    (hmlo : ∀ g d, (V c main_v58 : FVec Ideal S64x128 .bf16) (ix2 g d) = ((0 : ℝ) : EReal))
    (hihi : ∀ g d, (V c main_v59 : FVec Ideal S64x128 .bf16) (ix2 g d) = ((invR g d : ℝ) : EReal))
    (hilo : ∀ g d, (V c main_v62 : FVec Ideal S64x128 .bf16) (ix2 g d) = ((0 : ℝ) : EReal))
    (hs : ∀ d, (V c main_v39 : FVec Ideal S1x128 .f32) (ix2 0 d) = ((sR d : ℝ) : EReal))
    (hgw : ∀ d, (V c main_v63 : FVec Ideal S1x128 .f32) (ix2 0 d) = ((gwR d : ℝ) : EReal))
    (hgb : ∀ d, (V c main_v64 : FVec Ideal S1x128 .f32) (ix2 0 d) = ((gbR d : ℝ) : EReal))
    (i : Fin 100000) (d : Fin 128) :
    ((dat2 (F := Ideal) V c).arrAt 9 cfg2.N : FVec Ideal S100000x128 .f32) (ix2 i d)
      = ((gwR d * (hR i d - meanR (gid i) d * sR d) * invR (gid i) d + gbR d : ℝ) : EReal) := by
  have harr := (dat2 (F := Ideal) V c).arrAt_eq_of_cover 9 (outArr hR gid meanR invR sR gwR gbR)
    (fun t _ => flushed_eq V c hR gid meanR invR sR gwR gbR hh hgid hmhi hmlo hihi hilo hs hgw hgb t) cover
  exact congrFun harr (ix2 i d)

end Cert.KernelIdeal.Val2

end
-- ==== Proof.LibPointScatter.lean ====
/-
  General facts about a scatter-add read at the exact instance (floats as extended reals), for any shapes and any
  dimension numbers:
  * `resultIdx?_eq_some_iff`: an update lands at operand index p exactly when, on every operand axis, its start
    (the index array's entry read signed, unclamped) plus its window coordinate is p's coordinate — being inside
    the operand is then automatic, so the "dropped when outside" clause disappears;
  * `scatterAdd_apply`: `Host.scatterAdd` at a result entry is the operand's entry plus the sum of the updates
    that land there;
  * `sum_filter_equiv`: two sums over filtered index sets agree when a bijection of the index types carries one
    predicate to the other and one summand to the other — the step that joins a scatter over flattened updates to
    the scatter over the unflattened ones.
  All three are stated over variables (shapes, index types), so instantiating them never makes Lean evaluate over
  a large literal extent.
-/
import Idealize.ShloMosaic.PureOps.Ideal

noncomputable section

open Idealize.ShloMosaic

namespace Cert.Lib.PointScatter

/-- An update lands at operand index `p` exactly when, on every operand axis, its start plus its window
    coordinate is `p`'s coordinate: being inside the operand is then automatic. -/
theorem resultIdx?_eq_some_iff {s si u : Shape} (d : ScatterDims s si u) {w : Nat} (j : u.Idx) (idx : IVec si w) (p : s.Idx) :
    d.resultIdx? j idx = some p ↔ ∀ a, d.start j idx a + (d.window j a : Int) = ((p a).val : Int) := by
  unfold ScatterDims.resultIdx?
  constructor
  · intro h
    by_cases hh : ∀ a, 0 ≤ d.start j idx a + d.window j a ∧ d.start j idx a + d.window j a < s.size a
    · rw [dif_pos hh] at h
      intro a
      have h1 := congrArg Fin.val (congrFun (Option.some.inj h) a)
      have h2 := hh a
      simp only at h1
      omega
    · rw [dif_neg hh] at h
      exact absurd h (by simp)
  · intro h
    have hh : ∀ a, 0 ≤ d.start j idx a + d.window j a ∧ d.start j idx a + d.window j a < s.size a := fun a => by
      have := h a; have := (p a).isLt; omega
    rw [dif_pos hh]
    congr 1
    funext a
    apply Fin.ext
    have := h a
    simp only
    omega

/-- The exact scatter-add at a result entry: the operand's entry plus the sum of the updates that land there. -/
theorem scatterAdd_apply {s si su : Shape} (d : ScatterDims s si su) {w : Nat} (x : FVec Ideal s .f32) (idx : IVec si w)
    (upd : FVec Ideal su .f32) (i : s.Idx) [DecidablePred fun j : su.Idx => d.resultIdx? j idx = some i] :
    Host.scatterAdd d x idx upd i = x i + ∑ j ∈ Finset.univ.filter (fun j => d.resultIdx? j idx = some i), upd j := by
  show Ideal.hostScatterAdd d x idx upd i = _
  unfold Ideal.hostScatterAdd
  congr

/-- Two sums over filtered index sets agree when a bijection of the index types carries one predicate to the
    other and one summand to the other. -/
theorem sum_filter_equiv {ι κ M : Type} [Fintype ι] [Fintype κ] [AddCommMonoid M] (e : ι ≃ κ) (P : ι → Prop) (Q : κ → Prop)
    [DecidablePred P] [DecidablePred Q] (f : ι → M) (g : κ → M) (hPQ : ∀ j, P j ↔ Q (e j)) (hfg : ∀ j, f j = g (e j)) :
    ∑ j ∈ Finset.univ.filter P, f j = ∑ k ∈ Finset.univ.filter Q, g k :=
  Finset.sum_equiv e (fun j => by simp only [Finset.mem_filter, Finset.mem_univ, true_and]; exact hPQ j) (fun j _ => hfg j)

end Cert.Lib.PointScatter

end
-- ==== Proof.KHost1.lean ====
/-
  The host operations between region 0 and region 1: the gather of source rows, the scaling by the edge weights and the
  scatter-add onto the target nodes, as one function of the transformed features, the edge table and the edge weights;
  and the two reshapes that hand the bias and the graph ids to region 1.
-/
import proofs.«402418_j35416300323759_3_alg».proof.Proof.Gen.KernelIdeal.Frame
import proofs.«402418_j35416300323759_3_alg».proof.Proof.SpecR
import proofs.«402418_j35416300323759_3_alg».proof.Proof.Lift
import proofs.«402418_j35416300323759_3_alg».proof.Proof.LibPointScatter
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)
open Cert.KernelIdeal Cert.KernelIdeal.Gen

namespace Cert.KernelIdeal.Host1

/-- The aggregation: gather the rows of h0 the first edge row names (a negative id counted from the end, then the id
    clamped into range), scale row e by the e-th edge weight, and add each scaled row onto the node the second edge row
    names (an id outside the range dropped). -/
def agg (h0 : FVec Ideal S100000x128 .f32) (ei : IVec S2x1600000 32) (ea : FVec Ideal S1600000 .f32) :
    FVec Ideal S100000x128 .f32 :=
  let src : IVec S1600000 32 := shapeCast S1600000 (extractStridedSlice S1x1600000 ![0, 0] ei slices_S2x1600000_S1x1600000_0_0) shapeCasts_S1x1600000_S1600000
  let dst : IVec S1600000 32 := shapeCast S1600000 (extractStridedSlice S1x1600000 ![1, 0] ei slices_S2x1600000_S1x1600000_1_0) shapeCasts_S1x1600000_S1600000
  let src' : IVec S1600000 32 :=
    select (cmpi .slt src (broadcastInDim S1600000 ![] bcast_S_S1600000 (constantI S_ 32 0#32)))
      (addi src (broadcastInDim S1600000 ![] bcast_S_S1600000 (constantI S_ 32 100000#32))) src
  Host.scatterAdd scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 dst)
    (mulf (Host.gather gather_S100000x128_S1600000x1_S1600000x128_1_0_n_n_0_1_1128 h0
        (broadcastInDim S1600000x1 ![0] bcast_S1600000_S1600000x1_0 src'))
      (broadcastInDim S1600000x128 ![0, 1] bcast_S1600000x1_S1600000x128_0_1
        (broadcastInDim S1600000x1 ![0] bcast_S1600000_S1600000x1_0 ea)))

variable (W : Valuation τ sig (Elt Ideal))

theorem after_agg :
    StableHlo.after (hostOps1 (F := Ideal)) W (Proc.devRef .tc main_v17)
      = agg (W (Proc.devRef .tc main_v0)) (W (Proc.devRef .tc main_arg1)) (W (Proc.devRef .tc main_arg2)) := by
  after_results_simp
  rfl

theorem after_b (d : Fin 128) :
    (StableHlo.after (hostOps1 (F := Ideal)) W (Proc.devRef .tc main_v18) : FVec Ideal S1x128 .f32) (ix2 0 d)
      = (W (Proc.devRef .tc main_arg5) : FVec Ideal S128 .f32) (ix1 d) := by
  after_results
  exact shapeCast_a_1a_apply _ _ 0 d

theorem after_bidx (i : Fin 100000) :
    (StableHlo.after (hostOps1 (F := Ideal)) W (Proc.devRef .tc main_v19) : IVec S100000x1 32) (ix2 i 0)
      = (W (Proc.devRef .tc main_arg3) : IVec S100000 32) (ix1 i) := by
  after_results
  show shapeCast S100000x1 (W (Proc.devRef .tc main_arg3) : IVec S100000 32) shapeCasts_S100000_S100000x1 (ix2 i 0) = _
  refine shapeCast_apply (s := S100000) (t := S100000x1) _ _ _ _ ?_
  rw [Shape.rowMajor_val_two, Shape.rowMajor_val_one]
  show i.val = i.val * 1 + 0
  omega

/-- A scatter-add of real updates onto a real operand is real at every entry: the operand's entry plus the finite sum
    of the updates that land there, and a finite sum of reals is a real. -/
private theorem scatterAdd_real {s si su : Shape} (d : ScatterDims s si su) {w : Nat} (x : FVec Ideal s .f32) (idx : IVec si w)
    (upd : FVec Ideal su .f32) (hx : ∀ i, ∃ r : ℝ, x i = ((r : ℝ) : EReal)) (hu : ∀ j, ∃ r : ℝ, upd j = ((r : ℝ) : EReal))
    (i : s.Idx) : ∃ r : ℝ, Host.scatterAdd d x idx upd i = ((r : ℝ) : EReal) := by
  classical
  obtain ⟨a, ha⟩ := hx i
  choose u hu using hu
  refine ⟨a + ∑ j ∈ Finset.univ.filter (fun j => d.resultIdx? j idx = some i), u j, ?_⟩
  rw [Cert.Lib.PointScatter.scatterAdd_apply, ha, EReal.coe_add, Cert.Lift.coe_sum]
  exact congrArg _ (Finset.sum_congr rfl fun j _ => hu j)

/-- One update of the aggregation: the gather reads some entry of the features, the two broadcasts read some entry of
    the edge weights, and the update is their product, a product of two reals. -/
private theorem upd_real (h0 : FVec Ideal S100000x128 .f32) (ea : FVec Ideal S1600000 .f32)
    (h0R : Fin 100000 → Fin 128 → ℝ) (eaR : Fin 1600000 → ℝ)
    (hh0 : ∀ i j, h0 (ix2 i j) = ((h0R i j : ℝ) : EReal)) (hea : ∀ e, ea (ix1 e) = ((eaR e : ℝ) : EReal))
    (sidx : IVec S1600000x1 32) (j : S1600000x128.Idx) :
    ∃ r : ℝ, mulf (Host.gather gather_S100000x128_S1600000x1_S1600000x128_1_0_n_n_0_1_1128 h0 sidx)
        (broadcastInDim S1600000x128 ![0, 1] bcast_S1600000x1_S1600000x128_0_1
          (broadcastInDim S1600000x1 ![0] bcast_S1600000_S1600000x1_0 ea)) j = ((r : ℝ) : EReal) := by
  obtain ⟨p, hp⟩ : ∃ p : S100000x128.Idx,
      Host.gather gather_S100000x128_S1600000x1_S1600000x128_1_0_n_n_0_1_1128 h0 sidx j = h0 p := ⟨_, rfl⟩
  obtain ⟨k, hk⟩ : ∃ k : S1600000.Idx,
      broadcastInDim S1600000x128 ![0, 1] bcast_S1600000x1_S1600000x128_0_1
        (broadcastInDim S1600000x1 ![0] bcast_S1600000_S1600000x1_0 ea) j = ea k := ⟨_, rfl⟩
  have e1 : h0 p = ((h0R (p 0) (p 1) : ℝ) : EReal) := (congrArg h0 (eq_ix2 p)).trans (hh0 (p 0) (p 1))
  have e2 : ea k = ((eaR (k 0) : ℝ) : EReal) := (congrArg ea (eq_ix1 k)).trans (hea (k 0))
  exact ⟨h0R (p 0) (p 1) * eaR (k 0), by rw [mulf_apply, hp, hk, e1, e2, EReal.coe_mul]⟩

/-- Real features and real edge weights aggregate to real numbers: every entry is a finite sum of products of reals. -/
theorem agg_real (h0 : FVec Ideal S100000x128 .f32) (ei : IVec S2x1600000 32) (ea : FVec Ideal S1600000 .f32)
    (h0R : Fin 100000 → Fin 128 → ℝ) (eaR : Fin 1600000 → ℝ)
    (hh0 : ∀ i j, h0 (ix2 i j) = ((h0R i j : ℝ) : EReal)) (hea : ∀ e, ea (ix1 e) = ((eaR e : ℝ) : EReal)) :
    ∃ aggR : Fin 100000 → Fin 128 → ℝ, ∀ i d, agg h0 ei ea (ix2 i d) = ((aggR i d : ℝ) : EReal) := by
  -- every entry is a real: the zero operand's entry is the real 0, every update a product of two reals
  have key : ∀ idx : S100000x128.Idx, ∃ r : ℝ, agg h0 ei ea idx = ((r : ℝ) : EReal) := fun idx =>
    scatterAdd_real _ _ _ _ (fun _ => ⟨0, Cert.Lift.ofBits_zero⟩) (fun j => upd_real h0 ea h0R eaR hh0 hea _ j) idx
  choose r hr using key
  exact ⟨fun i d => r (ix2 i d), fun i d => hr (ix2 i d)⟩

end Cert.KernelIdeal.Host1

end
-- ==== Proof.LibSegmentSum.lean ====
/-
  A segment sum read at an entry.

  `segment_sum(data, ids, G)` of `data : [n, C]` lowers to a scatter-add into a `[G, C]` operand with update window axis `[1]`,
  inserted window axis `[0]`, scatter axis `[0]` and the index vector on axis 1 of the `[n, 1]` ids. On the extended reals
  its entry `(g, c)` is the operand's entry plus the sum of `data (i, c)` over the rows `i` whose id, read as a signed
  integer, is `g`: an id outside `0 … G − 1` lands nowhere. A printed scatter record with these dimension numbers is
  `segDims G C n _` (its remaining field is a proof).
-/
import Idealize.ShloMosaic.PureOps.Ideal
import Idealize.ShloMosaic.Lib.ValueIdx
import proofs.«402418_j35416300323759_3_alg».proof.Proof.LibPointScatter

noncomputable section

namespace Cert.Lib.SegmentSum

open Idealize.ShloMosaic Idealize.ShloMosaic.ValueIdx

/-- The dimension numbers of a segment sum of `[n, C]` rows into `[G, C]`. -/
abbrev segDims (G C n : Nat)
    (wf : ScatterDims.WF ⟨2, ![G, C]⟩ ⟨2, ![n, 1]⟩ ⟨2, ![n, C]⟩ [1] [0] [0] 1) :
    ScatterDims ⟨2, ![G, C]⟩ ⟨2, ![n, 1]⟩ ⟨2, ![n, C]⟩ where
  updateWindowDims := [1]
  insertedWindowDims := [0]
  scatterDimsToOperandDims := [0]
  indexVectorDim := 1
  wf := wf

section Coordinates

variable {G C n w : Nat}
  (wf : ScatterDims.WF ⟨2, ![G, C]⟩ ⟨2, ![n, 1]⟩ ⟨2, ![n, C]⟩ [1] [0] [0] 1)
  (idx : IVec ⟨2, ![n, 1]⟩ w) (i : Fin n) (b : Fin C)

/-- Operand axis 0 is the inserted one, so it is not among the kept axes. -/
theorem zero_not_mem_sKept : (0 : Fin 2) ∉ (segDims G C n wf).sKept := by
  simp [ScatterDims.sKept, Shape.kept, List.mem_filter, List.mem_finRange]

/-- Operand axis 1 is not inserted: it is the one kept axis. -/
theorem one_mem_sKept : (1 : Fin 2) ∈ (segDims G C n wf).sKept := by
  simp [ScatterDims.sKept, Shape.kept, List.mem_filter, List.mem_finRange]

/-- On the inserted axis the window coordinate is `0`. -/
theorem window_seg_zero : (segDims G C n wf).window (ix2 i b) 0 = 0 := by
  unfold ScatterDims.window
  rw [dif_neg (zero_not_mem_sKept wf)]

/-- On the kept axis the window coordinate is the update's column: the kept axis stands first among the kept axes, the
    first window axis of the updates is their axis 1, and `(i, b)` has `b` there. -/
theorem window_seg_one : (segDims G C n wf).window (ix2 i b) 1 = b.val := by
  unfold ScatterDims.window
  rw [dif_pos (one_mem_sKept wf)]
  rfl

/-- Axis 1 is not a scatter axis: the window starts at `0` there. -/
theorem start_seg_one : (segDims G C n wf).start (ix2 i b) idx 1 = 0 := by
  unfold ScatterDims.start
  rw [dif_neg (show (1 : Fin 2) ∉ ([0] : List (Fin 2)) by decide)]

/-- The start index of update `(i, b)` sits at `(i, 0)`: its scatter coordinate `i` on axis 0, the one component on the
    index vector's axis 1. -/
theorem siIdx_seg (c : Fin (segDims G C n wf).scatterDimsToOperandDims.length) :
    (segDims G C n wf).siIdx (ix2 i b) c = ix2 i 0 := by
  funext a
  refine Fin.ext ?_
  have hc : c.val = 0 := by have := c.isLt; simpa using this
  match a with
  | ⟨0, _⟩ => rfl
  | ⟨1, _⟩ => exact hc

/-- On axis 0 the window starts at the row's id read signed, unclamped. -/
theorem start_seg_zero :
    (segDims G C n wf).start (ix2 i b) idx 0 = (idx (ix2 i 0)).toInt := by
  unfold ScatterDims.start
  rw [dif_pos (show (0 : Fin 2) ∈ (segDims G C n wf).scatterDimsToOperandDims from List.mem_singleton.mpr rfl), siIdx_seg]

/-- Update `(i, b)` lands at `(g, c)` exactly when the row's id is `g` and its column is `c`. -/
theorem lands_iff (g : Fin G) (c : Fin C) :
    (segDims G C n wf).resultIdx? (ix2 i b) idx = some (ix2 g c)
      ↔ ((idx (ix2 i 0)).toInt = (g.val : Int) ∧ b = c) := by
  rw [Cert.Lib.PointScatter.resultIdx?_eq_some_iff]
  constructor
  · intro h
    have h0 := h (0 : Fin 2)
    have h1 := h (1 : Fin 2)
    rw [start_seg_zero, window_seg_zero] at h0
    rw [start_seg_one, window_seg_one] at h1
    refine ⟨?_, Fin.ext ?_⟩
    · have : ((ix2 g c (0 : Fin 2)).val : Int) = (g.val : Int) := rfl
      rw [this] at h0
      simpa using h0
    · have : ((ix2 g c (1 : Fin 2)).val : Int) = (c.val : Int) := rfl
      rw [this] at h1
      omega
  · rintro ⟨h0, rfl⟩ a
    match a with
    | ⟨0, _⟩ =>
      show (segDims G C n wf).start (ix2 i b) idx 0 + (((segDims G C n wf).window (ix2 i b) 0 : Nat) : Int) = (g.val : Int)
      rw [start_seg_zero, window_seg_zero, h0]
      simp
    | ⟨1, _⟩ =>
      show (segDims G C n wf).start (ix2 i b) idx 1 + (((segDims G C n wf).window (ix2 i b) 1 : Nat) : Int) = (b.val : Int)
      rw [start_seg_one, window_seg_one]
      simp

end Coordinates

/-- THE SEGMENT SUM READ AT `(g, c)`: the operand's entry plus the sum of the rows whose id is `g`, at column `c`. -/
theorem segment_sum_apply {G C n w : Nat}
    (wf : ScatterDims.WF ⟨2, ![G, C]⟩ ⟨2, ![n, 1]⟩ ⟨2, ![n, C]⟩ [1] [0] [0] 1)
    (x : FVec Ideal ⟨2, ![G, C]⟩ .f32) (idx : IVec ⟨2, ![n, 1]⟩ w) (upd : FVec Ideal ⟨2, ![n, C]⟩ .f32)
    (g : Fin G) (c : Fin C) :
    Host.scatterAdd (segDims G C n wf) x idx upd (ix2 g c)
      = x (ix2 g c) + ∑ i : Fin n, if (idx (ix2 i 0)).toInt = (g.val : Int) then upd (ix2 i c) else 0 := by
  classical
  rw [Cert.Lib.PointScatter.scatterAdd_apply]
  congr 1
  -- the updates that land at (g, c), summed row by row: in row i only column c can land, and it does when the id is g
  rw [Finset.sum_filter, sum_idx2]
  refine Finset.sum_congr rfl fun i _ => ?_
  simp only [lands_iff wf idx i _ g c]
  by_cases h : (idx (ix2 i 0)).toInt = (g.val : Int)
  · simp only [h, true_and, if_true]
    rw [Finset.sum_ite_eq' Finset.univ c (fun b => upd (ix2 i b))]
    simp
  · simp only [h, false_and, if_false]
    exact Finset.sum_const_zero

end Cert.Lib.SegmentSum

end
-- ==== Proof.KHost2.lean ====
/-
  The host operations between region 1 and region 2: the two accumulator slots added, the node counts, the mean, the
  variance by moments clamped at zero, its reciprocal square root, and the split of both tables into a leading part and
  a residual (the residual of a real number is zero); and the reshapes that hand scale, weight and bias to region 2.
-/
import proofs.«402418_j35416300323759_3_alg».proof.Proof.Gen.KernelIdeal.Frame
import proofs.«402418_j35416300323759_3_alg».proof.Proof.SpecR
import proofs.«402418_j35416300323759_3_alg».proof.Proof.Lift
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws
import Idealize.ShloMosaic.Lib.Tactic
import proofs.«402418_j35416300323759_3_alg».proof.Proof.LibSegmentSum
set_option maxRecDepth 16384

noncomputable section

open Idealize.ShloMosaic Idealize.ShloMosaic.TcCoe Idealize.SL.Sem Idealize.ShloMosaic.ValueIdx
open Idealize.ShloMosaic.Pipeline (Dat)
open Cert.KernelIdeal Cert.KernelIdeal.Gen

namespace Cert.KernelIdeal.Host2

variable (W : Valuation τ sig (Elt Ideal))

/-! ### The stages, as functions of the arrays they read -/

/-- The two slots of an accumulator added. -/
def slotSum (A : FVec Ideal S2x64x128 .f32) : FVec Ideal S64x128 .f32 :=
  addf (shapeCast _ (extractStridedSlice S1x64x128 ![0, 0, 0] A slices_S2x64x128_S1x64x128_0_0_0) shapeCasts_S1x64x128_S64x128)
    (shapeCast _ (extractStridedSlice S1x64x128 ![1, 0, 0] A slices_S2x64x128_S1x64x128_1_0_0) shapeCasts_S1x64x128_S64x128)

/-- The node count of each graph, but at least one. -/
def cntA (ids : IVec S100000 32) : FVec Ideal S64x1 .f32 :=
  maximumf
    (Host.scatterAdd scatter_S64x1_S100000x1_S100000x1_1_0_0_1
      (broadcastInDim S64x1 ![] bcast_S_S64x1 (constant (F := Ideal) S_ .f32 0x00000000#32))
      (broadcastInDim S100000x1 ![0] bcast_S100000_S100000x1_0 ids)
      (broadcastInDim S100000x1 ![] bcast_S_S100000x1 (constant (F := Ideal) S_ .f32 0x3F800000#32)))
    (broadcastInDim S64x1 ![] bcast_S_S64x1 (constant (F := Ideal) S_ .f32 0x3F800000#32))

/-- A per-graph sum over its count. -/
def overCnt (S : FVec Ideal S64x128 .f32) (ids : IVec S100000 32) : FVec Ideal S64x128 .f32 :=
  Host.divf S (broadcastInDim S64x128 ![0, 1] bcast_S64x1_S64x128_0_1 (cntA ids))

/-- The scale as one row. -/
def rowOf (s : FVec Ideal S128 .f32) : FVec Ideal S1x128 .f32 := shapeCast _ s shapeCasts_S128_S1x128

/-- `2 s − s²`, as one row. -/
def facA (s : FVec Ideal S128 .f32) : FVec Ideal S1x128 .f32 :=
  subf (mulf (broadcastInDim S1x128 ![] bcast_S_S1x128 (constant (F := Ideal) S_ .f32 0x40000000#32)) (rowOf s))
    (mulf (rowOf s) (rowOf s))

/-- The variance by moments, clamped at zero. -/
def varA (A1 A2 : FVec Ideal S2x64x128 .f32) (ids : IVec S100000 32) (s : FVec Ideal S128 .f32) : FVec Ideal S64x128 .f32 :=
  maximumf
    (subf (overCnt (slotSum A2) ids)
      (mulf (mulf (overCnt (slotSum A1) ids) (overCnt (slotSum A1) ids))
        (broadcastInDim S64x128 ![0, 1] bcast_S1x128_S64x128_0_1 (facA s))))
    (broadcastInDim S64x128 ![] bcast_S_S64x128 (constant (F := Ideal) S_ .f32 0x00000000#32))

/-- The reciprocal square root of the variance plus `ε`. -/
def invA (A1 A2 : FVec Ideal S2x64x128 .f32) (ids : IVec S100000 32) (s : FVec Ideal S128 .f32) : FVec Ideal S64x128 .f32 :=
  Host.rsqrt (addf (varA A1 A2 ids s)
    (broadcastInDim S64x128 ![] bcast_S_S64x128 (constant (F := Ideal) S_ .f32 0x3727C5AC#32)))

/-- The leading part of a table. -/
def hiOf (x : FVec Ideal S64x128 .f32) : FVec Ideal S64x128 .bf16 := truncf .bf16 x bitsLt_bf16_f32

/-- The residual of a table: what its leading part leaves. -/
def loOf (x : FVec Ideal S64x128 .f32) : FVec Ideal S64x128 .bf16 :=
  truncf .bf16 (subf x (extf .f32 (truncf .bf16 x bitsLt_bf16_f32) bitsLt_bf16_f32)) bitsLt_bf16_f32

/-! ### What each buffer holds after the stretch, as a composed term of the stretch's inputs -/

set_option maxHeartbeats 4000000 in
theorem v55_eq : (StableHlo.after (hostOps2 (F := Ideal)) W (Proc.devRef .tc main_v55) : FVec Ideal S64x128 .bf16)
    = hiOf (overCnt (slotSum (W (Proc.devRef .tc main_v20_1))) (W (Proc.devRef .tc main_arg3))) := by
  after_results_simp <;> rfl

set_option maxHeartbeats 4000000 in
theorem v58_eq : (StableHlo.after (hostOps2 (F := Ideal)) W (Proc.devRef .tc main_v58) : FVec Ideal S64x128 .bf16)
    = loOf (overCnt (slotSum (W (Proc.devRef .tc main_v20_1))) (W (Proc.devRef .tc main_arg3))) := by
  after_results_simp <;> rfl

set_option maxHeartbeats 4000000 in
theorem v59_eq : (StableHlo.after (hostOps2 (F := Ideal)) W (Proc.devRef .tc main_v59) : FVec Ideal S64x128 .bf16)
    = hiOf (invA (W (Proc.devRef .tc main_v20_1)) (W (Proc.devRef .tc main_v20_2)) (W (Proc.devRef .tc main_arg3))
        (W (Proc.devRef .tc main_arg8))) := by
  after_results_simp <;> rfl

set_option maxHeartbeats 4000000 in
theorem v62_eq : (StableHlo.after (hostOps2 (F := Ideal)) W (Proc.devRef .tc main_v62) : FVec Ideal S64x128 .bf16)
    = loOf (invA (W (Proc.devRef .tc main_v20_1)) (W (Proc.devRef .tc main_v20_2)) (W (Proc.devRef .tc main_arg3))
        (W (Proc.devRef .tc main_arg8))) := by
  after_results_simp <;> rfl

set_option maxHeartbeats 4000000 in
theorem v39_eq : (StableHlo.after (hostOps2 (F := Ideal)) W (Proc.devRef .tc main_v39) : FVec Ideal S1x128 .f32)
    = rowOf (W (Proc.devRef .tc main_arg8)) := by
  after_results_simp <;> rfl

set_option maxHeartbeats 4000000 in
theorem v63_eq : (StableHlo.after (hostOps2 (F := Ideal)) W (Proc.devRef .tc main_v63) : FVec Ideal S1x128 .f32)
    = rowOf (W (Proc.devRef .tc main_arg6)) := by
  after_results_simp <;> rfl

set_option maxHeartbeats 4000000 in
theorem v64_eq : (StableHlo.after (hostOps2 (F := Ideal)) W (Proc.devRef .tc main_v64) : FVec Ideal S1x128 .f32)
    = rowOf (W (Proc.devRef .tc main_arg7)) := by
  after_results_simp <;> rfl

/-! ### Reading the layout operations at an entry -/

/-- A scalar constant spread over any shape reads, at every index, its value. -/
theorem bcast_const {t : Shape} (h : S_.BroadcastsInDim t ![]) (b : BitVec 32) (j : t.Idx) :
    broadcastInDim t ![] h (constant (F := Ideal) S_ .f32 b) j = Ideal.ofBits .f32 b :=
  (broadcastInDim_apply _ h _ j (fun a => a.elim0) (fun a => a.elim0)).trans rfl

/-- The ids as a column read, at row `i`, the id of node `i`. -/
theorem idsCol_apply (ids : IVec S100000 32) (i : Fin 100000) :
    broadcastInDim S100000x1 ![0] bcast_S100000_S100000x1_0 ids (ix2 i (0 : Fin 1)) = ids (ix1 i) :=
  broadcastInDim_apply _ bcast_S100000_S100000x1_0 ids (ix2 i (0 : Fin 1)) (ix1 i) (fun a => match a with
    | ⟨0, _⟩ => by show i.val = if (100000 : Nat) = 1 then 0 else i.val; rw [if_neg (by decide)])

/-- A column spread along the rows reads, at `(g, d)`, the column at `g`. -/
theorem colSpread_apply (y : FVec Ideal S64x1 .f32) (g : Fin 64) (d : Fin 128) :
    broadcastInDim S64x128 ![0, 1] bcast_S64x1_S64x128_0_1 y (ix2 g d) = y (ix2 g (0 : Fin 1)) :=
  broadcastInDim_apply _ bcast_S64x1_S64x128_0_1 y (ix2 g d) (ix2 g (0 : Fin 1)) (fun a => match a with
    | ⟨0, _⟩ => by show g.val = if (64 : Nat) = 1 then 0 else g.val; rw [if_neg (by decide)]
    | ⟨1, _⟩ => by show 0 = if (1 : Nat) = 1 then 0 else d.val; rw [if_pos rfl])

/-- A row spread down the columns reads, at `(g, d)`, the row at `d`. -/
theorem rowSpread_apply (y : FVec Ideal S1x128 .f32) (g : Fin 64) (d : Fin 128) :
    broadcastInDim S64x128 ![0, 1] bcast_S1x128_S64x128_0_1 y (ix2 g d) = y (ix2 (0 : Fin 1) d) :=
  broadcastInDim_apply _ bcast_S1x128_S64x128_0_1 y (ix2 g d) (ix2 (0 : Fin 1) d) (fun a => match a with
    | ⟨0, _⟩ => by show 0 = if (1 : Nat) = 1 then 0 else g.val; rw [if_pos rfl]
    | ⟨1, _⟩ => by show d.val = if (128 : Nat) = 1 then 0 else d.val; rw [if_neg (by decide)])

/-- The two slots added read, at `(g, d)`, slot 0 plus slot 1 there. -/
theorem slotSum_apply (A : FVec Ideal S2x64x128 .f32) (g : Fin 64) (d : Fin 128) :
    slotSum A (ix2 g d) = A (ix3 (0 : Fin 2) g d) + A (ix3 (1 : Fin 2) g d) := by
  simp only [slotSum, Idealize.ShloMosaic.addf, Ideal.addf_def]
  rw [shapeCast_1ab_ab_apply, shapeCast_1ab_ab_apply,
    extractStridedSlice_apply ![0, 0, 0] A slices_S2x64x128_S1x64x128_0_0_0 (ix3 (0 : Fin 1) g d) (ix3 (0 : Fin 2) g d)
      (fun a => match a with
        | ⟨0, _⟩ => rfl
        | ⟨1, _⟩ => by show g.val = 0 + g.val; omega
        | ⟨2, _⟩ => by show d.val = 0 + d.val; omega),
    extractStridedSlice_apply ![1, 0, 0] A slices_S2x64x128_S1x64x128_1_0_0 (ix3 (0 : Fin 1) g d) (ix3 (1 : Fin 2) g d)
      (fun a => match a with
        | ⟨0, _⟩ => rfl
        | ⟨1, _⟩ => by show g.val = 0 + g.val; omega
        | ⟨2, _⟩ => by show d.val = 0 + d.val; omega)]

/-- A graph id below 64, as a 32-bit word read as a signed integer, is itself. -/
theorem toInt_ofNat_small (n : ℕ) (h : n < 64) : (BitVec.ofNat 32 n).toInt = (n : Int) := by
  have hn : (BitVec.ofNat 32 n).toNat = n := by rw [BitVec.toNat_ofNat]; exact Nat.mod_eq_of_lt (by omega)
  rw [BitVec.toInt_eq_toNat_of_lt (by rw [hn]; omega), hn]

/-! ### The stages on real inputs -/

section Real

variable (A1 A2 : FVec Ideal S2x64x128 .f32) (ids : IVec S100000 32) (s : FVec Ideal S128 .f32)
variable (P1 P2 : ℕ → Fin 64 → Fin 128 → ℝ) (gid : Fin 100000 → Fin 64) (sR : Fin 128 → ℝ)

/-- The count of graph `g`: every node adds one at its own graph's row, onto zero; clamped below at one. -/
theorem cntA_real (hgid : ∀ i, ids (ix1 i) = BitVec.ofNat 32 (gid i).val) (g : Fin 64) :
    cntA ids (ix2 g (0 : Fin 1)) = ((Cert.Spec.cnt gid g : ℝ) : EReal) := by
  have hseg : Host.scatterAdd scatter_S64x1_S100000x1_S100000x1_1_0_0_1
      (broadcastInDim S64x1 ![] bcast_S_S64x1 (constant (F := Ideal) S_ .f32 0x00000000#32))
      (broadcastInDim S100000x1 ![0] bcast_S100000_S100000x1_0 ids)
      (broadcastInDim S100000x1 ![] bcast_S_S100000x1 (constant (F := Ideal) S_ .f32 0x3F800000#32)) (ix2 g (0 : Fin 1))
      = ((∑ i : Fin 100000, if gid i = g then (1 : ℝ) else 0 : ℝ) : EReal) := by
    refine (Cert.Lib.SegmentSum.segment_sum_apply scatter_S64x1_S100000x1_S100000x1_1_0_0_1_wf _ _ _ g (0 : Fin 1)).trans ?_
    rw [bcast_const, Cert.Lift.ofBits_zero, EReal.coe_zero, zero_add, Cert.Lift.coe_sum]
    refine Finset.sum_congr rfl fun i _ => ?_
    rw [bcast_const, Cert.Lift.ofBits_one, idsCol_apply ids i, hgid i, toInt_ofNat_small _ (gid i).isLt]
    by_cases h : gid i = g
    · rw [if_pos h, if_pos (by rw [h])]
    · rw [if_neg h, if_neg (fun e => h (Fin.ext (by exact_mod_cast e))), EReal.coe_zero]
  simp only [cntA, Idealize.ShloMosaic.maximumf, Ideal.maximumf_def]
  rw [hseg, bcast_const, Cert.Lift.ofBits_one, Cert.Lift.max_coe]
  rfl

/-- A two-slot sum over the count, on real partial sums: the real quotient. -/
theorem overCnt_real (A : FVec Ideal S2x64x128 .f32) (P : ℕ → Fin 64 → Fin 128 → ℝ)
    (hA : ∀ (cc : Fin 2) g d, A (ix3 cc g d) = ((P cc.val g d : ℝ) : EReal))
    (hgid : ∀ i, ids (ix1 i) = BitVec.ofNat 32 (gid i).val) (g : Fin 64) (d : Fin 128) :
    overCnt (slotSum A) ids (ix2 g d) = (((P 0 g d + P 1 g d) / Cert.Spec.cnt gid g : ℝ) : EReal) := by
  simp only [overCnt, Host.divf, Ideal.hostDivf_def]
  rw [colSpread_apply, cntA_real ids gid hgid g, slotSum_apply, hA 0 g d, hA 1 g d, ← EReal.coe_add,
    Cert.Lift.div_coe_coe _ _ (Cert.Spec.cnt_pos gid g).ne']
  rfl

/-- `2 s − s²` on a real scale. -/
theorem facA_real (hs : ∀ d, s (ix1 d) = ((sR d : ℝ) : EReal)) (d : Fin 128) :
    facA s (ix2 (0 : Fin 1) d) = ((2 * sR d - sR d * sR d : ℝ) : EReal) := by
  simp only [facA, rowOf, Idealize.ShloMosaic.subf, Idealize.ShloMosaic.mulf, Ideal.subf_def, Ideal.mulf_def]
  rw [bcast_const, Cert.Lift.ofBits_two, shapeCast_a_1a_apply, hs d, ← EReal.coe_mul, ← EReal.coe_mul, ← EReal.coe_sub]

/-- The variance by moments on real inputs. -/
theorem varA_real (h1 : ∀ (cc : Fin 2) g d, A1 (ix3 cc g d) = ((P1 cc.val g d : ℝ) : EReal))
    (h2 : ∀ (cc : Fin 2) g d, A2 (ix3 cc g d) = ((P2 cc.val g d : ℝ) : EReal))
    (hgid : ∀ i, ids (ix1 i) = BitVec.ofNat 32 (gid i).val)
    (hs : ∀ d, s (ix1 d) = ((sR d : ℝ) : EReal)) (g : Fin 64) (d : Fin 128) :
    varA A1 A2 ids s (ix2 g d) = ((Cert.Spec.varP gid sR P1 P2 g d : ℝ) : EReal) := by
  simp only [varA, Idealize.ShloMosaic.maximumf, Idealize.ShloMosaic.subf, Idealize.ShloMosaic.mulf,
    Ideal.maximumf_def, Ideal.subf_def, Ideal.mulf_def]
  rw [overCnt_real ids gid A2 P2 h2 hgid g d, overCnt_real ids gid A1 P1 h1 hgid g d, rowSpread_apply,
    facA_real s sR hs d, bcast_const, Cert.Lift.ofBits_zero, ← EReal.coe_mul, ← EReal.coe_mul, ← EReal.coe_sub,
    Cert.Lift.max_coe]
  rfl

/-- The reciprocal standard deviation on real inputs: the variance is not negative and `ε` is positive. -/
theorem invA_real (h1 : ∀ (cc : Fin 2) g d, A1 (ix3 cc g d) = ((P1 cc.val g d : ℝ) : EReal))
    (h2 : ∀ (cc : Fin 2) g d, A2 (ix3 cc g d) = ((P2 cc.val g d : ℝ) : EReal))
    (hgid : ∀ i, ids (ix1 i) = BitVec.ofNat 32 (gid i).val)
    (hs : ∀ d, s (ix1 d) = ((sR d : ℝ) : EReal)) (g : Fin 64) (d : Fin 128) :
    invA A1 A2 ids s (ix2 g d) = ((Cert.Spec.invP gid sR Cert.Lift.epsR P1 P2 g d : ℝ) : EReal) := by
  have hv : 0 ≤ Cert.Spec.varP gid sR P1 P2 g d := le_max_right _ _
  simp only [invA, Host.rsqrt, Idealize.ShloMosaic.addf, Ideal.addf_def, Ideal.hostUnary_rsqrt_def]
  rw [varA_real A1 A2 ids s P1 P2 gid sR h1 h2 hgid hs g d, bcast_const, Cert.Lift.ofBits_eps, ← EReal.coe_add,
    Cert.Lift.rsqrt_coe_of_pos _ (add_pos_of_nonneg_of_pos hv Cert.Lift.epsR_pos)]
  rfl

end Real

/-- At real values the leading part of a table is the table. -/
theorem hiOf_apply (x : FVec Ideal S64x128 .f32) (i : S64x128.Idx) : hiOf x i = x i := rfl

/-- The residual of a table is the table minus its leading part. -/
theorem loOf_apply (x : FVec Ideal S64x128 .f32) (i : S64x128.Idx) : loOf x i = x i - x i := rfl

/-- The residual of a real entry is zero. -/
theorem loOf_real (x : FVec Ideal S64x128 .f32) (i : S64x128.Idx) (r : ℝ) (h : x i = ((r : ℝ) : EReal)) :
    loOf x i = ((0 : ℝ) : EReal) := by
  rw [loOf_apply, h, Cert.Lift.sub_self_coe, EReal.coe_zero]

/-- With real partial sums in the two slots, graph ids in range and a real scale: the leading tables are the mean and
    the reciprocal standard deviation, the residual tables are zero, and the scale is handed on. -/
theorem after_tables (P1 P2 : ℕ → Fin 64 → Fin 128 → ℝ) (gid : Fin 100000 → Fin 64) (sR : Fin 128 → ℝ)
    (h1 : ∀ (cc : Fin 2) g d, (W (Proc.devRef .tc main_v20_1) : FVec Ideal S2x64x128 .f32) (ix3 cc g d) = ((P1 cc.val g d : ℝ) : EReal))
    (h2 : ∀ (cc : Fin 2) g d, (W (Proc.devRef .tc main_v20_2) : FVec Ideal S2x64x128 .f32) (ix3 cc g d) = ((P2 cc.val g d : ℝ) : EReal))
    (hgid : ∀ i, (W (Proc.devRef .tc main_arg3) : IVec S100000 32) (ix1 i) = BitVec.ofNat 32 (gid i).val)
    (hs : ∀ d, (W (Proc.devRef .tc main_arg8) : FVec Ideal S128 .f32) (ix1 d) = ((sR d : ℝ) : EReal)) :
    (∀ g d, (StableHlo.after (hostOps2 (F := Ideal)) W (Proc.devRef .tc main_v55) : FVec Ideal S64x128 .bf16) (ix2 g d)
        = ((Cert.Spec.meanP gid P1 g d : ℝ) : EReal))
    ∧ (∀ g d, (StableHlo.after (hostOps2 (F := Ideal)) W (Proc.devRef .tc main_v58) : FVec Ideal S64x128 .bf16) (ix2 g d)
        = ((0 : ℝ) : EReal))
    ∧ (∀ g d, (StableHlo.after (hostOps2 (F := Ideal)) W (Proc.devRef .tc main_v59) : FVec Ideal S64x128 .bf16) (ix2 g d)
        = ((Cert.Spec.invP gid sR Cert.Lift.epsR P1 P2 g d : ℝ) : EReal))
    ∧ (∀ g d, (StableHlo.after (hostOps2 (F := Ideal)) W (Proc.devRef .tc main_v62) : FVec Ideal S64x128 .bf16) (ix2 g d)
        = ((0 : ℝ) : EReal))
    ∧ (∀ d, (StableHlo.after (hostOps2 (F := Ideal)) W (Proc.devRef .tc main_v39) : FVec Ideal S1x128 .f32) (ix2 0 d)
        = ((sR d : ℝ) : EReal)) := by
  have hmean : ∀ g d, overCnt (slotSum (W (Proc.devRef .tc main_v20_1))) (W (Proc.devRef .tc main_arg3)) (ix2 g d)
      = ((Cert.Spec.meanP gid P1 g d : ℝ) : EReal) := fun g d =>
    overCnt_real (W (Proc.devRef .tc main_arg3)) gid (W (Proc.devRef .tc main_v20_1)) P1 h1 hgid g d
  have hinv : ∀ g d, invA (W (Proc.devRef .tc main_v20_1)) (W (Proc.devRef .tc main_v20_2)) (W (Proc.devRef .tc main_arg3))
      (W (Proc.devRef .tc main_arg8)) (ix2 g d) = ((Cert.Spec.invP gid sR Cert.Lift.epsR P1 P2 g d : ℝ) : EReal) := fun g d =>
    invA_real _ _ _ _ P1 P2 gid sR h1 h2 hgid hs g d
  refine ⟨fun g d => ?_, fun g d => ?_, fun g d => ?_, fun g d => ?_, fun d => ?_⟩
  · exact (congrFun (v55_eq W) (ix2 g d)).trans ((hiOf_apply _ _).trans (hmean g d))
  · exact (congrFun (v58_eq W) (ix2 g d)).trans (loOf_real _ _ _ (hmean g d))
  · exact (congrFun (v59_eq W) (ix2 g d)).trans ((hiOf_apply _ _).trans (hinv g d))
  · exact (congrFun (v62_eq W) (ix2 g d)).trans (loOf_real _ _ _ (hinv g d))
  · exact (congrFun (v39_eq W) (ix2 0 d)).trans ((shapeCast_a_1a_apply _ shapeCasts_S128_S1x128 (0 : Fin 1) d).trans (hs d))

theorem after_gw (d : Fin 128) :
    (StableHlo.after (hostOps2 (F := Ideal)) W (Proc.devRef .tc main_v63) : FVec Ideal S1x128 .f32) (ix2 0 d)
      = (W (Proc.devRef .tc main_arg6) : FVec Ideal S128 .f32) (ix1 d) :=
  (congrFun (v63_eq W) (ix2 0 d)).trans (shapeCast_a_1a_apply _ shapeCasts_S128_S1x128 (0 : Fin 1) d)

theorem after_gb (d : Fin 128) :
    (StableHlo.after (hostOps2 (F := Ideal)) W (Proc.devRef .tc main_v64) : FVec Ideal S1x128 .f32) (ix2 0 d)
      = (W (Proc.devRef .tc main_arg7) : FVec Ideal S128 .f32) (ix1 d) :=
  (congrFun (v64_eq W) (ix2 0 d)).trans (shapeCast_a_1a_apply _ shapeCasts_S128_S1x128 (0 : Fin 1) d)

set_option maxHeartbeats 4000000 in
/-- The stretch writes neither the rectified features nor the reshaped graph ids. -/
theorem after_h : StableHlo.after (hostOps2 (F := Ideal)) W (Proc.devRef .tc main_v20_0) = W (Proc.devRef .tc main_v20_0) := by
  after_results_simp <;> rfl

set_option maxHeartbeats 4000000 in
theorem after_bidx : StableHlo.after (hostOps2 (F := Ideal)) W (Proc.devRef .tc main_v19) = W (Proc.devRef .tc main_v19) := by
  after_results_simp <;> rfl

end Cert.KernelIdeal.Host2

end
-- ==== Proof.KernelValue.lean ====
/-
  The kernel program's result, read through its five stretches: the dense transform (region 0), the gather–scale–scatter
  aggregation (host), bias, rectification and the per-graph moments (region 1), the tables of mean and reciprocal standard
  deviation (host), and the normalisation (region 2). Over real arguments and graph ids in range the result array holds the
  one-pass normalisation `Cert.Spec.outK` of the rectified features h = max (agg + b) 0, and h itself is an array of real numbers.
-/
import proofs.«402418_j35416300323759_3_alg».proof.Proof.Gen.KernelIdeal.Frame
import proofs.«402418_j35416300323759_3_alg».proof.Proof.SpecR
import proofs.«402418_j35416300323759_3_alg».proof.Proof.Lift
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws
import Idealize.ShloMosaic.Lib.Tactic
import proofs.«402418_j35416300323759_3_alg».proof.Proof.KRegion0
import proofs.«402418_j35416300323759_3_alg».proof.Proof.KRegion1H
import proofs.«402418_j35416300323759_3_alg».proof.Proof.KRegion1S
import proofs.«402418_j35416300323759_3_alg».proof.Proof.KRegion2
import proofs.«402418_j35416300323759_3_alg».proof.Proof.KHost1
import proofs.«402418_j35416300323759_3_alg».proof.Proof.KHost2
set_option maxRecDepth 16384

noncomputable section

open Idealize.ShloMosaic Idealize.ShloMosaic.TcCoe Idealize.SL.Sem Idealize.ShloMosaic.ValueIdx
open Idealize.ShloMosaic.Pipeline (Dat)
open Cert.KernelIdeal Cert.KernelIdeal.Gen

namespace Cert.KernelIdeal.Val

variable (m : (ℓ : Loc nD τ sig) → Buf (Elt Ideal) ℓ) (ρ : Dev nD → PrngReg)

/-- A buffer the first host stretch does not write keeps its contents over it. -/
macro "keeps_host1" : tactic => `(tactic| (
  refine StableHlo.after_of_forall_not_mem _ _ (List.forall_iff_forall_mem.mp ?_)
  simp only [hostOps1, List.flatten_cons, List.flatten_nil, List.append_nil, List.cons_append,
    List.nil_append, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)))

/-! ## The argument arrays at the boundaries where they are read -/

theorem W1_arg0 (c : Dev nD) : W1 m ρ c (Proc.devRef .tc main_arg0) = m ((c : Thread nD τ).loc main_arg0) :=
  ((W1_arr m ρ c 0).trans (((dat0 (V0 m ρ) c).arrAt_in 0 rfl _).trans (A_eq0 (V0 m ρ) c 0))).trans rfl
theorem W1_arg4 (c : Dev nD) : W1 m ρ c (Proc.devRef .tc main_arg4) = m ((c : Thread nD τ).loc main_arg4) :=
  ((W1_arr m ρ c 1).trans (((dat0 (V0 m ρ) c).arrAt_in 1 rfl _).trans (A_eq0 (V0 m ρ) c 1))).trans rfl
theorem W1_arg1 (c : Dev nD) : W1 m ρ c (Proc.devRef .tc main_arg1) = m ((c : Thread nD τ).loc main_arg1) :=
  (W1_of_ne m ρ c main_arg1 (by decide)).trans rfl
theorem W1_arg2 (c : Dev nD) : W1 m ρ c (Proc.devRef .tc main_arg2) = m ((c : Thread nD τ).loc main_arg2) :=
  (W1_of_ne m ρ c main_arg2 (by decide)).trans rfl
theorem W1_arg3 (c : Dev nD) : W1 m ρ c (Proc.devRef .tc main_arg3) = m ((c : Thread nD τ).loc main_arg3) :=
  (W1_of_ne m ρ c main_arg3 (by decide)).trans rfl
theorem W1_arg5 (c : Dev nD) : W1 m ρ c (Proc.devRef .tc main_arg5) = m ((c : Thread nD τ).loc main_arg5) :=
  (W1_of_ne m ρ c main_arg5 (by decide)).trans rfl

theorem W3_arg3 (c : Dev nD) : W3 m ρ c (Proc.devRef .tc main_arg3) = m ((c : Thread nD τ).loc main_arg3) :=
  calc W3 m ρ c (Proc.devRef .tc main_arg3)
    _ = W2 m ρ c (Proc.devRef .tc main_arg3) := W3_of_ne m ρ c main_arg3 (by decide)
    _ = W1 m ρ c (Proc.devRef .tc main_arg3) := by keeps_host1
    _ = m ((c : Thread nD τ).loc main_arg3) := W1_arg3 m ρ c
theorem W3_arg6 (c : Dev nD) : W3 m ρ c (Proc.devRef .tc main_arg6) = m ((c : Thread nD τ).loc main_arg6) :=
  calc W3 m ρ c (Proc.devRef .tc main_arg6)
    _ = W2 m ρ c (Proc.devRef .tc main_arg6) := W3_of_ne m ρ c main_arg6 (by decide)
    _ = W1 m ρ c (Proc.devRef .tc main_arg6) := by keeps_host1
    _ = m ((c : Thread nD τ).loc main_arg6) := (W1_of_ne m ρ c main_arg6 (by decide)).trans rfl
theorem W3_arg7 (c : Dev nD) : W3 m ρ c (Proc.devRef .tc main_arg7) = m ((c : Thread nD τ).loc main_arg7) :=
  calc W3 m ρ c (Proc.devRef .tc main_arg7)
    _ = W2 m ρ c (Proc.devRef .tc main_arg7) := W3_of_ne m ρ c main_arg7 (by decide)
    _ = W1 m ρ c (Proc.devRef .tc main_arg7) := by keeps_host1
    _ = m ((c : Thread nD τ).loc main_arg7) := (W1_of_ne m ρ c main_arg7 (by decide)).trans rfl
theorem W3_arg8 (c : Dev nD) : W3 m ρ c (Proc.devRef .tc main_arg8) = m ((c : Thread nD τ).loc main_arg8) :=
  calc W3 m ρ c (Proc.devRef .tc main_arg8)
    _ = W2 m ρ c (Proc.devRef .tc main_arg8) := W3_of_ne m ρ c main_arg8 (by decide)
    _ = W1 m ρ c (Proc.devRef .tc main_arg8) := by keeps_host1
    _ = m ((c : Thread nD τ).loc main_arg8) := (W1_of_ne m ρ c main_arg8 (by decide)).trans rfl

/-! ## The rectified features -/

/-- The transformed features: every row of x against every column of W. -/
def h0 (x : FVec Ideal S100000x128 .f32) (w : FVec Ideal S128x128 .f32) : FVec Ideal S100000x128 .f32 :=
  fun idx => Val0.mm x w (idx 0) (idx 1)

/-- The rectified features as one function of the five arguments they depend on: max (agg (x W) + b) 0. -/
def hOf (x : FVec Ideal S100000x128 .f32) (ei : IVec S2x1600000 32) (ea : FVec Ideal S1600000 .f32)
    (w : FVec Ideal S128x128 .f32) (b : FVec Ideal S128 .f32) (i : Fin 100000) (d : Fin 128) : EReal :=
  max (Host1.agg (h0 x w) ei ea (ix2 i d) + b (ix1 d)) 0

/-- After region 0 the buffer of the transformed features holds them. -/
theorem W1_v0 (c : Dev nD) :
    (W1 m ρ c (Proc.devRef .tc main_v0) : FVec Ideal S100000x128 .f32)
      = h0 (m ((c : Thread nD τ).loc main_arg0)) (m ((c : Thread nD τ).loc main_arg4)) := by
  funext idx
  obtain ⟨i, j, rfl⟩ : ∃ (i : Fin 100000) (j : Fin 128), idx = ix2 i j := ⟨idx 0, idx 1, eq_ix2 idx⟩
  have h := Val0.result (V0 m ρ) c i j
  rw [show ((dat0 (F := Ideal) (V0 m ρ) c).arrAt 2 cfg0.N) = W1 m ρ c (Proc.devRef .tc main_v0) from (W1_arr m ρ c 2).symm] at h
  exact h

/-- After the first host stretch the aggregation's buffer holds the aggregation of the transformed features. -/
theorem W2_v17 (c : Dev nD) :
    (W2 m ρ c (Proc.devRef .tc main_v17) : FVec Ideal S100000x128 .f32)
      = Host1.agg (h0 (m ((c : Thread nD τ).loc main_arg0)) (m ((c : Thread nD τ).loc main_arg4)))
          (m ((c : Thread nD τ).loc main_arg1)) (m ((c : Thread nD τ).loc main_arg2)) := by
  have h := Host1.after_agg (W1 m ρ c)
  rw [W1_v0 m ρ c, W1_arg1 m ρ c, W1_arg2 m ρ c] at h
  exact h

theorem W2_v18 (c : Dev nD) (d : Fin 128) :
    (W2 m ρ c (Proc.devRef .tc main_v18) : FVec Ideal S1x128 .f32) (ix2 0 d)
      = (m ((c : Thread nD τ).loc main_arg5) : FVec Ideal S128 .f32) (ix1 d) := by
  have h := Host1.after_b (W1 m ρ c) d
  rw [W1_arg5 m ρ c] at h
  exact h

theorem W2_v19 (c : Dev nD) (i : Fin 100000) :
    (W2 m ρ c (Proc.devRef .tc main_v19) : IVec S100000x1 32) (ix2 i 0)
      = (m ((c : Thread nD τ).loc main_arg3) : IVec S100000 32) (ix1 i) := by
  have h := Host1.after_bidx (W1 m ρ c) i
  rw [W1_arg3 m ρ c] at h
  exact h

/-- After region 1 the buffer of the rectified features holds them. -/
theorem W3_h (c : Dev nD) (i : Fin 100000) (d : Fin 128) :
    (W3 m ρ c (Proc.devRef .tc main_v20_0) : FVec Ideal S100000x128 .f32) (ix2 i d)
      = hOf (m ((c : Thread nD τ).loc main_arg0)) (m ((c : Thread nD τ).loc main_arg1)) (m ((c : Thread nD τ).loc main_arg2))
          (m ((c : Thread nD τ).loc main_arg4)) (m ((c : Thread nD τ).loc main_arg5)) i d := by
  have h := Val1H.result_h (V2 m ρ) c i d
  rw [show ((dat1 (F := Ideal) (V2 m ρ) c).arrAt 3 cfg1.N) = W3 m ρ c (Proc.devRef .tc main_v20_0) from (W3_arr m ρ c 3).symm] at h
  rw [h]
  unfold Val1H.relu hOf
  rw [show (V2 m ρ c main_v17 : FVec Ideal S100000x128 .f32) = _ from W2_v17 m ρ c,
    show (V2 m ρ c main_v18 : FVec Ideal S1x128 .f32) (ix2 0 d) = _ from W2_v18 m ρ c d]

/-! ## The result -/

/-- Over real arguments and graph ids in range: the rectified features are real numbers, and the result array holds
    their one-pass normalisation. -/
theorem result (c : Dev nD)
    (xR : Fin 100000 → Fin 128 → ℝ) (eaR : Fin 1600000 → ℝ) (gid : Fin 100000 → Fin 64) (wR : Fin 128 → Fin 128 → ℝ)
    (bR gwR gbR sR : Fin 128 → ℝ)
    (hx : ∀ i k, (m ((c : Thread nD τ).loc main_arg0) : FVec Ideal S100000x128 .f32) (ix2 i k) = ((xR i k : ℝ) : EReal))
    (hea : ∀ e, (m ((c : Thread nD τ).loc main_arg2) : FVec Ideal S1600000 .f32) (ix1 e) = ((eaR e : ℝ) : EReal))
    (hgid : ∀ i, (m ((c : Thread nD τ).loc main_arg3) : IVec S100000 32) (ix1 i) = BitVec.ofNat 32 (gid i).val)
    (hw : ∀ k j, (m ((c : Thread nD τ).loc main_arg4) : FVec Ideal S128x128 .f32) (ix2 k j) = ((wR k j : ℝ) : EReal))
    (hb : ∀ d, (m ((c : Thread nD τ).loc main_arg5) : FVec Ideal S128 .f32) (ix1 d) = ((bR d : ℝ) : EReal))
    (hgw : ∀ d, (m ((c : Thread nD τ).loc main_arg6) : FVec Ideal S128 .f32) (ix1 d) = ((gwR d : ℝ) : EReal))
    (hgb : ∀ d, (m ((c : Thread nD τ).loc main_arg7) : FVec Ideal S128 .f32) (ix1 d) = ((gbR d : ℝ) : EReal))
    (hs : ∀ d, (m ((c : Thread nD τ).loc main_arg8) : FVec Ideal S128 .f32) (ix1 d) = ((sR d : ℝ) : EReal)) :
    ∃ hR : Fin 100000 → Fin 128 → ℝ,
      (∀ i d, hOf (m ((c : Thread nD τ).loc main_arg0)) (m ((c : Thread nD τ).loc main_arg1)) (m ((c : Thread nD τ).loc main_arg2))
          (m ((c : Thread nD τ).loc main_arg4)) (m ((c : Thread nD τ).loc main_arg5)) i d = ((hR i d : ℝ) : EReal))
      ∧ ∀ i d, (W5 m ρ c (Proc.devRef .tc main_v65) : FVec Ideal S100000x128 .f32) (ix2 i d)
          = ((Cert.Spec.outK hR gid sR gwR gbR Cert.Lift.epsR i d : ℝ) : EReal) := by
  -- the transformed features are real: finite sums of products of reals
  have hh0 : ∀ i j, h0 (m ((c : Thread nD τ).loc main_arg0)) (m ((c : Thread nD τ).loc main_arg4)) (ix2 i j)
      = (((∑ k : Fin 128, xR i k * wR k j : ℝ)) : EReal) := by
    intro i j
    show Val0.mm _ _ i j = _
    unfold Val0.mm
    rw [Cert.Lift.coe_sum]
    refine Finset.sum_congr rfl fun k _ => ?_
    rw [hx i k, hw k j, EReal.coe_mul]
  -- so is the aggregation
  obtain ⟨aggR, hagg⟩ := Host1.agg_real (h0 (m ((c : Thread nD τ).loc main_arg0)) (m ((c : Thread nD τ).loc main_arg4)))
    (m ((c : Thread nD τ).loc main_arg1)) (m ((c : Thread nD τ).loc main_arg2)) _ eaR hh0 hea
  -- and the rectified features
  refine ⟨fun i d => max (aggR i d + bR d) 0, ?_, ?_⟩
  · intro i d
    unfold hOf
    rw [hagg i d, hb d, ← EReal.coe_add, ← EReal.coe_zero, Cert.Lift.max_coe]
  · intro i d
    -- region 1's entry contents
    have e17 : ∀ i d, (V2 m ρ c main_v17 : FVec Ideal S100000x128 .f32) (ix2 i d) = ((aggR i d : ℝ) : EReal) := fun i d => by
      rw [show (V2 m ρ c main_v17 : FVec Ideal S100000x128 .f32) = _ from W2_v17 m ρ c]; exact hagg i d
    have e18 : ∀ d, (V2 m ρ c main_v18 : FVec Ideal S1x128 .f32) (ix2 0 d) = ((bR d : ℝ) : EReal) := fun d => by
      rw [show (V2 m ρ c main_v18 : FVec Ideal S1x128 .f32) (ix2 0 d) = _ from W2_v18 m ρ c d]; exact hb d
    have e19 : ∀ i, (V2 m ρ c main_v19 : IVec S100000x1 32) (ix2 i 0) = BitVec.ofNat 32 (gid i).val := fun i => by
      rw [show (V2 m ρ c main_v19 : IVec S100000x1 32) (ix2 i 0) = _ from W2_v19 m ρ c i]; exact hgid i
    -- the two accumulator arrays after region 1
    have hs1 : ∀ (cc : Fin 2) g d, (W3 m ρ c (Proc.devRef .tc main_v20_1) : FVec Ideal S2x64x128 .f32) (ix3 cc g d)
        = ((Cert.Spec.part1 (fun i d => max (aggR i d + bR d) 0) gid 50000 cc.val g d : ℝ) : EReal) := fun cc g d => by
      rw [show W3 m ρ c (Proc.devRef .tc main_v20_1) = (dat1 (F := Ideal) (V2 m ρ) c).arrAt 4 cfg1.N from W3_arr m ρ c 4]
      exact (Val1S.result_sums (V2 m ρ) c aggR bR gid e17 e18 e19 cc g d).1
    have hs2 : ∀ (cc : Fin 2) g d, (W3 m ρ c (Proc.devRef .tc main_v20_2) : FVec Ideal S2x64x128 .f32) (ix3 cc g d)
        = ((Cert.Spec.part2 (fun i d => max (aggR i d + bR d) 0) gid 50000 cc.val g d : ℝ) : EReal) := fun cc g d => by
      rw [show W3 m ρ c (Proc.devRef .tc main_v20_2) = (dat1 (F := Ideal) (V2 m ρ) c).arrAt 5 cfg1.N from W3_arr m ρ c 5]
      exact (Val1S.result_sums (V2 m ρ) c aggR bR gid e17 e18 e19 cc g d).2
    -- the tables after the second host stretch
    have hg3 : ∀ i, (W3 m ρ c (Proc.devRef .tc main_arg3) : IVec S100000 32) (ix1 i) = BitVec.ofNat 32 (gid i).val := fun i => by
      rw [W3_arg3 m ρ c]; exact hgid i
    have hs3 : ∀ d, (W3 m ρ c (Proc.devRef .tc main_arg8) : FVec Ideal S128 .f32) (ix1 d) = ((sR d : ℝ) : EReal) := fun d => by
      rw [W3_arg8 m ρ c]; exact hs d
    obtain ⟨tmean, tmlo, tinv, tilo, tsc⟩ := Host2.after_tables (W3 m ρ c)
      (Cert.Spec.part1 (fun i d => max (aggR i d + bR d) 0) gid 50000) (Cert.Spec.part2 (fun i d => max (aggR i d + bR d) 0) gid 50000)
      gid sR hs1 hs2 hg3 hs3
    -- region 2's entry contents
    have f0 : ∀ i d, (V4 m ρ c main_v20_0 : FVec Ideal S100000x128 .f32) (ix2 i d) = (((max (aggR i d + bR d) 0 : ℝ)) : EReal) := fun i d => by
      rw [show (V4 m ρ c main_v20_0 : FVec Ideal S100000x128 .f32) = W3 m ρ c (Proc.devRef .tc main_v20_0) from Host2.after_h (W3 m ρ c),
        W3_h m ρ c i d]
      unfold hOf
      rw [hagg i d, hb d, ← EReal.coe_add, ← EReal.coe_zero, Cert.Lift.max_coe]
    have f1 : ∀ i, (V4 m ρ c main_v19 : IVec S100000x1 32) (ix2 i 0) = BitVec.ofNat 32 (gid i).val := fun i => by
      rw [show (V4 m ρ c main_v19 : IVec S100000x1 32) = W3 m ρ c (Proc.devRef .tc main_v19) from Host2.after_bidx (W3 m ρ c),
        show W3 m ρ c (Proc.devRef .tc main_v19) = W2 m ρ c (Proc.devRef .tc main_v19) from
          (W3_arr m ρ c 2).trans (((dat1 (V2 m ρ) c).arrAt_in 2 rfl _).trans (A_eq1 (V2 m ρ) c 2))]
      exact e19 i
    have f7 : ∀ d, (V4 m ρ c main_v63 : FVec Ideal S1x128 .f32) (ix2 0 d) = ((gwR d : ℝ) : EReal) := fun d => by
      rw [show (V4 m ρ c main_v63 : FVec Ideal S1x128 .f32) (ix2 0 d) = _ from Host2.after_gw (W3 m ρ c) d, W3_arg6 m ρ c]; exact hgw d
    have f8 : ∀ d, (V4 m ρ c main_v64 : FVec Ideal S1x128 .f32) (ix2 0 d) = ((gbR d : ℝ) : EReal) := fun d => by
      rw [show (V4 m ρ c main_v64 : FVec Ideal S1x128 .f32) (ix2 0 d) = _ from Host2.after_gb (W3 m ρ c) d, W3_arg7 m ρ c]; exact hgb d
    -- the normalisation
    have hfin := Val2.result (V4 m ρ) c (fun i d => max (aggR i d + bR d) 0) gid _ _ sR gwR gbR f0 f1 tmean tmlo tinv tilo tsc f7 f8 i d
    rw [show W5 m ρ c (Proc.devRef .tc main_v65) = (dat2 (F := Ideal) (V4 m ρ) c).arrAt 9 cfg2.N from W5_arr m ρ c 9, hfin]
    refine congrArg (fun r : ℝ => (r : EReal)) ?_
    show _ = Cert.Spec.outK (fun i d => max (aggR i d + bR d) 0) gid sR gwR gbR Cert.Lift.epsR i d
    unfold Cert.Spec.outK Cert.Spec.cen
    rw [Cert.Spec.meanP_parts (fun i d => max (aggR i d + bR d) 0) gid 50000 (by norm_num) (by norm_num),
      Cert.Spec.invP_parts (fun i d => max (aggR i d + bR d) 0) gid sR Cert.Lift.epsR 50000 (by norm_num) (by norm_num)]

end Cert.KernelIdeal.Val

end
-- ==== Proof.LibGatherRows.lean ====
/-
  A gather of whole rows, read at an index.

  `x[idx]` of a table `x : [N, C]` at a column of start indices `idx : [R, 1]` lowers to a gather with offset axis `[1]`,
  collapsed axis `[0]`, start index map `[0]`, the index vector on axis 1 and slices `[1, C]`. Its entry `(r, q)` is the
  table's entry `(ρ, q)`, where the row `ρ` is the start index `idx[r, 0]` read as a signed integer and clamped into
  `[0, N − 1]`. A printed gather record with these dimension numbers is `rowDims N C R _` (its remaining field is a proof).
-/
import Idealize.ShloMosaic.PureOps.ShapeOps
import Idealize.ShloMosaic.Lib.ValueIdx

noncomputable section

namespace Idealize.ShloMosaic.GatherRows

open Idealize.ShloMosaic Idealize.ShloMosaic.ValueIdx

variable {α : Type}

/-- The dimension numbers of a gather of rows of an `[N, C]` table at `[R, 1]` start indices. -/
abbrev rowDims (N C R : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- The row the `r`-th start index selects: read signed, clamped into `[0, N − 1]`. -/
def row {N R w : Nat} (hN : 0 < N) (idx : IVec ⟨2, ![R, 1]⟩ w) (r : Fin R) : Fin N :=
  ⟨min (idx (ix2 r 0)).toInt.toNat (N - 1), by omega⟩

section Coordinates

variable {N C R w : Nat}
  (wf : GatherDims.WF ⟨2, ![N, C]⟩ ⟨2, ![R, 1]⟩ ⟨2, ![R, C]⟩ [1] [0] [] [0] [] 1 ![1, C])
  (idx : IVec ⟨2, ![R, 1]⟩ w) (r : Fin R) (q : Fin C)

/-- There are no batching axes: the batching coordinate vanishes on both operand axes. -/
theorem batchCoord_rows (a : Fin 2) : (rowDims N C R wf).batchCoord (ix2 r q) a = 0 :=
  GatherDims.batchCoord_eq_zero _ _ _ List.not_mem_nil

/-- Operand axis 0 is the collapsed one, so it is not among the kept axes. -/
theorem zero_not_mem_sKept : (0 : Fin 2) ∉ (rowDims N C R wf).sKept := fun h =>
  ((GatherDims.mem_sKept _ _).mp h).1 (List.mem_singleton.mpr rfl)

/-- Operand axis 1 is neither collapsed nor batching: it is the one kept axis. -/
theorem one_mem_sKept : (1 : Fin 2) ∈ (rowDims N C R wf).sKept :=
  (GatherDims.mem_sKept _ _).mpr ⟨show (1 : Fin 2) ∉ ([0] : List (Fin 2)) by decide, List.not_mem_nil⟩

/-- On the collapsed axis the offset coordinate is `0`. -/
theorem offCoord_rows_zero : (rowDims N C R wf).offCoord (ix2 r q) 0 = 0 :=
  GatherDims.offCoord_eq_zero _ _ _ (zero_not_mem_sKept wf)

/-- On the kept axis the offset coordinate is the result's column: the kept axis stands first among the kept axes, the
    first offset axis of the result is its axis 1, and `(r, q)` has `q` there. -/
theorem offCoord_rows_one : (rowDims N C R wf).offCoord (ix2 r q) 1 = q.val := by
  unfold GatherDims.offCoord
  rw [dif_pos (one_mem_sKept wf)]
  rfl

/-- Axis 1 is not in the start index map: the slice starts at `0` there. -/
theorem start_rows_one : (rowDims N C R wf).start (ix2 r q) idx 1 = 0 := by
  unfold GatherDims.start
  rw [dif_neg (show (1 : Fin 2) ∉ ([0] : List (Fin 2)) by decide)]

/-- The start index of result `(r, q)` sits at `(r, 0)`: its batch coordinate `r` on axis 0, the one component on the
    index vector's axis 1. -/
theorem siIdx_rows (c : Fin (rowDims N C R wf).startIndexMap.length) :
    (rowDims N C R wf).siIdx (ix2 r q) c = ix2 r 0 := by
  funext b
  refine Fin.ext ?_
  have hc : c.val = 0 := by have := c.isLt; simpa using this
  match b with
  | ⟨0, _⟩ => rfl
  | ⟨1, _⟩ => exact hc

/-- On axis 0 the slice starts at the start index read signed, clamped so that the one-row slice fits. -/
theorem start_rows_zero :
    (rowDims N C R wf).start (ix2 r q) idx 0 = min (idx (ix2 r 0)).toInt.toNat (N - 1) := by
  unfold GatherDims.start
  rw [dif_pos (show (0 : Fin 2) ∈ (rowDims N C R wf).startIndexMap from List.mem_singleton.mpr rfl), siIdx_rows]
  rfl

end Coordinates

/-- THE GATHER READ AT `(r, q)`: the table at the selected row and the same column. -/
theorem gather_rows_apply {N C R w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (r : Fin R) (q : Fin C) :
    Host.gather (rowDims N C R wf) x idx (ix2 r q) = x (ix2 (row hN idx r) q) := by
  unfold Host.gather
  congr 1
  funext a
  refine Fin.ext ?_
  -- a coordinate of the operand index is the clamped start plus the batching plus the offset coordinate
  match a with
  | ⟨0, _⟩ =>
    show (rowDims N C R wf).start (ix2 r q) idx 0 + (rowDims N C R wf).batchCoord (ix2 r q) 0
      + (rowDims N C R wf).offCoord (ix2 r q) 0 = min (idx (ix2 r 0)).toInt.toNat (N - 1)
    rw [batchCoord_rows, offCoord_rows_zero, start_rows_zero, Nat.add_zero]
  | ⟨1, _⟩ =>
    show (rowDims N C R wf).start (ix2 r q) idx 1 + (rowDims N C R wf).batchCoord (ix2 r q) 1
      + (rowDims N C R wf).offCoord (ix2 r q) 1 = q.val
    rw [batchCoord_rows, offCoord_rows_one, start_rows_one, Nat.add_zero, Nat.zero_add]

end Idealize.ShloMosaic.GatherRows

end
-- ==== Proof.RefA.lean ====
/-
  The reference, first half: the rectified features at an entry, and — when they are real numbers and the graph ids are
  in range — the node counts, the per-graph mean and the centred features.
-/
import proofs.«402418_j35416300323759_3_alg».proof.Proof.Gen.ReferenceIdeal.Read
import proofs.«402418_j35416300323759_3_alg».proof.Proof.SpecR
import proofs.«402418_j35416300323759_3_alg».proof.Proof.Lift
import proofs.«402418_j35416300323759_3_alg».proof.Proof.LibSegmentSum
import proofs.«402418_j35416300323759_3_alg».proof.Proof.LibGatherRows
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem Idealize.ShloMosaic.ValueIdx
open Cert.ReferenceIdeal Cert.ReferenceIdeal.Gen Cert.ReferenceIdeal.Read

namespace Cert.ReferenceIdeal.RefA

variable (x0 : (⟨S100000x128, .f32⟩ : BufTy).Contents (Elt Ideal)) (x1 : (⟨S2x1600000, .i32⟩ : BufTy).Contents (Elt Ideal))
  (x2 : (⟨S1600000, .f32⟩ : BufTy).Contents (Elt Ideal)) (x3 : (⟨S100000, .i32⟩ : BufTy).Contents (Elt Ideal))
  (x4 : (⟨S128x128, .f32⟩ : BufTy).Contents (Elt Ideal)) (x5 x8 : (⟨S128, .f32⟩ : BufTy).Contents (Elt Ideal))

/-! ### Graph ids below 64, stored as 32-bit words -/

/-- A natural number below 64, stored in a 32-bit word, reads back signed as itself. -/
private theorem toInt_ofNat_small (k : Nat) (hk : k < 64) : (BitVec.ofNat 32 k).toInt = (k : Int) := by
  have hn : (BitVec.ofNat 32 k).toNat = k := by
    rw [BitVec.toNat_ofNat]; exact Nat.mod_eq_of_lt (by omega)
  rw [BitVec.toInt_eq_toNat_of_lt (by rw [hn]; omega), hn]

/-- Such a word is not negative: the signed comparison with zero answers false. -/
private theorem cmp_neg (k : Nat) (hk : k < 64) : IntOp.cmpi .slt (BitVec.ofNat 32 k) 0#32 = 0#1 := by
  have h : (BitVec.ofNat 32 k).slt 0#32 = false := by
    rw [BitVec.slt_eq_decide, toInt_ofNat_small k hk]
    simp
  show BitVec.ofBool ((BitVec.ofNat 32 k).slt 0#32) = 0#1
  rw [h]; rfl

/-- So the wrap of a negative index, select (id < 0) (id + 64) id, returns the id itself. -/
private theorem wrap_id (k : Nat) (hk : k < 64) (a : BitVec 32) :
    Scalar.select (IntOp.cmpi .slt (BitVec.ofNat 32 k) 0#32) a (BitVec.ofNat 32 k) = BitVec.ofNat 32 k := by
  rw [cmp_neg k hk]; rfl

/-- A sum, started from zero, over the rows whose id word reads g, of entries that are real numbers, is the real sum
    over the rows of graph g: the id word of row i reads gid i, and two graphs below 64 are equal when their numbers are. -/
private theorem seg_real {n G : Nat} (hG : G ≤ 64) (idv : Fin n → BitVec 32) (gid : Fin n → Fin G)
    (f : Fin n → EReal) (r : Fin n → ℝ) (hid : ∀ i, idv i = BitVec.ofNat 32 (gid i).val)
    (hf : ∀ i, f i = ((r i : ℝ) : EReal)) (g : Fin G) :
    ((0 : ℝ) : EReal) + ∑ i : Fin n, (if (idv i).toInt = (g.val : Int) then f i else 0)
      = ((∑ i : Fin n, (if gid i = g then r i else 0) : ℝ) : EReal) := by
  rw [Cert.Lift.coe_sum, EReal.coe_zero, zero_add]
  refine Finset.sum_congr rfl fun i _ => ?_
  rw [hid i, toInt_ofNat_small _ (by have := (gid i).isLt; omega), hf i]
  by_cases h : gid i = g
  · rw [if_pos h, if_pos (by rw [h])]
  · rw [if_neg h, if_neg (fun e => h (Fin.ext (by exact_mod_cast e))), EReal.coe_zero]

/-- The rectified features at (i, d): max (agg(i, d) + b(d)) 0. -/
theorem h_apply (i : Fin 100000) (d : Fin 128) :
    val_main_v21 (F := Ideal) x0 x1 x2 x4 x5 (ix2 i d)
      = max (val_main_v17 (F := Ideal) x0 x1 x2 x4 (ix2 i d) + x5 (ix1 d)) 0 := by
  -- the bias row is broadcast along the nodes: entry (i, d) of the broadcast is b(d)
  have eb : idx_main_v18 (idx_main_v19 (ix2 i d)) = ix1 d :=
    funext fun a => Fin.ext (by match a with | ⟨0, _⟩ => rfl)
  rw [val_main_v21_apply, val_main_v20_apply, val_main_v19_apply, val_main_v18_apply,
    val_main_call0_v0_apply, val_main_call0_cst_apply, eb]
  simp only [Ideal.maximumf_def, Ideal.addf_def, Ideal.ofBits_def, Ideal.ofBits_zero_f32]

/-- Counts, mean and centred features, over real rectified features, in-range graph ids and a real scale. -/
theorem centred (hR : Fin 100000 → Fin 128 → ℝ) (gid : Fin 100000 → Fin 64) (sR : Fin 128 → ℝ)
    (hh : ∀ i d, val_main_v21 (F := Ideal) x0 x1 x2 x4 x5 (ix2 i d) = ((hR i d : ℝ) : EReal))
    (hgid : ∀ i, x3 (ix1 i) = BitVec.ofNat 32 (gid i).val)
    (hs : ∀ d, x8 (ix1 d) = ((sR d : ℝ) : EReal)) :
    (∀ (g : Fin 64) (u : Fin 1), val_main_v27 (F := Ideal) x3 (ix2 g u) = ((Cert.Spec.cnt gid g : ℝ) : EReal))
    ∧ (∀ (g : Fin 64) (d : Fin 128), val_main_v32 (F := Ideal) x0 x1 x2 x3 x4 x5 (ix2 g d) = ((Cert.Spec.mean hR gid g d : ℝ) : EReal))
    ∧ (∀ (i : Fin 100000) (d : Fin 128), val_main_v43 (F := Ideal) x0 x1 x2 x3 x4 x5 x8 (ix2 i d) = ((Cert.Spec.cen hR gid sR i d : ℝ) : EReal)) := by
  -- entry (i, 0) of the ids column is id(i)
  have e24 : ∀ i : Fin 100000, idx_main_v24 (ix2 i (0 : Fin 1)) = ix1 i :=
    fun i => funext fun a => Fin.ext (by match a with | ⟨0, _⟩ => rfl)
  have e29 : ∀ i : Fin 100000, idx_main_v29 (ix2 i (0 : Fin 1)) = ix1 i :=
    fun i => funext fun a => Fin.ext (by match a with | ⟨0, _⟩ => rfl)
  have e38 : ∀ i : Fin 100000, idx_main_v38 (ix2 i (0 : Fin 1)) = ix1 i :=
    fun i => funext fun a => Fin.ext (by match a with | ⟨0, _⟩ => rfl)
  -- THE COUNTS: the segment sum of ones into zeros counts the nodes of graph g; then the maximum with one
  have hcnt : ∀ (g : Fin 64) (u : Fin 1),
      val_main_v27 (F := Ideal) x3 (ix2 g u) = ((Cert.Spec.cnt gid g : ℝ) : EReal) := by
    intro g u
    have h25 : val_main_v25 (F := Ideal) x3 (ix2 g u)
        = val_main_v23 (F := Ideal) (ix2 g u)
          + ∑ i : Fin 100000, (if (val_main_v24 (F := Ideal) x3 (ix2 i 0)).toInt = (g.val : Int)
              then val_main_v22 (F := Ideal) (ix2 i u) else 0) := by
      unfold val_main_v25
      exact Cert.Lib.SegmentSum.segment_sum_apply (scatter_S64x1_S100000x1_S100000x1_1_0_0_1).wf _ _ _ g u
    have hsum : ((0 : ℝ) : EReal)
          + ∑ i : Fin 100000, (if (val_main_v24 (F := Ideal) x3 (ix2 i 0)).toInt = (g.val : Int)
              then val_main_v22 (F := Ideal) (ix2 i u) else 0)
        = ((∑ i : Fin 100000, (if gid i = g then (1 : ℝ) else 0) : ℝ) : EReal) :=
      seg_real (by decide) (fun i => val_main_v24 (F := Ideal) x3 (ix2 i 0)) gid
        (fun i => val_main_v22 (F := Ideal) (ix2 i u)) (fun _ => 1)
        (fun i => by
          show val_main_v24 (F := Ideal) x3 (ix2 i 0) = _
          rw [val_main_v24_apply, e24 i, hgid i])
        (fun i => by
          show val_main_v22 (F := Ideal) (ix2 i u) = _
          rw [val_main_v22_apply, val_main_cst_1_apply, Ideal.ofBits_def, Cert.Lift.ofBits_one]) g
    rw [val_main_v27_apply, h25, val_main_v23_apply, val_main_cst_2_apply, val_main_v26_apply,
      val_main_cst_3_apply]
    simp only [Ideal.maximumf_def, Ideal.ofBits_def]
    rw [Cert.Lift.ofBits_zero, Cert.Lift.ofBits_one, hsum, Cert.Lift.max_coe]
    rfl
  -- THE MEAN: the segment sum of the rectified features into zeros, divided by the broadcast counts
  have hmean : ∀ (g : Fin 64) (d : Fin 128),
      val_main_v32 (F := Ideal) x0 x1 x2 x3 x4 x5 (ix2 g d) = ((Cert.Spec.mean hR gid g d : ℝ) : EReal) := by
    intro g d
    have e31 : idx_main_v31 (ix2 g d) = ix2 g (0 : Fin 1) :=
      funext fun a => Fin.ext (by match a with | ⟨0, _⟩ => rfl | ⟨1, _⟩ => rfl)
    have h30 : val_main_v30 (F := Ideal) x0 x1 x2 x3 x4 x5 (ix2 g d)
        = val_main_v28 (F := Ideal) (ix2 g d)
          + ∑ i : Fin 100000, (if (val_main_v29 (F := Ideal) x3 (ix2 i 0)).toInt = (g.val : Int)
              then val_main_v21 (F := Ideal) x0 x1 x2 x4 x5 (ix2 i d) else 0) := by
      unfold val_main_v30
      generalize val_main_v21 (F := Ideal) x0 x1 x2 x4 x5 = y
      exact Cert.Lib.SegmentSum.segment_sum_apply (scatter_S64x128_S100000x1_S100000x128_1_0_0_1).wf _ _ y g d
    have hsum : ((0 : ℝ) : EReal)
          + ∑ i : Fin 100000, (if (val_main_v29 (F := Ideal) x3 (ix2 i 0)).toInt = (g.val : Int)
              then val_main_v21 (F := Ideal) x0 x1 x2 x4 x5 (ix2 i d) else 0)
        = ((∑ i : Fin 100000, (if gid i = g then hR i d else 0) : ℝ) : EReal) :=
      seg_real (by decide) (fun i => val_main_v29 (F := Ideal) x3 (ix2 i 0)) gid
        (fun i => val_main_v21 (F := Ideal) x0 x1 x2 x4 x5 (ix2 i d)) (fun i => hR i d)
        (fun i => by
          show val_main_v29 (F := Ideal) x3 (ix2 i 0) = _
          rw [val_main_v29_apply, e29 i, hgid i])
        (fun i => hh i d) g
    rw [val_main_v32_apply, h30, val_main_v31_apply, e31, hcnt g 0, val_main_v28_apply,
      val_main_cst_4_apply]
    simp only [Ideal.hostDivf_def, Ideal.ofBits_def]
    rw [Cert.Lift.ofBits_zero, hsum, Cert.Lift.div_coe_coe _ _ (Cert.Spec.cnt_pos gid g).ne']
    rfl
  refine ⟨hcnt, hmean, fun i d => ?_⟩
  -- THE CENTRED FEATURES: h minus the mean row of the node's graph times the broadcast scale
  have e41 : idx_main_v40 (idx_main_v41 (ix2 i d)) = ix1 d :=
    funext fun a => Fin.ext (by match a with | ⟨0, _⟩ => rfl)
  -- an id in range is not negative, so the wrapped id is the id itself
  have h38 : val_main_v38 (F := Ideal) x3 (ix2 i (0 : Fin 1)) = BitVec.ofNat 32 (gid i).val := by
    rw [val_main_v38_apply, e38 i, val_main_v37_apply, val_main_v34_apply, val_main_v33_apply,
      val_main_c_5_apply, hgid i]
    exact wrap_id _ (gid i).isLt _
  -- the gathered row: the id read signed and clamped into 0 … 63 is the graph of node i
  have hN : 0 < 64 := by decide
  have hrow : GatherRows.row hN (val_main_v38 (F := Ideal) x3) i = gid i := by
    refine Fin.ext ?_
    show min (val_main_v38 (F := Ideal) x3 (ix2 i 0)).toInt.toNat (64 - 1) = (gid i).val
    rw [h38, toInt_ofNat_small _ (gid i).isLt, Int.toNat_natCast]
    have := (gid i).isLt
    omega
  have h39 : val_main_v39 (F := Ideal) x0 x1 x2 x3 x4 x5 (ix2 i d)
      = val_main_v32 (F := Ideal) x0 x1 x2 x3 x4 x5 (ix2 (gid i) d) := by
    unfold val_main_v39
    generalize val_main_v32 (F := Ideal) x0 x1 x2 x3 x4 x5 = y
    exact (GatherRows.gather_rows_apply hN (gather_S64x128_S100000x1_S100000x128_1_0_n_n_0_1_1128).wf y
      (val_main_v38 (F := Ideal) x3) i d).trans (by rw [hrow])
  rw [val_main_v43_apply, val_main_v42_apply, h39, hmean (gid i) d, val_main_v41_apply,
    val_main_v40_apply, e41, hs d, hh i d]
  simp only [Ideal.subf_def, Ideal.mulf_def]
  rw [← EReal.coe_mul, ← EReal.coe_sub]
  rfl

end Cert.ReferenceIdeal.RefA

end
-- ==== Proof.RefB.lean ====
/-
  The reference, second half: from real centred features and node counts, the variance of the centred features, its
  square root, and the normalised result.
-/
import proofs.«402418_j35416300323759_3_alg».proof.Proof.Gen.ReferenceIdeal.Read
import proofs.«402418_j35416300323759_3_alg».proof.Proof.SpecR
import proofs.«402418_j35416300323759_3_alg».proof.Proof.Lift
import proofs.«402418_j35416300323759_3_alg».proof.Proof.LibSegmentSum
import proofs.«402418_j35416300323759_3_alg».proof.Proof.LibGatherRows
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem Idealize.ShloMosaic.ValueIdx
open Cert.ReferenceIdeal Cert.ReferenceIdeal.Gen Cert.ReferenceIdeal.Read

namespace Cert.ReferenceIdeal.RefB

variable (x0 : (⟨S100000x128, .f32⟩ : BufTy).Contents (Elt Ideal)) (x1 : (⟨S2x1600000, .i32⟩ : BufTy).Contents (Elt Ideal))
  (x2 : (⟨S1600000, .f32⟩ : BufTy).Contents (Elt Ideal)) (x3 : (⟨S100000, .i32⟩ : BufTy).Contents (Elt Ideal))
  (x4 : (⟨S128x128, .f32⟩ : BufTy).Contents (Elt Ideal)) (x5 x6 x7 x8 : (⟨S128, .f32⟩ : BufTy).Contents (Elt Ideal))

/-! ### Words: a graph id below 64, read as a signed 32-bit integer -/

/-- A natural number below 64, written as a 32-bit word and read back signed, is itself. -/
private theorem toInt_ofNat_lt (k : Nat) (hk : k < 64) : (BitVec.ofNat 32 k).toInt = (k : Int) := by
  have hn : (BitVec.ofNat 32 k).toNat = k := by
    rw [BitVec.toNat_ofNat]; exact Nat.mod_eq_of_lt (by omega)
  rw [BitVec.toInt_eq_toNat_of_lt (by rw [hn]; omega), hn]

/-- Such a word is not negative: the signed comparison with zero answers the bit 0. -/
private theorem slt_zero_ofNat (k : Nat) (hk : k < 64) : IntOp.cmpi .slt (BitVec.ofNat 32 k) 0#32 = 0#1 := by
  show BitVec.ofBool ((BitVec.ofNat 32 k).slt 0#32) = 0#1
  rw [BitVec.slt_eq_decide, toInt_ofNat_lt k hk, BitVec.toInt_zero, decide_eq_false (by omega)]
  rfl

/-! ### The composed index maps at an entry given by its coordinates -/

/-- Row `i` of the id column reads the id vector at `i`. -/
private theorem idx46_ix (i : Fin 100000) (u : Fin 1) : idx_main_v46 (ix2 i u) = ix1 i := by
  funext a; refine Fin.ext ?_
  match a with
  | ⟨0, _⟩ => rfl

/-- Entry `(g, d)` of the broadcast counts reads the count column at `(g, 0)`. -/
private theorem idx48_ix (g : Fin 64) (d : Fin 128) : idx_main_v48 (ix2 g d) = ix2 g (0 : Fin 1) := by
  funext a; refine Fin.ext ?_
  match a with
  | ⟨0, _⟩ => rfl
  | ⟨1, _⟩ => rfl

/-- Entry `(i, d)` of the broadcast weight reads the weight vector at `d`. -/
private theorem idx5354_ix (i : Fin 100000) (d : Fin 128) : idx_main_v53 (idx_main_v54 (ix2 i d)) = ix1 d := by
  funext a; refine Fin.ext ?_
  match a with
  | ⟨0, _⟩ => rfl

/-- Row `i` of the wrapped id column reads the wrapped id vector at `i`. -/
private theorem idx61_ix (i : Fin 100000) (u : Fin 1) : idx_main_v61 (ix2 i u) = ix1 i := by
  funext a; refine Fin.ext ?_
  match a with
  | ⟨0, _⟩ => rfl

/-- Entry `(i, d)` of the broadcast bias reads the bias vector at `d`. -/
private theorem idx6465_ix (i : Fin 100000) (d : Fin 128) : idx_main_v64 (idx_main_v65 (ix2 i d)) = ix1 d := by
  funext a; refine Fin.ext ?_
  match a with
  | ⟨0, _⟩ => rfl

/-! ### The variance table -/

/-- The segment sum of the squared centred features: entry `(g, d)` is `0 + Σ_i [gid i = g] cen(i, d)²`; an id
    `gid i < 64` read signed is `gid i`, so the row's condition "its id is `g`" is `gid i = g`. -/
private theorem v47_eq (hR : Fin 100000 → Fin 128 → ℝ) (gid : Fin 100000 → Fin 64) (sR : Fin 128 → ℝ)
    (hcen : ∀ (i : Fin 100000) (d : Fin 128), val_main_v43 (F := Ideal) x0 x1 x2 x3 x4 x5 x8 (ix2 i d) = ((Cert.Spec.cen hR gid sR i d : ℝ) : EReal))
    (hgid : ∀ i, x3 (ix1 i) = BitVec.ofNat 32 (gid i).val) (g : Fin 64) (d : Fin 128) :
    val_main_v47 (F := Ideal) x0 x1 x2 x3 x4 x5 x8 (ix2 g d)
      = ((∑ i : Fin 100000, if gid i = g then Cert.Spec.cen hR gid sR i d * Cert.Spec.cen hR gid sR i d else 0 : ℝ) : EReal) := by
  have hU : ∀ i : Fin 100000, val_main_v44 (F := Ideal) x0 x1 x2 x3 x4 x5 x8 (ix2 i d)
      = ((Cert.Spec.cen hR gid sR i d * Cert.Spec.cen hR gid sR i d : ℝ) : EReal) := by
    intro i; rw [val_main_v44_apply, hcen, Ideal.mulf_def, ← EReal.coe_mul]
  have hI : ∀ i : Fin 100000, val_main_v46 (F := Ideal) x3 (ix2 i (0 : Fin 1)) = BitVec.ofNat 32 (gid i).val := by
    intro i; rw [val_main_v46_apply, idx46_ix, hgid]
  have hX : val_main_v45 (F := Ideal) (ix2 g d) = ((0 : ℝ) : EReal) := by
    rw [val_main_v45_apply, val_main_cst_7_apply, Ideal.ofBits_def, Cert.Lift.ofBits_zero]
  unfold val_main_v47
  generalize val_main_v44 (F := Ideal) x0 x1 x2 x3 x4 x5 x8 = U at hU ⊢
  generalize val_main_v46 (F := Ideal) x3 = I at hI ⊢
  generalize val_main_v45 (F := Ideal) = X at hX ⊢
  show Host.scatterAdd (F := Ideal) (φ := .f32) (Cert.Lib.SegmentSum.segDims 64 128 100000 _) X I U (ix2 g d) = _
  rw [Cert.Lib.SegmentSum.segment_sum_apply, hX, EReal.coe_zero, zero_add, Cert.Lift.coe_sum]
  refine Finset.sum_congr rfl fun i _ => ?_
  rw [hI, hU, toInt_ofNat_lt _ (gid i).isLt]
  by_cases h : gid i = g
  · rw [if_pos h, if_pos (by rw [h])]
  · rw [if_neg h, if_neg (fun e => h (Fin.ext (by exact_mod_cast e))), EReal.coe_zero]

/-- The variance of the centred features: the segment sum over the node count, which is at least one. -/
private theorem v49_eq (hR : Fin 100000 → Fin 128 → ℝ) (gid : Fin 100000 → Fin 64) (sR : Fin 128 → ℝ)
    (hcnt : ∀ (g : Fin 64) (u : Fin 1), val_main_v27 (F := Ideal) x3 (ix2 g u) = ((Cert.Spec.cnt gid g : ℝ) : EReal))
    (hcen : ∀ (i : Fin 100000) (d : Fin 128), val_main_v43 (F := Ideal) x0 x1 x2 x3 x4 x5 x8 (ix2 i d) = ((Cert.Spec.cen hR gid sR i d : ℝ) : EReal))
    (hgid : ∀ i, x3 (ix1 i) = BitVec.ofNat 32 (gid i).val) (g : Fin 64) (d : Fin 128) :
    val_main_v49 (F := Ideal) x0 x1 x2 x3 x4 x5 x8 (ix2 g d) = ((Cert.Spec.varR hR gid sR g d : ℝ) : EReal) := by
  unfold Cert.Spec.varR
  rw [val_main_v49_apply, v47_eq x0 x1 x2 x3 x4 x5 x8 hR gid sR hcen hgid g d, val_main_v48_apply, idx48_ix, hcnt,
    Ideal.hostDivf_def, Cert.Lift.div_coe_coe _ _ (Cert.Spec.cnt_pos gid g).ne']

/-- The standard deviation: the square root of the variance plus the positive `ε`, a nonnegative real. -/
private theorem v52_eq (hR : Fin 100000 → Fin 128 → ℝ) (gid : Fin 100000 → Fin 64) (sR : Fin 128 → ℝ)
    (hcnt : ∀ (g : Fin 64) (u : Fin 1), val_main_v27 (F := Ideal) x3 (ix2 g u) = ((Cert.Spec.cnt gid g : ℝ) : EReal))
    (hcen : ∀ (i : Fin 100000) (d : Fin 128), val_main_v43 (F := Ideal) x0 x1 x2 x3 x4 x5 x8 (ix2 i d) = ((Cert.Spec.cen hR gid sR i d : ℝ) : EReal))
    (hgid : ∀ i, x3 (ix1 i) = BitVec.ofNat 32 (gid i).val) (g : Fin 64) (d : Fin 128) :
    val_main_v52 (F := Ideal) x0 x1 x2 x3 x4 x5 x8 (ix2 g d)
      = ((Cert.Spec.stdR hR gid sR Cert.Lift.epsR g d : ℝ) : EReal) := by
  have hnn : 0 ≤ Cert.Spec.varR hR gid sR g d + Cert.Lift.epsR :=
    add_nonneg (Cert.Spec.varR_nonneg hR gid sR g d) Cert.Lift.epsR_pos.le
  unfold Cert.Spec.stdR
  rw [val_main_v52_apply, val_main_v51_apply, v49_eq x0 x1 x2 x3 x4 x5 x8 hR gid sR hcnt hcen hgid g d, val_main_v50_apply,
    val_main_cst_8_apply, Ideal.ofBits_def, Cert.Lift.ofBits_eps, Ideal.addf_def, ← EReal.coe_add, Ideal.hostUnary_sqrt_def,
    Cert.Lift.sqrt_coe_of_nonneg _ hnn]

/-! ### The gathered rows -/

/-- The wrapped id: an id that is not negative is kept. -/
private theorem v60_eq (gid : Fin 100000 → Fin 64) (hgid : ∀ i, x3 (ix1 i) = BitVec.ofNat 32 (gid i).val) (i : Fin 100000) :
    val_main_v60 (F := Ideal) x3 (ix1 i) = BitVec.ofNat 32 (gid i).val := by
  rw [val_main_v60_apply, val_main_v57_apply, val_main_v56_apply, val_main_c_9_apply, hgid, slt_zero_ofNat _ (gid i).isLt,
    select_zero]

/-- The gather of the standard deviation's rows: row `i` is the row of graph `gid i` (the id read signed is
    `gid i ≤ 63`, so the clamp into `0 … 63` keeps it). -/
private theorem v62_eq (hR : Fin 100000 → Fin 128 → ℝ) (gid : Fin 100000 → Fin 64) (sR : Fin 128 → ℝ)
    (hcnt : ∀ (g : Fin 64) (u : Fin 1), val_main_v27 (F := Ideal) x3 (ix2 g u) = ((Cert.Spec.cnt gid g : ℝ) : EReal))
    (hcen : ∀ (i : Fin 100000) (d : Fin 128), val_main_v43 (F := Ideal) x0 x1 x2 x3 x4 x5 x8 (ix2 i d) = ((Cert.Spec.cen hR gid sR i d : ℝ) : EReal))
    (hgid : ∀ i, x3 (ix1 i) = BitVec.ofNat 32 (gid i).val) (i : Fin 100000) (d : Fin 128) :
    val_main_v62 (F := Ideal) x0 x1 x2 x3 x4 x5 x8 (ix2 i d)
      = ((Cert.Spec.stdR hR gid sR Cert.Lift.epsR (gid i) d : ℝ) : EReal) := by
  have hS : ∀ g : Fin 64, val_main_v52 (F := Ideal) x0 x1 x2 x3 x4 x5 x8 (ix2 g d)
      = ((Cert.Spec.stdR hR gid sR Cert.Lift.epsR g d : ℝ) : EReal) :=
    fun g => v52_eq x0 x1 x2 x3 x4 x5 x8 hR gid sR hcnt hcen hgid g d
  have hI : val_main_v61 (F := Ideal) x3 (ix2 i (0 : Fin 1)) = BitVec.ofNat 32 (gid i).val := by
    rw [val_main_v61_apply, idx61_ix, v60_eq x3 gid hgid]
  unfold val_main_v62
  generalize val_main_v52 (F := Ideal) x0 x1 x2 x3 x4 x5 x8 = S at hS ⊢
  generalize val_main_v61 (F := Ideal) x3 = I at hI ⊢
  show Host.gather (GatherRows.rowDims 64 128 100000 _) S I (ix2 i d) = _
  rw [GatherRows.gather_rows_apply (by decide : 0 < 64)]
  have hrow : GatherRows.row (by decide : 0 < 64) I i = gid i := by
    refine Fin.ext ?_
    show min (I (ix2 i 0)).toInt.toNat (64 - 1) = (gid i).val
    rw [hI, toInt_ofNat_lt _ (gid i).isLt, Int.toNat_natCast]
    have := (gid i).isLt
    omega
  rw [hrow, hS]

/-! ### The normalised result -/

/-- The weighted centred features. -/
private theorem v55_eq (hR : Fin 100000 → Fin 128 → ℝ) (gid : Fin 100000 → Fin 64) (sR gwR : Fin 128 → ℝ)
    (hcen : ∀ (i : Fin 100000) (d : Fin 128), val_main_v43 (F := Ideal) x0 x1 x2 x3 x4 x5 x8 (ix2 i d) = ((Cert.Spec.cen hR gid sR i d : ℝ) : EReal))
    (hgw : ∀ d, x6 (ix1 d) = ((gwR d : ℝ) : EReal)) (i : Fin 100000) (d : Fin 128) :
    val_main_v55 (F := Ideal) x0 x1 x2 x3 x4 x5 x6 x8 (ix2 i d) = ((gwR d * Cert.Spec.cen hR gid sR i d : ℝ) : EReal) := by
  rw [val_main_v55_apply, val_main_v54_apply, val_main_v53_apply, idx5354_ix, hgw, hcen, Ideal.mulf_def, ← EReal.coe_mul]

/-- The result at (i, d): gw(d) · cen(i, d) / √(varR(gid i, d) + ε) + gb(d). -/
theorem result (hR : Fin 100000 → Fin 128 → ℝ) (gid : Fin 100000 → Fin 64) (sR gwR gbR : Fin 128 → ℝ)
    (hcnt : ∀ (g : Fin 64) (u : Fin 1), val_main_v27 (F := Ideal) x3 (ix2 g u) = ((Cert.Spec.cnt gid g : ℝ) : EReal))
    (hcen : ∀ (i : Fin 100000) (d : Fin 128), val_main_v43 (F := Ideal) x0 x1 x2 x3 x4 x5 x8 (ix2 i d) = ((Cert.Spec.cen hR gid sR i d : ℝ) : EReal))
    (hgid : ∀ i, x3 (ix1 i) = BitVec.ofNat 32 (gid i).val)
    (hgw : ∀ d, x6 (ix1 d) = ((gwR d : ℝ) : EReal)) (hgb : ∀ d, x7 (ix1 d) = ((gbR d : ℝ) : EReal))
    (i : Fin 100000) (d : Fin 128) :
    val_main_v66 (F := Ideal) x0 x1 x2 x3 x4 x5 x6 x7 x8 (ix2 i d)
      = ((Cert.Spec.outR hR gid sR gwR gbR Cert.Lift.epsR i d : ℝ) : EReal) := by
  -- the divisor is the square root of a positive real, hence not zero
  have hstd : Cert.Spec.stdR hR gid sR Cert.Lift.epsR (gid i) d ≠ 0 := by
    have hpos : 0 < Cert.Spec.varR hR gid sR (gid i) d + Cert.Lift.epsR :=
      add_pos_of_nonneg_of_pos (Cert.Spec.varR_nonneg hR gid sR (gid i) d) Cert.Lift.epsR_pos
    exact (Real.sqrt_pos.mpr hpos).ne'
  unfold Cert.Spec.outR
  rw [val_main_v66_apply, val_main_v63_apply, v55_eq x0 x1 x2 x3 x4 x5 x6 x8 hR gid sR gwR hcen hgw i d,
    v62_eq x0 x1 x2 x3 x4 x5 x8 hR gid sR hcnt hcen hgid i d, val_main_v65_apply, val_main_v64_apply, idx6465_ix, hgb,
    Ideal.hostDivf_def, Cert.Lift.div_coe_coe _ _ hstd, Ideal.addf_def, ← EReal.coe_add]

end Cert.ReferenceIdeal.RefB

end
-- ==== Proof.PreDecode.lean ====
/-
  The precondition read: every float argument holds real numbers, and every graph id is one of 0 … 63.
-/
import proofs.«402418_j35416300323759_3_alg».proof.Pre_finite_inputs
import Idealize.ShloMosaic.Lib.ReduceAll
import Idealize.ShloMosaic.Lib.ValueIdx
import Idealize.ShloMosaic.Lib.StableHlo.Predicate
import Idealize.ShloMosaic.PureOps.Ideal.Laws

noncomputable section

open Idealize.ShloMosaic Idealize.ShloMosaic.ValueIdx

namespace Cert.Pre_finite_inputs.Decode

variable [Cert.Pre_finite_inputs.Facts]

/-- The rank-0 shape has one index. -/
private instance subsingletonScalarIdx : Subsingleton S_.Idx := ⟨fun a b => funext fun d => d.elim0⟩

/-- The pattern 0x7F800000 (exponent all ones, significand zero, sign clear) denotes +∞. -/
private theorem ofBits_posInf : Ideal.ofBits .f32 0x7F800000#32 = (⊤ : EReal) := by
  simp [Ideal.ofBits, Ideal.ieee]

/-- An extended real whose absolute value max x (−x) lies below +∞ is a real number: −∞ has absolute value +∞. -/
private theorem real_of_abs_lt_top (x : EReal) (h : max x (-x) < ⊤) : ∃ r : ℝ, x = (r : EReal) := by
  induction x using EReal.rec with
  | bot => simp at h
  | coe r => exact ⟨r, rfl⟩
  | top => simp at h

/-- ALL FINITE ⇒ ALL REAL, at any shape: where the conjunction over every entry of "|entry| < +∞" is 1, each entry of the
    array is a real number. -/
private theorem all_real {s : Shape} {axes : List (Fin s.rank)} (a : FVec Ideal s .f32)
    (hb : S_.BroadcastsInDim s (![] : Fin 0 → Fin s.rank)) (hr : s.ReducesTo axes S_) (hu : 0 < S_.numel)
    (init : IVec S_ 1) (j : S_.Idx)
    (e : Host.reduce IntOp.andi
        (cmpf .olt (Host.absf a) (broadcastInDim s ![] hb (constant (F := Ideal) S_ .f32 0x7F800000#32))) init hr hu j = 1#1)
    (i : s.Idx) : ∃ r : ℝ, a i = (r : EReal) := by
  have h1 := Host.reduce_andi_all _ init hr hu j e i
  change BitVec.ofBool (decide (max (a i) (-(a i)) < Ideal.ofBits .f32 0x7F800000#32)) = 1#1 at h1
  rw [ofBits_posInf, StableHlo.Predicate.ofBool_eq_one_iff, decide_eq_true_eq] at h1
  exact real_of_abs_lt_top _ h1

/-- A 32-bit word whose signed value lies in [0, 64) is the word of a number below 64. -/
private theorem word_of_range (x : BitVec 32) (h0 : 0 ≤ x.toInt) (h1 : x.toInt < 64) :
    ∃ g : Fin 64, x = BitVec.ofNat 32 g.val := by
  have hc := BitVec.toInt_eq_toNat_cond x
  have hlt := x.isLt
  have hn : x.toInt.toNat = x.toNat := by split at hc <;> omega
  refine ⟨⟨x.toInt.toNat, by omega⟩, ?_⟩
  show x = BitVec.ofNat 32 x.toInt.toNat
  rw [hn]; simp

/-- ALL IN RANGE ⇒ EVERY ID BELOW 64: where the conjunction over every entry of "0 ≤ id ∧ id < 64" (signed) is 1, each
    id is the word of a number below 64. -/
private theorem all_ids {s : Shape} {axes : List (Fin s.rank)} (ids : IVec s 32)
    (hb : S_.BroadcastsInDim s (![] : Fin 0 → Fin s.rank)) (hr : s.ReducesTo axes S_) (hu : 0 < S_.numel)
    (init : IVec S_ 1) (j : S_.Idx)
    (e : Host.reduce IntOp.andi
        (andi (cmpi .sge ids (broadcastInDim s ![] hb (constantI S_ 32 0#32)))
              (cmpi .slt ids (broadcastInDim s ![] hb (constantI S_ 32 64#32)))) init hr hu j = 1#1)
    (i : s.Idx) : ∃ g : Fin 64, ids i = BitVec.ofNat 32 g.val := by
  have h1 := Host.reduce_andi_all _ init hr hu j e i
  change IntOp.andi (IntOp.cmpi .sge (ids i) 0#32) (IntOp.cmpi .slt (ids i) 64#32) = 1#1 at h1
  rw [IntOp.andi_eq_one, IntOp.cmpi_sge, IntOp.cmpi_slt] at h1
  exact word_of_range _ (by simpa using h1.1) (by simpa using h1.2)

/-- The conjunction of two one-bit arrays, read at an index. -/
private theorem andi_at {s : Shape} (x y : IVec s 1) (i : s.Idx) : andi x y i = IntOp.andi (x i) (y i) := rfl

/-- Where the printed predicate is all ones, each float argument is an array of real numbers and the graph ids are the
    32-bit words of numbers below 64. -/
theorem decode (a0 : FVec Ideal S100000x128 .f32) (a1 : IVec S2x1600000 32) (a2 : FVec Ideal S1600000 .f32)
    (a3 : IVec S100000 32) (a4 : FVec Ideal S128x128 .f32) (a5 a6 a7 a8 : FVec Ideal S128 .f32)
    (h : Cert.Pre_finite_inputs.fn (F := Ideal) a0 a1 a2 a3 a4 a5 a6 a7 a8 = (fun _ => 1#1)) :
    (∃ xR : Fin 100000 → Fin 128 → ℝ, ∀ i k, a0 (ix2 i k) = ((xR i k : ℝ) : EReal))
    ∧ (∃ eaR : Fin 1600000 → ℝ, ∀ e, a2 (ix1 e) = ((eaR e : ℝ) : EReal))
    ∧ (∃ gid : Fin 100000 → Fin 64, ∀ i, a3 (ix1 i) = BitVec.ofNat 32 (gid i).val)
    ∧ (∃ wR : Fin 128 → Fin 128 → ℝ, ∀ k j, a4 (ix2 k j) = ((wR k j : ℝ) : EReal))
    ∧ (∃ bR : Fin 128 → ℝ, ∀ d, a5 (ix1 d) = ((bR d : ℝ) : EReal))
    ∧ (∃ gwR : Fin 128 → ℝ, ∀ d, a6 (ix1 d) = ((gwR d : ℝ) : EReal))
    ∧ (∃ gbR : Fin 128 → ℝ, ∀ d, a7 (ix1 d) = ((gbR d : ℝ) : EReal))
    ∧ (∃ sR : Fin 128 → ℝ, ∀ d, a8 (ix1 d) = ((sR d : ℝ) : EReal)) := by
  -- the predicate's one entry is the conjunction of eight all-entries tests
  have h0 : Cert.Pre_finite_inputs.fn (F := Ideal) a0 a1 a2 a3 a4 a5 a6 a7 a8 ix0 = 1#1 := congrFun h ix0
  dsimp only [fn, fn_part1, fn_part2] at h0
  simp only [andi_at, IntOp.andi_eq_one] at h0
  obtain ⟨⟨⟨⟨⟨⟨⟨e0, e2⟩, e4⟩, e5⟩, e6⟩, e7⟩, e8⟩, e3⟩ := h0
  refine ⟨?_, ?_, ?_, ?_, ?_, ?_, ?_, ?_⟩
  · choose xR hx using fun (i : Fin 100000) (k : Fin 128) => all_real a0 _ _ _ _ _ e0 (ix2 i k)
    exact ⟨xR, hx⟩
  · choose eaR hea using fun (e : Fin 1600000) => all_real a2 _ _ _ _ _ e2 (ix1 e)
    exact ⟨eaR, hea⟩
  · choose gid hg using fun (i : Fin 100000) => all_ids a3 _ _ _ _ _ e3 (ix1 i)
    exact ⟨gid, hg⟩
  · choose wR hw using fun (k j : Fin 128) => all_real a4 _ _ _ _ _ e4 (ix2 k j)
    exact ⟨wR, hw⟩
  · choose bR hbR using fun (d : Fin 128) => all_real a5 _ _ _ _ _ e5 (ix1 d)
    exact ⟨bR, hbR⟩
  · choose gwR hgw using fun (d : Fin 128) => all_real a6 _ _ _ _ _ e6 (ix1 d)
    exact ⟨gwR, hgw⟩
  · choose gbR hgb using fun (d : Fin 128) => all_real a7 _ _ _ _ _ e7 (ix1 d)
    exact ⟨gbR, hgb⟩
  · choose sR hs using fun (d : Fin 128) => all_real a8 _ _ _ _ _ e8 (ix1 d)
    exact ⟨sR, hs⟩

end Cert.Pre_finite_inputs.Decode

end
-- ==== Proof.Claims.lean ====
/-
  The five claims, assembled.

  Both programs compute the rectified features h = max (agg (x W) + b) 0 by the same gather–scale–scatter aggregation of
  the same matrix product (the kernel's tiled product and the reference's `dot_general` are the same sums), so the two
  arrays h agree entry by entry (`ref_h_eq`); under the precondition every entry of h is a real number and every graph id
  is one of 0 … 63. From there the kernel's result is the one-pass normalisation of h (per-graph sums of h and h² from two
  accumulator slots, variance by moments clamped at zero, reciprocal square root, one-hot expansion of the tables) and the
  reference's the two-pass normalisation (centre, variance of the centred features, square root, gather of the tables): over
  the reals the two are one function (`Cert.Spec.outK_eq_outR`).
-/
import proofs.«402418_j35416300323759_3_alg».proof.Defs
import proofs.«402418_j35416300323759_3_alg».proof.Proof.Gen.Kernel
import proofs.«402418_j35416300323759_3_alg».proof.Proof.Gen.Kernel.Frame
import proofs.«402418_j35416300323759_3_alg».proof.Proof.Gen.KernelIdeal
import proofs.«402418_j35416300323759_3_alg».proof.Proof.Gen.KernelIdeal.Frame
import proofs.«402418_j35416300323759_3_alg».proof.Proof.Gen.ReferenceIdeal
import proofs.«402418_j35416300323759_3_alg».proof.Proof.Gen.ReferenceIdeal.Run
import proofs.«402418_j35416300323759_3_alg».proof.Proof.Gen.ReferenceIdeal.Read
import proofs.«402418_j35416300323759_3_alg».proof.Proof.Gen.Pre_finite_inputs
import proofs.«402418_j35416300323759_3_alg».proof.Proof.KernelRun
import proofs.«402418_j35416300323759_3_alg».proof.Proof.KernelValue
import proofs.«402418_j35416300323759_3_alg».proof.Proof.RefA
import proofs.«402418_j35416300323759_3_alg».proof.Proof.RefB
import proofs.«402418_j35416300323759_3_alg».proof.Proof.PreDecode

set_option maxRecDepth 16384

noncomputable section

open Idealize.ShloMosaic Idealize.ShloMosaic.TcCoe Idealize.SL.Sem Idealize.ShloMosaic.ValueIdx

namespace Cert.Bridge

open Cert.ReferenceIdeal.Read

/-- The reference's matrix product is the kernel's: at (i, j) both are the sum over k of x(i, k) · W(k, j). -/
theorem ref_h0_eq (x0 : FVec Ideal Cert.KernelIdeal.S100000x128 .f32) (x4 : FVec Ideal Cert.KernelIdeal.S128x128 .f32) :
    val_main_v0 (F := Ideal) x0 x4 = Cert.KernelIdeal.Val.h0 x0 x4 := by
  funext idx
  rw [val_main_v0_apply]
  show _ = Cert.KernelIdeal.Val0.mm x0 x4 (idx 0) (idx 1)
  unfold Cert.KernelIdeal.Val0.mm
  refine Finset.sum_congr rfl fun k _ => ?_
  have el : lidx_main_v0 idx k = ix2 (idx 0) k := funext fun a => Fin.ext (by
    match a with
    | ⟨0, _⟩ => rfl
    | ⟨1, _⟩ => rfl)
  have er : ridx_main_v0 idx k = ix2 k (idx 1) := funext fun a => Fin.ext (by
    match a with
    | ⟨0, _⟩ => rfl
    | ⟨1, _⟩ => rfl)
  rw [el, er]
  rfl

/-- The reference's aggregation is the kernel's: the same operations on the same operands. -/
theorem ref_agg_eq (x0 : FVec Ideal Cert.KernelIdeal.S100000x128 .f32) (x1 : IVec Cert.KernelIdeal.S2x1600000 32)
    (x2 : FVec Ideal Cert.KernelIdeal.S1600000 .f32) (x4 : FVec Ideal Cert.KernelIdeal.S128x128 .f32) :
    val_main_v17 (F := Ideal) x0 x1 x2 x4 = Cert.KernelIdeal.Host1.agg (Cert.KernelIdeal.Val.h0 x0 x4) x1 x2 := by
  unfold val_main_v17 val_main_v14 val_main_v11
  rw [ref_h0_eq x0 x4]
  generalize Cert.KernelIdeal.Val.h0 x0 x4 = h
  rfl

/-- The rectified features of the two programs agree entry by entry. -/
theorem ref_h_eq (x0 : FVec Ideal Cert.KernelIdeal.S100000x128 .f32) (x1 : IVec Cert.KernelIdeal.S2x1600000 32)
    (x2 : FVec Ideal Cert.KernelIdeal.S1600000 .f32) (x4 : FVec Ideal Cert.KernelIdeal.S128x128 .f32)
    (x5 : FVec Ideal Cert.KernelIdeal.S128 .f32) (i : Fin 100000) (d : Fin 128) :
    val_main_v21 (F := Ideal) x0 x1 x2 x4 x5 (ix2 i d) = Cert.KernelIdeal.Val.hOf x0 x1 x2 x4 x5 i d := by
  rw [Cert.ReferenceIdeal.RefA.h_apply, ref_agg_eq]
  rfl

end Cert.Bridge

namespace Cert.Proof.Claims

open Cert.KernelIdeal Cert.KernelIdeal.Gen

/-- The word-level kernel runs and keeps its arguments: the generated frame. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference runs and keeps its arguments: its generated run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The two round trips through the narrower format that the idealization removed are the identity on the exact values. -/
theorem preserves : Cert.preserves_Kernel_KernelIdeal :=
  ⟨IdealRules.truncf_extf.statement _ .f32 .bf16, IdealRules.truncf_extf.statement _ .f32 .bf16⟩

/-- From memories agreeing on the arguments both programs run and end with equal results. -/
theorem algebraic : Cert.algebraic_KernelIdeal_ReferenceIdeal := by
  intro m ρ m' ρ' hpre hagree
  refine ⟨fun c => W5 m ρ c (Proc.devRef .tc main_v65), Cert.KernelIdeal.Run.run_result (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v66_eq, (hagree c).1, (hagree c).2.1, (hagree c).2.2.1, (hagree c).2.2.2.1,
    (hagree c).2.2.2.2.1, (hagree c).2.2.2.2.2.1, (hagree c).2.2.2.2.2.2.1, (hagree c).2.2.2.2.2.2.2.1, (hagree c).2.2.2.2.2.2.2.2]
  -- the precondition read: real arguments, graph ids in range
  obtain ⟨⟨xR, hx⟩, ⟨eaR, hea⟩, ⟨gid, hgid⟩, ⟨wR, hw⟩, ⟨bR, hb⟩, ⟨gwR, hgw⟩, ⟨gbR, hgb⟩, ⟨sR, hs⟩⟩ :=
    Cert.Pre_finite_inputs.Decode.decode _ _ _ _ _ _ _ _ _ (hpre c)
  -- the kernel's side
  obtain ⟨hR, hh, hres⟩ := Cert.KernelIdeal.Val.result m ρ c xR eaR gid wR bR gwR gbR sR hx hea hgid hw hb hgw hgb hs
  funext idx
  obtain ⟨i, d, rfl⟩ : ∃ (i : Fin 100000) (d : Fin 128), idx = ix2 i d := ⟨idx 0, idx 1, eq_ix2 idx⟩
  refine Eq.trans ?_ (hres i d).symm
  -- the reference's side, over the same rectified features
  have hh' : ∀ i d, Cert.ReferenceIdeal.Read.val_main_v21 (F := Ideal) (m ((c.tc : Thread nD τ).loc main_arg0)) (m ((c.tc : Thread nD τ).loc main_arg1))
      (m ((c.tc : Thread nD τ).loc main_arg2)) (m ((c.tc : Thread nD τ).loc main_arg4)) (m ((c.tc : Thread nD τ).loc main_arg5)) (ix2 i d)
      = ((hR i d : ℝ) : EReal) := fun i d => (Cert.Bridge.ref_h_eq _ _ _ _ _ i d).trans (hh i d)
  obtain ⟨hcnt, -, hcen⟩ := Cert.ReferenceIdeal.RefA.centred _ _ _ _ _ _ _ hR gid sR hh' hgid hs
  rw [Cert.ReferenceIdeal.RefB.result _ _ _ _ _ _ _ _ _ hR gid sR gwR gbR hcnt hcen hgid hgw hgb i d,
    Cert.Spec.outK_eq_outR _ _ _ _ _ _ Cert.Lift.epsR_pos]

end Cert.Proof.Claims

end
-- ==== Proof.lean ====
/-
  The certificate: the witnesses of the facts the three programs and the precondition state, then the five claims
  (Proof/Claims.lean): the three programs run and keep their arguments; the idealization removed two round trips through
  the narrower float format, each the identity on exact values; and the idealized kernel and the idealized reference, run
  on the same real arguments with every graph id among 0 … 63, end with the same normalised features.
-/
import proofs.«402418_j35416300323759_3_alg».proof.Defs
import proofs.«402418_j35416300323759_3_alg».proof.Proof.Gen.Kernel
import proofs.«402418_j35416300323759_3_alg».proof.Proof.Gen.Kernel.Skeleton
import proofs.«402418_j35416300323759_3_alg».proof.Proof.Gen.Kernel.Launch
import proofs.«402418_j35416300323759_3_alg».proof.Proof.Gen.Kernel.Points
import proofs.«402418_j35416300323759_3_alg».proof.Proof.Gen.Kernel.Frame
import proofs.«402418_j35416300323759_3_alg».proof.Proof.Gen.KernelIdeal
import proofs.«402418_j35416300323759_3_alg».proof.Proof.Gen.KernelIdeal.Skeleton
import proofs.«402418_j35416300323759_3_alg».proof.Proof.Gen.KernelIdeal.Launch
import proofs.«402418_j35416300323759_3_alg».proof.Proof.Gen.KernelIdeal.Points
import proofs.«402418_j35416300323759_3_alg».proof.Proof.Gen.KernelIdeal.Frame
import proofs.«402418_j35416300323759_3_alg».proof.Proof.Gen.ReferenceIdeal
import proofs.«402418_j35416300323759_3_alg».proof.Proof.Gen.ReferenceIdeal.Run
import proofs.«402418_j35416300323759_3_alg».proof.Proof.Gen.ReferenceIdeal.Read
import proofs.«402418_j35416300323759_3_alg».proof.Proof.Gen.Pre_finite_inputs
import proofs.«402418_j35416300323759_3_alg».proof.Proof.Claims
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts,
  Claims.frame_k, Claims.frame_ki, Claims.frame_ri, Claims.preserves, Claims.algebraic⟩

end Cert.Proof

end
